-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S3200000x16 : Shape := ⟨2, ![3200000, 16]⟩
abbrev S100000 : Shape := ⟨1, ![100000]⟩
abbrev S128x16 : Shape := ⟨2, ![128, 16]⟩
abbrev S16x16 : Shape := ⟨2, ![16, 16]⟩
abbrev S16x8 : Shape := ⟨2, ![16, 8]⟩
abbrev S8 : Shape := ⟨1, ![8]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000x16 : S_.BroadcastsInDim S3200000x16 (![] : Fin 0 → Fin S3200000x16.rank)
  reducesTo_S3200000x16_S_d0_1 : S3200000x16.ReducesTo [0, 1] S_
  bcast_S_S128x16 : S_.BroadcastsInDim S128x16 (![] : Fin 0 → Fin S128x16.rank)
  reducesTo_S128x16_S_d0_1 : S128x16.ReducesTo [0, 1] S_
  bcast_S_S16x16 : S_.BroadcastsInDim S16x16 (![] : Fin 0 → Fin S16x16.rank)
  reducesTo_S16x16_S_d0_1 : S16x16.ReducesTo [0, 1] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part2 {F : FTy → Type} [FloatOps F] (main_arg1 : IVec S2x3200000 32) (main_arg9 : FVec F S8 .f32) (main_v33 : IVec S_ 1) : IVec S_ 1 :=
  let main_v34 : FVec F S8 .f32 := Host.absf main_arg9
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_c_14 : IVec S_ 32 := constantI S_ 32 0#32
  let main_v39 : IVec S2x3200000 32 := broadcastInDim S2x3200000 ![] bcast_S_S2x3200000 main_c_14
  let main_v40 : IVec S2x3200000 1 := cmpi .sge main_arg1 main_v39
  let main_c_15 : IVec S_ 1 := constantI S_ 1 1#1
  let main_v41 : IVec S_ 1 := (fun x v => Host.reduce IntOp.andi x v reducesTo_S2x3200000_S_d0_1 h_S_) main_v40 main_c_15
  let main_v42 : IVec S_ 1 := andi main_v38 main_v41
  let main_c_16 : IVec S_ 32 := constantI S_ 32 100000#32
  let main_v43 : IVec S2x3200000 32 := broadcastInDim S2x3200000 ![] bcast_S_S2x3200000 main_c_16
  let main_v44 : IVec S2x3200000 1 := cmpi .slt main_arg1 main_v43
  let main_c_17 : IVec S_ 1 := constantI S_ 1 1#1
  let main_v45 : IVec S_ 1 := (fun x v => Host.reduce IntOp.andi x v reducesTo_S2x3200000_S_d0_1 h_S_) main_v44 main_c_17
  let main_v46 : IVec S_ 1 := andi main_v42 main_v45
  main_v46

def fn_part1 {F : FTy → Type} [FloatOps F] (main_arg1 : IVec S2x3200000 32) (main_arg6 : FVec F S16x16 .f32) (main_arg7 : FVec F S16x16 .f32) (main_arg8 : FVec F S16x8 .f32) (main_arg9 : FVec F S8 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16x16 .f32 := Host.absf main_arg7
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16x8 .f32 := Host.absf main_arg8
  let main_cst_10 : FVec F S_ .f32 := constant S_ .f32 0x7F800000#32
  let main_v30 : FVec F S16x8 .f32 := broadcastInDim S16x8 ![] bcast_S_S16x8 main_cst_10
  let main_v31 : IVec S16x8 1 := cmpf .olt main_v29 main_v30
  let main_c_11 : IVec S_ 1 := constantI S_ 1 1#1
  let main_v32 : IVec S_ 1 := (fun x v => Host.reduce IntOp.andi x v reducesTo_S16x8_S_d0_1 h_S_) main_v31 main_c_11
  let main_v33 : IVec S_ 1 := andi main_v28 main_v32
  fn_part2 (F := F) main_arg1 main_arg9 main_v33

def fn {F : FTy → Type} [FloatOps F] (main_arg0 : FVec F S100000x128 .f32) (main_arg1 : IVec S2x3200000 32) (main_arg2 : FVec F S3200000x16 .f32) (main_arg3 : IVec S100000 32) (main_arg4 : FVec F S128x16 .f32) (main_arg5 : FVec F S16x16 .f32) (main_arg6 : FVec F S16x16 .f32) (main_arg7 : FVec F S16x16 .f32) (main_arg8 : FVec F S16x8 .f32) (main_arg9 : FVec F S8 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000x16 .f32 := Host.absf main_arg2
  let main_cst_0 : FVec F S_ .f32 := constant S_ .f32 0x7F800000#32
  let main_v5 : FVec F S3200000x16 .f32 := broadcastInDim S3200000x16 ![] bcast_S_S3200000x16 main_cst_0
  let main_v6 : IVec S3200000x16 1 := cmpf .olt main_v4 main_v5
  let main_c_1 : IVec S_ 1 := constantI S_ 1 1#1
  let main_v7 : IVec S_ 1 := (fun x v => Host.reduce IntOp.andi x v reducesTo_S3200000x16_S_d0_1 h_S_) main_v6 main_c_1
  let main_v8 : IVec S_ 1 := andi main_v3 main_v7
  let main_v9 : FVec F S128x16 .f32 := Host.absf main_arg4
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16x16 .f32 := Host.absf main_arg5
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg1 main_arg6 main_arg7 main_arg8 main_arg9 main_v13 main_v16
-- ==== Kernel.lean ====
abbrev S100000x128 : Shape := ⟨2, ![100000, 128]⟩
abbrev S2x3200000 : Shape := ⟨2, ![2, 3200000]⟩
abbrev S3200000x16 : Shape := ⟨2, ![3200000, 16]⟩
abbrev S100000 : Shape := ⟨1, ![100000]⟩
abbrev S128x16 : Shape := ⟨2, ![128, 16]⟩
abbrev S16x16 : Shape := ⟨2, ![16, 16]⟩
abbrev S16x8 : Shape := ⟨2, ![16, 8]⟩
abbrev S8 : Shape := ⟨1, ![8]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S106496x128 : Shape := ⟨2, ![106496, 128]⟩
abbrev S106496x16 : Shape := ⟨2, ![106496, 16]⟩
abbrev S8192x128 : Shape := ⟨2, ![8192, 128]⟩
abbrev S8192x16 : Shape := ⟨2, ![8192, 16]⟩
abbrev S100000x16 : Shape := ⟨2, ![100000, 16]⟩
abbrev S1 : Shape := ⟨1, ![1]⟩
abbrev S1x1 : Shape := ⟨2, ![1, 1]⟩
abbrev S3203072x16 : Shape := ⟨2, ![3203072, 16]⟩
abbrev S100000x1 : Shape := ⟨2, ![100000, 1]⟩
abbrev S64 : Shape := ⟨1, ![64]⟩
abbrev S64x16 : Shape := ⟨2, ![64, 16]⟩
abbrev S64x1 : Shape := ⟨2, ![64, 1]⟩
abbrev S64x8 : Shape := ⟨2, ![64, 8]⟩
abbrev S1x8 : Shape := ⟨2, ![1, 8]⟩

abbrev nBuf : Space → Nat
  | .hbm => 181
  | .vmem => 24
  | .smem => 0
  | _ => 0

abbrev hbmTy0_0 (i : Nat) : BufTy := match i % 128 with
  | 0 => ⟨S100000x128, .f32⟩
  | 1 => ⟨S2x3200000, .i32⟩
  | 2 => ⟨S3200000x16, .f32⟩
  | 3 => ⟨S100000, .i32⟩
  | 4 => ⟨S128x16, .f32⟩
  | 5 => ⟨S16x16, .f32⟩
  | 6 => ⟨S16x16, .f32⟩
  | 7 => ⟨S16x16, .f32⟩
  | 8 => ⟨S16x8, .f32⟩
  | 9 => ⟨S8, .f32⟩
  | 10 => ⟨S1x3200000, .i32⟩
  | 11 => ⟨S3200000, .i32⟩
  | 12 => ⟨S1x3200000, .i32⟩
  | 13 => ⟨S3200000, .i32⟩
  | 14 => ⟨S_, .f32⟩
  | 15 => ⟨S3200000, .f32⟩
  | 16 => ⟨S_, .f32⟩
  | 17 => ⟨S100000, .f32⟩
  | 18 => ⟨S3200000x1, .i32⟩
  | 19 => ⟨S100000, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S3200000, .i32⟩
  | 29 => ⟨S3200000, .i1⟩
  | 30 => ⟨S_, .i32⟩
  | 31 => ⟨S3200000, .i32⟩
  | 32 => ⟨S3200000, .i32⟩
  | 33 => ⟨S3200000, .i32⟩
  | 34 => ⟨S3200000x1, .i32⟩
  | 35 => ⟨S3200000, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S3200000, .f32⟩
  | 46 => ⟨S100000, .f32⟩
  | 47 => ⟨S3200000x1, .f32⟩
  | 48 => ⟨S3200000x16, .f32⟩
  | 49 => ⟨S3200000x16, .f32⟩
  | 50 => ⟨S_, .i32⟩
  | 51 => ⟨S_, .f32⟩
  | 52 => ⟨S106496x128, .f32⟩
  | 53 => ⟨S106496x16, .f32⟩
  | 54 => ⟨S100000x16, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S1, .i32⟩
  | 64 => ⟨S_, .i32⟩
  | 65 => ⟨S3200000x1, .i32⟩
  | 66 => ⟨S3200000x1, .i1⟩
  | 67 => ⟨S1x1, .i32⟩
  | 68 => ⟨S3200000x1, .i32⟩
  | 69 => ⟨S3200000x1, .i1⟩
  | 70 => ⟨S3200000x1, .i1⟩
  | 71 => ⟨S_, .i1⟩
  | 72 => ⟨S3200000, .i1⟩
  | 73 => ⟨S3200000x16, .f32⟩
  | 74 => ⟨S3200000x16, .i1⟩
  | 75 => ⟨S_, .f32⟩
  | 76 => ⟨S3200000x16, .f32⟩
  | 77 => ⟨S3200000x16, .f32⟩
  | 78 => ⟨S3200000x1, .f32⟩
  | 79 => ⟨S3200000x16, .f32⟩
  | 80 => ⟨S3200000x16, .f32⟩
  | 81 => ⟨S_, .i32⟩
  | 82 => ⟨S_, .f32⟩
  | 83 => ⟨S3203072x16, .f32⟩
  | 84 => ⟨S_, .i32⟩
  | 85 => ⟨S_, .f32⟩
  | 86 => ⟨S3203072x16, .f32⟩
  | 87 => ⟨S3203072x16, .f32⟩
  | 88 => ⟨S3200000x16, .f32⟩
  | 89 => ⟨S_, .f32⟩
  | 90 => ⟨S100000x16, .f32⟩
  | 91 => ⟨S_, .i32⟩
  | 92 => ⟨S3200000, .i32⟩
  | 93 => ⟨S3200000, .i1⟩
  | 94 => ⟨S_, .i32⟩
  | 95 => ⟨S3200000, .i32⟩
  | 96 => ⟨S3200000, .i32⟩
  | 97 => ⟨S3200000, .i32⟩
  | 98 => ⟨S3200000x1, .i32⟩
  | 99 => ⟨S100000x16, .f32⟩
  | 100 => ⟨S100000x1, .f32⟩
  | 101 => ⟨S100000x16, .f32⟩
  | 102 => ⟨S100000x16, .f32⟩
  | 103 => ⟨S100000x16, .f32⟩
  | 104 => ⟨S_, .i32⟩
  | 105 => ⟨S_, .f32⟩
  | 106 => ⟨S106496x16, .f32⟩
  | 107 => ⟨S106496x16, .f32⟩
  | 108 => ⟨S100000x16, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S1, .i32⟩
  | 118 => ⟨S_, .i32⟩
  | 119 => ⟨S3200000x1, .i32⟩
  | 120 => ⟨S3200000x1, .i1⟩
  | 121 => ⟨S1x1, .i32⟩
  | 122 => ⟨S3200000x1, .i32⟩
  | 123 => ⟨S3200000x1, .i1⟩
  | 124 => ⟨S3200000x1, .i1⟩
  | 125 => ⟨S_, .i1⟩
  | 126 => ⟨S3200000, .i1⟩
  | 127 => ⟨S3200000x16, .f32⟩
  | _ => ⟨S100000x128, .f32⟩

abbrev hbmTy0_1 (i : Nat) : BufTy := match i % 128 with
  | 0 => ⟨S3200000x16, .i1⟩
  | 1 => ⟨S_, .f32⟩
  | 2 => ⟨S3200000x16, .f32⟩
  | 3 => ⟨S3200000x16, .f32⟩
  | 4 => ⟨S3200000x1, .f32⟩
  | 5 => ⟨S3200000x16, .f32⟩
  | 6 => ⟨S3200000x16, .f32⟩
  | 7 => ⟨S_, .i32⟩
  | 8 => ⟨S_, .f32⟩
  | 9 => ⟨S3203072x16, .f32⟩
  | 10 => ⟨S_, .i32⟩
  | 11 => ⟨S_, .f32⟩
  | 12 => ⟨S3203072x16, .f32⟩
  | 13 => ⟨S3203072x16, .f32⟩
  | 14 => ⟨S3200000x16, .f32⟩
  | 15 => ⟨S_, .f32⟩
  | 16 => ⟨S100000x16, .f32⟩
  | 17 => ⟨S_, .i32⟩
  | 18 => ⟨S3200000, .i32⟩
  | 19 => ⟨S3200000, .i1⟩
  | 20 => ⟨S_, .i32⟩
  | 21 => ⟨S3200000, .i32⟩
  | 22 => ⟨S3200000, .i32⟩
  | 23 => ⟨S3200000, .i32⟩
  | 24 => ⟨S3200000x1, .i32⟩
  | 25 => ⟨S100000x16, .f32⟩
  | 26 => ⟨S100000x1, .f32⟩
  | 27 => ⟨S100000x16, .f32⟩
  | 28 => ⟨S100000x16, .f32⟩
  | 29 => ⟨S100000x16, .f32⟩
  | 30 => ⟨S_, .f32⟩
  | 31 => ⟨S100000x16, .f32⟩
  | 32 => ⟨S100000x16, .f32⟩
  | 33 => ⟨S_, .f32⟩
  | 34 => ⟨S100000, .f32⟩
  | 35 => ⟨S_, .f32⟩
  | 36 => ⟨S64, .f32⟩
  | 37 => ⟨S100000x1, .i32⟩
  | 38 => ⟨S64, .f32⟩
  | 39 => ⟨S_, .f32⟩
  | 40 => ⟨S64x16, .f32⟩
  | 41 => ⟨S100000x1, .i32⟩
  | 42 => ⟨S64x16, .f32⟩
  | 43 => ⟨S_, .f32⟩
  | 44 => ⟨S64, .f32⟩
  | 45 => ⟨S64, .f32⟩
  | 46 => ⟨S64x1, .f32⟩
  | 47 => ⟨S64x16, .f32⟩
  | 48 => ⟨S64x16, .f32⟩
  | 49 => ⟨S64x8, .f32⟩
  | 50 => ⟨S1x8, .f32⟩
  | 51 => ⟨S64x8, .f32⟩
  | 52 => ⟨S64x8, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S8192x128, .f32⟩
  | .local _ .vmem, ⟨1, _⟩ => ⟨S8192x128, .f32⟩
  | .local _ .vmem, ⟨2, _⟩ => ⟨S128x16, .f32⟩
  | .local _ .vmem, ⟨3, _⟩ => ⟨S8192x16, .f32⟩
  | .local _ .vmem, ⟨4, _⟩ => ⟨S8192x16, .f32⟩
  | .local _ .vmem, ⟨5, _⟩ => ⟨S8192x16, .f32⟩
  | .local _ .vmem, ⟨6, _⟩ => ⟨S8192x16, .f32⟩
  | .local _ .vmem, ⟨7, _⟩ => ⟨S8192x16, .f32⟩
  | .local _ .vmem, ⟨8, _⟩ => ⟨S8192x16, .f32⟩
  | .local _ .vmem, ⟨9, _⟩ => ⟨S16x16, .f32⟩
  | .local _ .vmem, ⟨10, _⟩ => ⟨S8192x16, .f32⟩
  | .local _ .vmem, ⟨11, _⟩ => ⟨S8192x16, .f32⟩
  | .local _ .vmem, ⟨12, _⟩ => ⟨S8192x16, .f32⟩
  | .local _ .vmem, ⟨13, _⟩ => ⟨S8192x16, .f32⟩
  | .local _ .vmem, ⟨14, _⟩ => ⟨S16x16, .f32⟩
  | .local _ .vmem, ⟨15, _⟩ => ⟨S8192x16, .f32⟩
  | .local _ .vmem, ⟨16, _⟩ => ⟨S8192x16, .f32⟩
  | .local _ .vmem, ⟨17, _⟩ => ⟨S8192x16, .f32⟩
  | .local _ .vmem, ⟨18, _⟩ => ⟨S8192x16, .f32⟩
  | .local _ .vmem, ⟨19, _⟩ => ⟨S8192x16, .f32⟩
  | .local _ .vmem, ⟨20, _⟩ => ⟨S8192x16, .f32⟩
  | .local _ .vmem, ⟨21, _⟩ => ⟨S16x16, .f32⟩
  | .local _ .vmem, ⟨22, _⟩ => ⟨S8192x16, .f32⟩
  | .local _ .vmem, ⟨23, _⟩ => ⟨S8192x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_call0_v0 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_c_7 : Ref sig .tc := ⟨.hbm, 81, rfl⟩
abbrev main_call2_v0 : Ref sig .tc := ⟨.hbm, 82, rfl⟩
abbrev main_v39 : Ref sig .tc := ⟨.hbm, 83, rfl⟩
abbrev main_c_8 : Ref sig .tc := ⟨.hbm, 84, rfl⟩
abbrev main_call3_v0 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_cst_9 : Ref sig .tc := ⟨.hbm, 89, rfl⟩
abbrev main_v43 : Ref sig .tc := ⟨.hbm, 90, rfl⟩
abbrev main_c_10 : Ref sig .tc := ⟨.hbm, 91, rfl⟩
abbrev main_v44 : Ref sig .tc := ⟨.hbm, 92, rfl⟩
abbrev main_v45 : Ref sig .tc := ⟨.hbm, 93, rfl⟩
abbrev main_c_11 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_c_12 : Ref sig .tc := ⟨.hbm, 104, rfl⟩
abbrev main_call4_v0 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_call5_c : Ref sig .tc := ⟨.hbm, 109, rfl⟩
abbrev main_call5_v0 : Ref sig .tc := ⟨.hbm, 110, rfl⟩
abbrev main_call5_v1 : Ref sig .tc := ⟨.hbm, 111, rfl⟩
abbrev main_call5_c_0 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_call5_v5 : Ref sig .tc := ⟨.hbm, 116, rfl⟩
abbrev main_call5_c_1 : Ref sig .tc := ⟨.hbm, 117, rfl⟩
abbrev main_call5_c_2 : Ref sig .tc := ⟨.hbm, 118, rfl⟩
abbrev main_call5_v6 : Ref sig .tc := ⟨.hbm, 119, rfl⟩
abbrev main_call5_v7 : Ref sig .tc := ⟨.hbm, 120, rfl⟩
abbrev main_call5_v8 : Ref sig .tc := ⟨.hbm, 121, rfl⟩
abbrev main_call5_v9 : Ref sig .tc := ⟨.hbm, 122, rfl⟩
abbrev main_call5_v10 : Ref sig .tc := ⟨.hbm, 123, rfl⟩
abbrev main_call5_v11 : Ref sig .tc := ⟨.hbm, 124, rfl⟩
abbrev main_call5_c_3 : Ref sig .tc := ⟨.hbm, 125, rfl⟩
abbrev main_call5_v12 : Ref sig .tc := ⟨.hbm, 126, rfl⟩
abbrev main_call5_v13 : Ref sig .tc := ⟨.hbm, 127, rfl⟩
abbrev main_call5_v14 : Ref sig .tc := ⟨.hbm, 128, rfl⟩
abbrev main_call5_cst : Ref sig .tc := ⟨.hbm, 129, rfl⟩
abbrev main_call5_v15 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_c_13 : Ref sig .tc := ⟨.hbm, 135, rfl⟩
abbrev main_call6_v0 : Ref sig .tc := ⟨.hbm, 136, rfl⟩
abbrev main_v62 : Ref sig .tc := ⟨.hbm, 137, rfl⟩
abbrev main_c_14 : Ref sig .tc := ⟨.hbm, 138, rfl⟩
abbrev main_call7_v0 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_cst_15 : Ref sig .tc := ⟨.hbm, 143, rfl⟩
abbrev main_v66 : Ref sig .tc := ⟨.hbm, 144, rfl⟩
abbrev main_c_16 : Ref sig .tc := ⟨.hbm, 145, rfl⟩
abbrev main_v67 : Ref sig .tc := ⟨.hbm, 146, rfl⟩
abbrev main_v68 : Ref sig .tc := ⟨.hbm, 147, rfl⟩
abbrev main_c_17 : Ref sig .tc := ⟨.hbm, 148, rfl⟩
abbrev main_v69 : Ref sig .tc := ⟨.hbm, 149, rfl⟩
abbrev main_v70 : Ref sig .tc := ⟨.hbm, 150, rfl⟩
abbrev main_v71 : Ref sig .tc := ⟨.hbm, 151, rfl⟩
abbrev main_v72 : Ref sig .tc := ⟨.hbm, 152, rfl⟩
abbrev main_v73 : Ref sig .tc := ⟨.hbm, 153, rfl⟩
abbrev main_v74 : Ref sig .tc := ⟨.hbm, 154, rfl⟩
abbrev main_v75 : Ref sig .tc := ⟨.hbm, 155, rfl⟩
abbrev main_v76 : Ref sig .tc := ⟨.hbm, 156, rfl⟩
abbrev main_v77 : Ref sig .tc := ⟨.hbm, 157, rfl⟩
abbrev main_cst_18 : Ref sig .tc := ⟨.hbm, 158, rfl⟩
abbrev main_v78 : Ref sig .tc := ⟨.hbm, 159, rfl⟩
abbrev main_v79 : Ref sig .tc := ⟨.hbm, 160, rfl⟩
abbrev main_cst_19 : Ref sig .tc := ⟨.hbm, 161, rfl⟩
abbrev main_v80 : Ref sig .tc := ⟨.hbm, 162, rfl⟩
abbrev main_cst_20 : Ref sig .tc := ⟨.hbm, 163, rfl⟩
abbrev main_v81 : Ref sig .tc := ⟨.hbm, 164, rfl⟩
abbrev main_v82 : Ref sig .tc := ⟨.hbm, 165, rfl⟩
abbrev main_v83 : Ref sig .tc := ⟨.hbm, 166, rfl⟩
abbrev main_cst_21 : Ref sig .tc := ⟨.hbm, 167, rfl⟩
abbrev main_v84 : Ref sig .tc := ⟨.hbm, 168, rfl⟩
abbrev main_v85 : Ref sig .tc := ⟨.hbm, 169, rfl⟩
abbrev main_v86 : Ref sig .tc := ⟨.hbm, 170, rfl⟩
abbrev main_cst_22 : Ref sig .tc := ⟨.hbm, 171, rfl⟩
abbrev main_v87 : Ref sig .tc := ⟨.hbm, 172, rfl⟩
abbrev main_v88 : Ref sig .tc := ⟨.hbm, 173, rfl⟩
abbrev main_v89 : Ref sig .tc := ⟨.hbm, 174, rfl⟩
abbrev main_v90 : Ref sig .tc := ⟨.hbm, 175, rfl⟩
abbrev main_v91 : Ref sig .tc := ⟨.hbm, 176, rfl⟩
abbrev main_v92 : Ref sig .tc := ⟨.hbm, 177, rfl⟩
abbrev main_v93 : Ref sig .tc := ⟨.hbm, 178, rfl⟩
abbrev main_v94 : Ref sig .tc := ⟨.hbm, 179, rfl⟩
abbrev main_v95 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg1_1 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc3_sem0_0 : DmaSem sig := 17
abbrev cc3_sem0_1 : DmaSem sig := 18
abbrev cc3_sem1_0 : DmaSem sig := 19
abbrev cc3_sem1_1 : DmaSem sig := 20
abbrev cc3_sem2_0 : DmaSem sig := 21
abbrev cc3_sem3_0 : DmaSem sig := 22
abbrev cc3_sem3_1 : DmaSem sig := 23

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![391], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S8192x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![391], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S16x16 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8192x16 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  pads_S100000x128_S106496x128_064960_000 : S100000x128.Pads (![0, 0] : Fin 2 → Nat) ![6496, 0] ![0, 0] S106496x128
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S8192x16_S8192x16_0_0 : ∀ a, (![0, 0] : Fin 2 → Nat) a + S8192x16.size a ≤ S8192x16.size a
  h_S8192x16 : 0 < S8192x16.numel
  slices_S106496x16_S100000x16_0_0 : S106496x16.Slices ![0, 0] S100000x16
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  pads_S3200000x16_S3203072x16_030720_000 : S3200000x16.Pads (![0, 0] : Fin 2 → Nat) ![3072, 0] ![0, 0] S3203072x16
  shapeCasts_S8192x16_S8192x16 : S8192x16.ShapeCasts S8192x16
  inb_S16x16_S16x16_0_0 : ∀ a, (![0, 0] : Fin 2 → Nat) a + S16x16.size a ≤ S16x16.size a
  h_S16x16 : 0 < S16x16.numel
  slices_S3203072x16_S3200000x16_0_0 : S3203072x16.Slices ![0, 0] S3200000x16
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  pads_S100000x16_S106496x16_064960_000 : S100000x16.Pads (![0, 0] : Fin 2 → Nat) ![6496, 0] ![0, 0] S106496x16
  bcast_S_S64 : S_.BroadcastsInDim S64 (![] : Fin 0 → Fin S64.rank)
  bcast_S_S64x16 : S_.BroadcastsInDim S64x16 (![] : Fin 0 → Fin S64x16.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S8192x128_S128x16_S8192x16_1_0_0_1_n_n_wf : DotDims.WF S8192x128 S128x16 S8192x16 [1] [0] [0] [1] [] []
  gather_S100000x16_S3200000x1_S3200000x16_1_0_n_n_0_1_116_wf : GatherDims.WF S100000x16 S3200000x1 S3200000x16 [1] [0] [] [0] [] 1 ![1, 16]
  dot_S8192x16_S16x16_S8192x16_1_0_0_1_n_n_wf : DotDims.WF S8192x16 S16x16 S8192x16 [1] [0] [0] [1] [] []
  scatter_S100000x16_S3200000x1_S3200000x16_1_0_0_1_wf : ScatterDims.WF S100000x16 S3200000x1 S3200000x16 [1] [0] [0] 1
  scatter_S64_S100000x1_S100000_n_0_0_1_wf : ScatterDims.WF S64 S100000x1 S100000 [] [0] [0] 1
  scatter_S64x16_S100000x1_S100000x16_1_0_0_1_wf : ScatterDims.WF S64x16 S100000x1 S100000x16 [1] [0] [0] 1
  dot_S64x16_S16x8_S64x8_1_0_0_1_n_n_wf : DotDims.WF S64x16 S16x8 S64x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S106496x128.size a
  hwx0_0 : ∀ i : grid0.Coords, EltTy.bits .f32 = 32 ∨ (Rect.block (s := S106496x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x16.size a ≤ S128x16.size a
  hwx0_1 : ∀ i : grid0.Coords, EltTy.bits .f32 = 32 ∨ (Rect.block (s := S128x16) S128x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x16.size a ≤ S106496x16.size a
  hwx0_2 : ∀ i : grid0.Coords, EltTy.bits .f32 = 32 ∨ (Rect.block (s := S106496x16) S8192x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x16.size a ≤ S3203072x16.size a
  hwx1_0 : ∀ i : grid1.Coords, EltTy.bits .f32 = 32 ∨ (Rect.block (s := S3203072x16) S8192x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x16.size a ≤ S3203072x16.size a
  hwx1_1 : ∀ i : grid1.Coords, EltTy.bits .f32 = 32 ∨ (Rect.block (s := S3203072x16) S8192x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x16.size a ≤ S3203072x16.size a
  hwx1_3 : ∀ i : grid1.Coords, EltTy.bits .f32 = 32 ∨ (Rect.block (s := S3203072x16) S8192x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x16.size a ≤ S106496x16.size a
  hwx2_0 : ∀ i : grid2.Coords, EltTy.bits .f32 = 32 ∨ (Rect.block (s := S106496x16) S8192x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x16.size a ≤ S16x16.size a
  hwx2_1 : ∀ i : grid2.Coords, EltTy.bits .f32 = 32 ∨ (Rect.block (s := S16x16) S16x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8192x16.size a ≤ S106496x16.size a
  hwx2_2 : ∀ i : grid2.Coords, EltTy.bits .f32 = 32 ∨ (Rect.block (s := S106496x16) S8192x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x16.size a ≤ S3203072x16.size a
  hwx3_0 : ∀ i : grid3.Coords, EltTy.bits .f32 = 32 ∨ (Rect.block (s := S3203072x16) S8192x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x16.size a ≤ S3203072x16.size a
  hwx3_1 : ∀ i : grid3.Coords, EltTy.bits .f32 = 32 ∨ (Rect.block (s := S3203072x16) S8192x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x16.size a ≤ S16x16.size a
  hwx3_2 : ∀ i : grid3.Coords, EltTy.bits .f32 = 32 ∨ (Rect.block (s := S16x16) S16x16.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8192x16.size a ≤ S3203072x16.size a
  hwx3_3 : ∀ i : grid3.Coords, EltTy.bits .f32 = 32 ∨ (Rect.block (s := S3203072x16) S8192x16.size (cc3_transform_3 i) (hinb3_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S8192x16_S16x16_S8192x16_1_0_0_1_n_n : DotDims S8192x16 S16x16 S8192x16 where
  lhsContracting := [1]
  rhsContracting := [0]
  lhsNonContracting := [0]
  rhsNonContracting := [1]
  lhsBatch := []
  rhsBatch := []
  wf := dot_S8192x16_S16x16_S8192x16_1_0_0_1_n_n_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x16_S100000x1_S100000x16_1_0_0_1 : ScatterDims S64x16 S100000x1 S100000x16 where
  updateWindowDims := [1]
  insertedWindowDims := [0]
  scatterDimsToOperandDims := [0]
  indexVectorDim := 1
  wf := scatter_S64x16_S100000x1_S100000x16_1_0_0_1_wf
def dot_S64x16_S16x8_S64x8_1_0_0_1_n_n : DotDims S64x16 S16x8 S64x8 where
  lhsContracting := [1]
  rhsContracting := [0]
  lhsNonContracting := [0]
  rhsNonContracting := [1]
  lhsBatch := []
  rhsBatch := []
  wf := dot_S64x16_S16x8_S64x8_1_0_0_1_n_n_wf

abbrev win0_0 : Pipeline.Window sig grid0 :=
  Pipeline.Window.ofSpec (Memref.whole main_v32) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S8192x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S8192x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S8192x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S8192x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v55) S8192x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S16x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S8192x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v62) S8192x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v63) S8192x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S16x16.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v64) S8192x16.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S3200000x16 : Shape := ⟨2, ![3200000, 16]⟩
abbrev S100000 : Shape := ⟨1, ![100000]⟩
abbrev S128x16 : Shape := ⟨2, ![128, 16]⟩
abbrev S16x16 : Shape := ⟨2, ![16, 16]⟩
abbrev S16x8 : Shape := ⟨2, ![16, 8]⟩
abbrev S8 : Shape := ⟨1, ![8]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S100000x16 : Shape := ⟨2, ![100000, 16]⟩
abbrev S3300000x16 : Shape := ⟨2, ![3300000, 16]⟩
abbrev S3300000x1 : Shape := ⟨2, ![3300000, 1]⟩
abbrev S64 : Shape := ⟨1, ![64]⟩
abbrev S100000x1 : Shape := ⟨2, ![100000, 1]⟩
abbrev S64x16 : Shape := ⟨2, ![64, 16]⟩
abbrev S64x1 : Shape := ⟨2, ![64, 1]⟩
abbrev S64x8 : Shape := ⟨2, ![64, 8]⟩
abbrev S1x8 : Shape := ⟨2, ![1, 8]⟩

abbrev nBuf : Space → Nat
  | .hbm => 120
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S3200000x16, .f32⟩
  | .hbm, ⟨3, _⟩ => ⟨S100000, .i32⟩
  | .hbm, ⟨4, _⟩ => ⟨S128x16, .f32⟩
  | .hbm, ⟨5, _⟩ => ⟨S16x16, .f32⟩
  | .hbm, ⟨6, _⟩ => ⟨S16x16, .f32⟩
  | .hbm, ⟨7, _⟩ => ⟨S16x16, .f32⟩
  | .hbm, ⟨8, _⟩ => ⟨S16x8, .f32⟩
  | .hbm, ⟨9, _⟩ => ⟨S8, .f32⟩
  | .hbm, ⟨10, _⟩ => ⟨S100000, .i32⟩
  | .hbm, ⟨11, _⟩ => ⟨S1x3200000, .i32⟩
  | .hbm, ⟨12, _⟩ => ⟨S3200000, .i32⟩
  | .hbm, ⟨13, _⟩ => ⟨S3300000, .i32⟩
  | .hbm, ⟨14, _⟩ => ⟨S1x3200000, .i32⟩
  | .hbm, ⟨15, _⟩ => ⟨S3200000, .i32⟩
  | .hbm, ⟨16, _⟩ => ⟨S3300000, .i32⟩
  | .hbm, ⟨17, _⟩ => ⟨S_, .f32⟩
  | .hbm, ⟨18, _⟩ => ⟨S100000x16, .f32⟩
  | .hbm, ⟨19, _⟩ => ⟨S3300000x16, .f32⟩
  | .hbm, ⟨20, _⟩ => ⟨S_, .f32⟩
  | .hbm, ⟨21, _⟩ => ⟨S3300000, .f32⟩
  | .hbm, ⟨22, _⟩ => ⟨S_, .f32⟩
  | .hbm, ⟨23, _⟩ => ⟨S100000, .f32⟩
  | .hbm, ⟨24, _⟩ => ⟨S3300000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000, .f32⟩
  | .hbm, ⟨33, _⟩ => ⟨S_, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S_, .i32⟩
  | .hbm, ⟨47, _⟩ => ⟨S3300000, .i32⟩
  | .hbm, ⟨48, _⟩ => ⟨S3300000, .i1⟩
  | .hbm, ⟨49, _⟩ => ⟨S_, .i32⟩
  | .hbm, ⟨50, _⟩ => ⟨S3300000, .i32⟩
  | .hbm, ⟨51, _⟩ => ⟨S3300000, .i32⟩
  | .hbm, ⟨52, _⟩ => ⟨S3300000, .i32⟩
  | .hbm, ⟨53, _⟩ => ⟨S3300000x1, .i32⟩
  | .hbm, ⟨54, _⟩ => ⟨S3300000, .f32⟩
  | .hbm, ⟨55, _⟩ => ⟨S3300000, .f32⟩
  | .hbm, ⟨56, _⟩ => ⟨S100000x16, .f32⟩
  | .hbm, ⟨57, _⟩ => ⟨S3300000x16, .f32⟩
  | .hbm, ⟨58, _⟩ => ⟨S3300000x1, .f32⟩
  | .hbm, ⟨59, _⟩ => ⟨S_, .i32⟩
  | .hbm, ⟨60, _⟩ => ⟨S3300000, .i32⟩
  | .hbm, ⟨61, _⟩ => ⟨S3300000, .i1⟩
  | .hbm, ⟨62, _⟩ => ⟨S_, .i32⟩
  | .hbm, ⟨63, _⟩ => ⟨S3300000, .i32⟩
  | .hbm, ⟨64, _⟩ => ⟨S3300000, .i32⟩
  | .hbm, ⟨65, _⟩ => ⟨S3300000, .i32⟩
  | .hbm, ⟨66, _⟩ => ⟨S3300000x1, .i32⟩
  | .hbm, ⟨67, _⟩ => ⟨S3300000x16, .f32⟩
  | .hbm, ⟨68, _⟩ => ⟨S3300000x16, .f32⟩
  | .hbm, ⟨69, _⟩ => ⟨S3300000x16, .f32⟩
  | .hbm, ⟨70, _⟩ => ⟨S3300000x16, .f32⟩
  | .hbm, ⟨71, _⟩ => ⟨S_, .f32⟩
  | .hbm, ⟨72, _⟩ => ⟨S100000x16, .f32⟩
  | .hbm, ⟨73, _⟩ => ⟨S3300000x1, .i32⟩
  | .hbm, ⟨74, _⟩ => ⟨S100000x16, .f32⟩
  | .hbm, ⟨75, _⟩ => ⟨S_, .f32⟩
  | .hbm, ⟨76, _⟩ => ⟨S100000x16, .f32⟩
  | .hbm, ⟨77, _⟩ => ⟨S100000x16, .f32⟩
  | .hbm, ⟨78, _⟩ => ⟨S100000x16, .f32⟩
  | .hbm, ⟨79, _⟩ => ⟨S3300000x16, .f32⟩
  | .hbm, ⟨80, _⟩ => ⟨S3300000x1, .f32⟩
  | .hbm, ⟨81, _⟩ => ⟨S_, .i32⟩
  | .hbm, ⟨82, _⟩ => ⟨S3300000, .i32⟩
  | .hbm, ⟨83, _⟩ => ⟨S3300000, .i1⟩
  | .hbm, ⟨84, _⟩ => ⟨S_, .i32⟩
  | .hbm, ⟨85, _⟩ => ⟨S3300000, .i32⟩
  | .hbm, ⟨86, _⟩ => ⟨S3300000, .i32⟩
  | .hbm, ⟨87, _⟩ => ⟨S3300000, .i32⟩
  | .hbm, ⟨88, _⟩ => ⟨S3300000x1, .i32⟩
  | .hbm, ⟨89, _⟩ => ⟨S3300000x16, .f32⟩
  | .hbm, ⟨90, _⟩ => ⟨S3300000x16, .f32⟩
  | .hbm, ⟨91, _⟩ => ⟨S3300000x16, .f32⟩
  | .hbm, ⟨92, _⟩ => ⟨S3300000x16, .f32⟩
  | .hbm, ⟨93, _⟩ => ⟨S_, .f32⟩
  | .hbm, ⟨94, _⟩ => ⟨S100000x16, .f32⟩
  | .hbm, ⟨95, _⟩ => ⟨S3300000x1, .i32⟩
  | .hbm, ⟨96, _⟩ => ⟨S100000x16, .f32⟩
  | .hbm, ⟨97, _⟩ => ⟨S_, .f32⟩
  | .hbm, ⟨98, _⟩ => ⟨S100000x16, .f32⟩
  | .hbm, ⟨99, _⟩ => ⟨S100000x16, .f32⟩
  | .hbm, ⟨100, _⟩ => ⟨S_, .f32⟩
  | .hbm, ⟨101, _⟩ => ⟨S100000, .f32⟩
  | .hbm, ⟨102, _⟩ => ⟨S_, .f32⟩
  | .hbm, ⟨103, _⟩ => ⟨S64, .f32⟩
  | .hbm, ⟨104, _⟩ => ⟨S100000x1, .i32⟩
  | .hbm, ⟨105, _⟩ => ⟨S64, .f32⟩
  | .hbm, ⟨106, _⟩ => ⟨S_, .f32⟩
  | .hbm, ⟨107, _⟩ => ⟨S64x16, .f32⟩
  | .hbm, ⟨108, _⟩ => ⟨S100000x1, .i32⟩
  | .hbm, ⟨109, _⟩ => ⟨S64x16, .f32⟩
  | .hbm, ⟨110, _⟩ => ⟨S_, .f32⟩
  | .hbm, ⟨111, _⟩ => ⟨S64, .f32⟩
  | .hbm, ⟨112, _⟩ => ⟨S64, .f32⟩
  | .hbm, ⟨113, _⟩ => ⟨S64x1, .f32⟩
  | .hbm, ⟨114, _⟩ => ⟨S64x16, .f32⟩
  | .hbm, ⟨115, _⟩ => ⟨S64x16, .f32⟩
  | .hbm, ⟨116, _⟩ => ⟨S64x8, .f32⟩
  | .hbm, ⟨117, _⟩ => ⟨S1x8, .f32⟩
  | .hbm, ⟨118, _⟩ => ⟨S64x8, .f32⟩
  | .hbm, ⟨119, _⟩ => ⟨S64x8, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_2 : Ref sig .tc := ⟨.hbm, 26, rfl⟩
abbrev main_v13 : Ref sig .tc := ⟨.hbm, 27, rfl⟩
abbrev main_v14 : Ref sig .tc := ⟨.hbm, 28, rfl⟩
abbrev main_cst_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_call0_v0 : Ref sig .tc := ⟨.hbm, 34, rfl⟩
abbrev main_call0_v1 : Ref sig .tc := ⟨.hbm, 35, rfl⟩
abbrev main_v18 : Ref sig .tc := ⟨.hbm, 36, rfl⟩
abbrev main_c : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_c_9 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call1_cst : Ref sig .tc := ⟨.hbm, 75, rfl⟩
abbrev main_call1_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_v54 : Ref sig .tc := ⟨.hbm, 82, rfl⟩
abbrev main_v55 : Ref sig .tc := ⟨.hbm, 83, rfl⟩
abbrev main_c_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_call2_cst : Ref sig .tc := ⟨.hbm, 97, rfl⟩
abbrev main_call2_v0 : Ref sig .tc := ⟨.hbm, 98, rfl⟩
abbrev main_v67 : Ref sig .tc := ⟨.hbm, 99, rfl⟩
abbrev main_cst_14 : Ref sig .tc := ⟨.hbm, 100, rfl⟩
abbrev main_v68 : Ref sig .tc := ⟨.hbm, 101, rfl⟩
abbrev main_cst_15 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_16 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_17 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S100000x16 : S_.BroadcastsInDim S100000x16 (![] : Fin 0 → Fin S100000x16.rank)
  concatenates_S3200000x16_S100000x16_S3300000x16_d0 : Shape.Concatenates [S3200000x16, S100000x16] S3300000x16 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S64 : S_.BroadcastsInDim S64 (![] : Fin 0 → Fin S64.rank)
  bcast_S100000_S100000x1_0 : S100000.BroadcastsInDim S100000x1 (![0] : Fin 1 → Fin S100000x1.rank)
  bcast_S_S64x16 : S_.BroadcastsInDim S64x16 (![] : Fin 0 → Fin S64x16.rank)
  bcast_S64_S64x1_0 : S64.BroadcastsInDim S64x1 (![0] : Fin 1 → Fin S64x1.rank)
  bcast_S64x1_S64x16_0_1 : S64x1.BroadcastsInDim S64x16 (![0, 1] : Fin 2 → Fin S64x16.rank)
  bcast_S8_S1x8_1 : S8.BroadcastsInDim S1x8 (![1] : Fin 1 → Fin S1x8.rank)
  bcast_S1x8_S64x8_0_1 : S1x8.BroadcastsInDim S64x8 (![0, 1] : Fin 2 → Fin S64x8.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x128_S128x16_S100000x16_1_0_0_1_n_n_wf : DotDims.WF S100000x128 S128x16 S100000x16 [1] [0] [0] [1] [] []
  dot_S3300000x16_S16x16_S3300000x16_1_0_0_1_n_n_wf : DotDims.WF S3300000x16 S16x16 S3300000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  scatter_S64_S100000x1_S100000_n_0_0_1_wf : ScatterDims.WF S64 S100000x1 S100000 [] [0] [0] 1
  scatter_S64x16_S100000x1_S100000x16_1_0_0_1_wf : ScatterDims.WF S64x16 S100000x1 S100000x16 [1] [0] [0] 1
  dot_S64x16_S16x8_S64x8_1_0_0_1_n_n_wf : DotDims.WF S64x16 S16x8 S64x8 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S3300000x16_S16x16_S3300000x16_1_0_0_1_n_n : DotDims S3300000x16 S16x16 S3300000x16 where
  lhsContracting := [1]
  rhsContracting := [0]
  lhsNonContracting := [0]
  rhsNonContracting := [1]
  lhsBatch := []
  rhsBatch := []
  wf := dot_S3300000x16_S16x16_S3300000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x16_S100000x1_S100000x16_1_0_0_1 : ScatterDims S64x16 S100000x1 S100000x16 where
  updateWindowDims := [1]
  insertedWindowDims := [0]
  scatterDimsToOperandDims := [0]
  indexVectorDim := 1
  wf := scatter_S64x16_S100000x1_S100000x16_1_0_0_1_wf
def dot_S64x16_S16x8_S64x8_1_0_0_1_n_n : DotDims S64x16 S16x8 S64x8 where
  lhsContracting := [1]
  rhsContracting := [0]
  lhsNonContracting := [0]
  rhsNonContracting := [1]
  lhsBatch := []
  rhsBatch := []
  wf := dot_S64x16_S16x8_S64x8_1_0_0_1_n_n_wf

class Facts : Prop extends Facts₀ where

variable [Facts]
-- ==== Proof.LibRowGather.lean ====
/-
  A lookup of table rows by a column of row numbers, `table[ids]`, read at one entry.

  For a table of N rows and D columns and a column of R row numbers (carried as R×1 start indices), the gather
  with offset axis 1, collapsed operand axis 0, start-index map [0], index-vector axis 1 and slice sizes [1, D]
  has at (p, k) the table's entry at row `ids[p]` — read as a signed integer and clamped into [0, N − 1], as every
  start index of a gather is — and column k. Axis 0 of the operand is collapsed, so it carries only the clamped
  start; axis 1 is not in the start-index map, so it carries only the result's offset coordinate k.
-/
import Idealize.ShloMosaic.Lib.ValueIdx

noncomputable section

namespace Cert.LibRowGather

open Idealize.ShloMosaic Idealize.ShloMosaic.ValueIdx

variable {α : Type}

/-- A word read as a signed integer and clamped into the rows 0 … N − 1 of a table. -/
def clampRow (N : Nat) (hN : 0 < N) {w : Nat} (v : BitVec w) : Fin N :=
  ⟨min v.toInt.toNat (N - 1), by omega⟩

/-- Those dimension numbers, for a table [N, D], start indices [R, 1] and a result [R, D]. -/
abbrev rowDims (N D R : Nat)
    (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- THE LOOKUP READ AT (p, k): the table at the clamped row number `ids[p, 0]` and column k. -/
theorem gather_row_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (ids : IVec ⟨2, ![R, 1]⟩ w) (p : Fin R) (k : Fin D) :
    Host.gather (rowDims N D R wf) x ids (ix2 p k) = x (ix2 (clampRow N hN (ids (ix2 p (0 : Fin 1)))) k) := by
  unfold Host.gather
  congr 1
  funext a
  refine Fin.ext ?_
  match a with
  | ⟨0, _⟩ =>
    show (rowDims N D R wf).start (ix2 p k) ids 0 + (rowDims N D R wf).batchCoord (ix2 p k) 0
        + (rowDims N D R wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D R wf).startIndexMap from List.mem_singleton.mpr rfl)]
    have hsi : (rowDims N D R wf).siIdx (ix2 p k) ⟨List.idxOf (0 : Fin 2) (rowDims N D R wf).startIndexMap,
        List.idxOf_lt_length_iff.2 (List.mem_singleton.mpr rfl)⟩ = ix2 p (0 : Fin 1) := by
      funext c; refine Fin.ext ?_
      match c with
      | ⟨0, _⟩ => rfl
      | ⟨1, _⟩ => rfl
    rw [hsi]
    rfl
  | ⟨1, _⟩ =>
    show (rowDims N D R wf).start (ix2 p k) ids 1 + (rowDims N D R wf).batchCoord (ix2 p k) 1
        + (rowDims N D R wf).offCoord (ix2 p k) 1 = k.val
    have hsm : ¬ (1 : Fin 2) ∈ (rowDims N D R wf).startIndexMap :=
      fun h => absurd (congrArg Fin.val (List.mem_singleton.mp h)) Nat.one_ne_zero
    have hk : (1 : Fin 2) ∈ (rowDims N D R wf).sKept :=
      (GatherDims.mem_sKept _ _).mpr ⟨fun h => absurd (congrArg Fin.val (List.mem_singleton.mp h)) Nat.one_ne_zero, List.not_mem_nil⟩
    rw [GatherDims.batchCoord_eq_zero _ _ _ List.not_mem_nil]
    unfold GatherDims.start GatherDims.offCoord
    rw [dif_neg hsm, dif_pos hk]
    simp only [Nat.add_zero, Nat.zero_add]
    rfl

end Cert.LibRowGather

end
-- ==== Proof.Spec.lean ====
/-
  The message-passing network as plain mathematics on the extended reals.

  A graph of 100000 nodes and 3200000 directed edges (edge e runs from node src e to node dst e, both read off a
  2 × 3200000 table of 32-bit words), a feature row per node and an attribute row per edge. With cnt n the number
  of edges that arrive at n, every node carries the scale dinv n = 1 / √(max (cnt n + 1) 1) (the "+ 1" is the
  node's own loop), every edge the weight nrm e = dinv (src e) · dinv (dst e). One layer sends along edge e the row
  (nrm e · attr e) · Wₑ + nrm e · (h · Wₙ)(src e), adds up what arrives at each node, and adds the node's own
  row scaled by dinv n². Two such layers with a rectifier after each, the mean of the node rows over each of the 64
  groups the nodes are labelled with, and a final affine map give the result.
-/
import Idealize.ShloMosaic.PureOps.Ideal
import Idealize.ShloMosaic.Lib.ValueIdx
import Idealize.ShloMosaic.Lib.IdealHost
import Idealize.ShloMosaic.PureOps.Ideal.Laws
import proofs.«401563_j56057913147714_2_alg».proof.Proof.LibRowGather

noncomputable section

namespace Cert.Spec

open Idealize.ShloMosaic Idealize.ShloMosaic.ValueIdx Cert.LibRowGather
open scoped BigOperators

/-- The number of nodes, of edges, of groups. -/
abbrev NN : Nat := 100000
abbrev EE : Nat := 3200000
abbrev GG : Nat := 64

theorem hNN : 0 < NN := by decide

/-- The edge table (row 0 the sources, row 1 the destinations), the edge attributes, a weight matrix. -/
abbrev EdgeIx := (⟨2, ![2, 3200000]⟩ : Shape).Idx → BitVec 32
abbrev EdgeAttr := (⟨2, ![3200000, 16]⟩ : Shape).Idx → EReal
abbrev Wt (K D : Nat) := (⟨2, ![K, D]⟩ : Shape).Idx → EReal
/-- A feature row per node. -/
abbrev NodeF (K : Nat) := Fin NN → Fin K → EReal

/-- The numbers one and zero as the programs write them. -/
def one : EReal := Ideal.ofBits .f32 0x3F800000#32
def zero : EReal := Ideal.ofBits .f32 0x00000000#32

/-- The source and destination words of edge e, and the nodes they name (a word outside the node range is clamped
    into it, as a lookup does). -/
def srcW (ei : EdgeIx) (e : Fin EE) : BitVec 32 := ei (ix2 (0 : Fin 2) e)
def dstW (ei : EdgeIx) (e : Fin EE) : BitVec 32 := ei (ix2 (1 : Fin 2) e)
def srcN (ei : EdgeIx) (e : Fin EE) : Fin NN := clampRow NN hNN (srcW ei e)
def dstN (ei : EdgeIx) (e : Fin EE) : Fin NN := clampRow NN hNN (dstW ei e)

/-- The edges that arrive at node n. -/
def into (ei : EdgeIx) (n : Fin NN) : Finset (Fin EE) :=
  Finset.univ.filter fun e => (dstW ei e).toInt = (n.val : ℤ)

/-- How many edges arrive at n; the node's scale; the edge's weight. -/
def cnt (ei : EdgeIx) (n : Fin NN) : EReal := ∑ _e ∈ into ei n, one
def dinv (ei : EdgeIx) (n : Fin NN) : EReal := Ideal.rsqrt (max ((zero + cnt ei n) + one) one)
def nrm (ei : EdgeIx) (e : Fin EE) : EReal := dinv ei (srcN ei e) * dinv ei (dstN ei e)

/-- A node-wise linear map. -/
def lin {K : Nat} (h : NodeF K) (W : Wt K 16) : NodeF 16 := fun n j => ∑ k : Fin K, h n k * W (ix2 k j)

/-- What edge e sends, and what node n holds after one layer. -/
def msg (ei : EdgeIx) (ea : EdgeAttr) (ne : NodeF 16) (We : Wt 16 16) (e : Fin EE) (j : Fin 16) : EReal :=
  (∑ k : Fin 16, (nrm ei e * ea (ix2 e k)) * We (ix2 k j)) + nrm ei e * ne (srcN ei e) j
def agg (ei : EdgeIx) (ea : EdgeAttr) (ne : NodeF 16) (We : Wt 16 16) : NodeF 16 := fun n j =>
  (zero + ∑ e ∈ into ei n, msg ei ea ne We e j) + (dinv ei n * dinv ei n) * ne n j

/-- The rectifier. -/
def relu (h : NodeF 16) : NodeF 16 := fun n j => max (h n j) zero

/-- The nodes of group g; the group's mean row; the final affine map. -/
def grp (bi : (⟨1, ![100000]⟩ : Shape).Idx → BitVec 32) (g : Fin GG) : Finset (Fin NN) :=
  Finset.univ.filter fun n => (bi (ix1 n)).toInt = (g.val : ℤ)
def pooled (bi : (⟨1, ![100000]⟩ : Shape).Idx → BitVec 32) (h : NodeF 16) (g : Fin GG) (j : Fin 16) : EReal :=
  Ideal.div (zero + ∑ n ∈ grp bi g, h n j) (max (zero + ∑ _n ∈ grp bi g, one) one)
def head (bi : (⟨1, ![100000]⟩ : Shape).Idx → BitVec 32) (h : NodeF 16) (nW : Wt 16 8)
    (nb : (⟨1, ![8]⟩ : Shape).Idx → EReal) (g : Fin GG) (o : Fin 8) : EReal :=
  (∑ j : Fin 16, pooled bi h g j * nW (ix2 j o)) + nb (ix1 o)

/-- The two layers' node rows. -/
def ne1 (x : (⟨2, ![100000, 128]⟩ : Shape).Idx → EReal) (W1n : Wt 128 16) : NodeF 16 :=
  lin (fun n k => x (ix2 n k)) W1n
def h1 (x : (⟨2, ![100000, 128]⟩ : Shape).Idx → EReal) (ei : EdgeIx) (ea : EdgeAttr) (W1n : Wt 128 16) (W1e : Wt 16 16) : NodeF 16 :=
  agg ei ea (ne1 x W1n) W1e
def ne2 (x : (⟨2, ![100000, 128]⟩ : Shape).Idx → EReal) (ei : EdgeIx) (ea : EdgeAttr) (W1n : Wt 128 16) (W1e W2n : Wt 16 16) : NodeF 16 :=
  lin (relu (h1 x ei ea W1n W1e)) W2n
def h2 (x : (⟨2, ![100000, 128]⟩ : Shape).Idx → EReal) (ei : EdgeIx) (ea : EdgeAttr) (W1n : Wt 128 16) (W1e W2n W2e : Wt 16 16) : NodeF 16 :=
  relu (agg ei ea (ne2 x ei ea W1n W1e W2n) W2e)

/-- THE RESULT at group g and output column o. -/
def out (x : (⟨2, ![100000, 128]⟩ : Shape).Idx → EReal) (ei : EdgeIx) (ea : EdgeAttr)
    (bi : (⟨1, ![100000]⟩ : Shape).Idx → BitVec 32) (W1n : Wt 128 16) (W1e W2n W2e : Wt 16 16) (nW : Wt 16 8)
    (nb : (⟨1, ![8]⟩ : Shape).Idx → EReal) (g : Fin GG) (o : Fin 8) : EReal :=
  head bi (h2 x ei ea W1n W1e W2n W2e) nW nb g o

/-! ## The scales are non-negative real numbers -/

theorem zero_eq : zero = 0 := Ideal.ofBits_zero_f32

theorem one_eq : one = 1 := Ideal.ofBits_one_f32

/-- The reciprocal square root of a number that is at least one is a non-negative real number. -/
theorem rsqrt_nonneg_of_one_le (y : EReal) (h : 1 ≤ y) : 0 ≤ Ideal.rsqrt y := by
  induction y using EReal.rec with
  | bot => exact absurd (le_bot_iff.mp h) (by rw [← EReal.coe_one]; exact EReal.coe_ne_bot 1)
  | coe r =>
    have hr : (1 : ℝ) ≤ r := by exact_mod_cast h
    rw [Ideal.rsqrt_coe, if_neg (by linarith), if_neg (by linarith)]
    exact EReal.coe_nonneg.mpr (inv_nonneg.mpr (Real.sqrt_nonneg r))
  | top => rw [Ideal.rsqrt_top]

theorem rsqrt_ne_top_of_one_le (y : EReal) (h : 1 ≤ y) : Ideal.rsqrt y ≠ ⊤ := by
  induction y using EReal.rec with
  | bot => exact absurd (le_bot_iff.mp h) (by rw [← EReal.coe_one]; exact EReal.coe_ne_bot 1)
  | coe r =>
    have hr : (1 : ℝ) ≤ r := by exact_mod_cast h
    rw [Ideal.rsqrt_coe, if_neg (by linarith), if_neg (by linarith)]
    exact EReal.coe_ne_top _
  | top => rw [Ideal.rsqrt_top]; exact EReal.zero_ne_top

/-- A node's scale is a non-negative real number: the number under the root is at least one. -/
theorem dinv_nonneg (ei : EdgeIx) (n : Fin NN) : 0 ≤ dinv ei n :=
  rsqrt_nonneg_of_one_le _ (by rw [← one_eq]; exact le_max_right _ _)

theorem dinv_ne_top (ei : EdgeIx) (n : Fin NN) : dinv ei n ≠ ⊤ :=
  rsqrt_ne_top_of_one_le _ (by rw [← one_eq]; exact le_max_right _ _)

/-- A node's scale as a real number. -/
theorem dinv_eq_coe (ei : EdgeIx) (n : Fin NN) : ∃ r : ℝ, 0 ≤ r ∧ dinv ei n = (r : EReal) := by
  have h0 := dinv_nonneg ei n
  have ht := dinv_ne_top ei n
  have hb : dinv ei n ≠ ⊥ := fun hb => absurd h0 (by rw [hb]; exact not_le.mpr EReal.bot_lt_zero)
  refine ⟨(dinv ei n).toReal, EReal.toReal_nonneg h0, (EReal.coe_toReal ht hb).symm⟩

/-- So is every product of two scales: an edge's weight, a node's own weight. -/
theorem dinv_mul_nonneg (ei : EdgeIx) (a b : Fin NN) : 0 ≤ dinv ei a * dinv ei b := by
  obtain ⟨r, hr, er⟩ := dinv_eq_coe ei a
  obtain ⟨s, hs, es⟩ := dinv_eq_coe ei b
  rw [er, es, ← EReal.coe_mul]
  exact EReal.coe_nonneg.mpr (mul_nonneg hr hs)

theorem dinv_mul_ne_top (ei : EdgeIx) (a b : Fin NN) : dinv ei a * dinv ei b ≠ ⊤ := by
  obtain ⟨r, hr, er⟩ := dinv_eq_coe ei a
  obtain ⟨s, hs, es⟩ := dinv_eq_coe ei b
  rw [er, es, ← EReal.coe_mul]
  exact EReal.coe_ne_top _

theorem nrm_nonneg (ei : EdgeIx) (e : Fin EE) : 0 ≤ nrm ei e := dinv_mul_nonneg ei _ _
theorem nrm_ne_top (ei : EdgeIx) (e : Fin EE) : nrm ei e ≠ ⊤ := dinv_mul_ne_top ei _ _

/-- A node number as a row of the node arrays padded to 106496 rows; an edge number as a row of the edge arrays padded
    to 3203072 rows; an edge number and a node number as rows of the 3300000-row arrays that list the edges and then one
    loop per node. -/
def upN (n : Fin NN) : Fin 106496 := Fin.castLE (by decide) n
def upE (e : Fin EE) : Fin 3203072 := Fin.castLE (by decide) e
def cE (e : Fin EE) : Fin 3300000 := Fin.castLE (by decide) e
def cL (n : Fin NN) : Fin 3300000 := ⟨3200000 + n.val, by have h : n.val < 100000 := n.isLt; omega⟩

/-- The range every word of the edge table is assumed to lie in: a node number. -/
def InRange (ei : EdgeIx) : Prop :=
  ∀ (r : Fin 2) (e : Fin EE), 0 ≤ (ei (ix2 r e)).toInt ∧ (ei (ix2 r e)).toInt < 100000

end Cert.Spec

end
-- ==== Proof.PreDecode.lean ====
/-
  The precondition read back: every word of the edge table is a node number.

  The precondition is a conjunction of one-bit scalars: eight say that every entry of a real array is finite, and the last
  two say that every word w of the 2 × 3200000 edge table has 0 ≤ w and w < 100000, both read signed. Each of those two is
  the conjunction, over all entries, of one comparison per entry (the word against the constant laid out over the whole
  table). When the whole conjunction is 1, each conjunct is 1; a conjunction over all entries that is 1 has a 1 at every
  entry; and a signed comparison that is 1 says the inequality between the signed values of the two words.
-/
import proofs.«401563_j56057913147714_2_alg».proof.Pre_finite_inputs
import proofs.«401563_j56057913147714_2_alg».proof.Proof.Gen.Pre_finite_inputs
import proofs.«401563_j56057913147714_2_alg».proof.Proof.Spec
import Idealize.ShloMosaic.Lib.ReduceAll
import Idealize.ShloMosaic.Lib.ValueIdx

noncomputable section

namespace Cert.PreDecode

open Idealize.ShloMosaic Idealize.ShloMosaic.ValueIdx Cert.Pre_finite_inputs

/-- The scalar shape has one index. -/
instance : Subsingleton S_.Idx := ⟨fun a b => funext fun d => d.elim0⟩

/-- The last part of the precondition ends in  (… ∧ all (w ≥ 0)) ∧ all (w < 100000)  over the words w of the edge table.
    When it is 1, both comparisons are 1 at every entry i: the constant laid out over the table reads as itself at i. -/
theorem part2_words [Facts] (x1 : IVec S2x3200000 32) (x9 : FVec Ideal S8 .f32) (v33 : IVec S_ 1)
    (h : fn_part2 (F := Ideal) x1 x9 v33 ix0 = 1#1) (i : S2x3200000.Idx) :
    IntOp.cmpi .sge (x1 i) 0#32 = 1#1 ∧ IntOp.cmpi .slt (x1 i) 100000#32 = 1#1 := by
  unfold fn_part2 at h
  -- the outermost conjunction: (everything before) ∧ all (w < 100000)
  obtain ⟨h42, h45⟩ := IntOp.andi_eq_one.1 h
  -- the one inside it: (everything before) ∧ all (w ≥ 0)
  obtain ⟨-, h41⟩ := IntOp.andi_eq_one.1 h42
  -- a conjunction over all entries that is 1 is 1 at entry i
  have a := Host.reduce_andi_all _ _ _ _ ix0 h41 i
  have b := Host.reduce_andi_all _ _ _ _ ix0 h45 i
  exact ⟨a, b⟩

/-- The whole precondition is its last part applied to the conjunction of the earlier conjuncts, so the two comparisons
    hold at every entry; read signed, they say 0 ≤ w and w < 100000. -/
theorem words_of_pre [Facts] (x0 : FVec Ideal S100000x128 .f32) (x1 : IVec S2x3200000 32) (x2 : FVec Ideal S3200000x16 .f32)
    (x3 : IVec S100000 32) (x4 : FVec Ideal S128x16 .f32) (x5 x6 x7 : FVec Ideal S16x16 .f32) (x8 : FVec Ideal S16x8 .f32)
    (x9 : FVec Ideal S8 .f32)
    (h : Cert.Pre_finite_inputs.fn (F := Ideal) x0 x1 x2 x3 x4 x5 x6 x7 x8 x9 = fun _ => 1#1) (i : S2x3200000.Idx) :
    0 ≤ (x1 i).toInt ∧ (x1 i).toInt < 100000 := by
  have e : fn_part2 (F := Ideal) x1 x9 _ ix0 = 1#1 := congrFun h ix0
  obtain ⟨hge, hlt⟩ := part2_words x1 x9 _ e i
  have h0 := IntOp.cmpi_sge.1 hge
  have h1 := IntOp.cmpi_slt.1 hlt
  rw [show (0#32 : BitVec 32).toInt = 0 from by decide] at h0
  rw [show (100000#32 : BitVec 32).toInt = 100000 from by decide] at h1
  exact ⟨h0, h1⟩

/-- THE RANGE OF THE EDGE TABLE: under the precondition every source and destination word is a node number. -/
theorem inRange_of_pre [Cert.Pre_finite_inputs.Facts] (x0 : FVec Ideal S100000x128 .f32) (x1 : IVec S2x3200000 32)
    (x2 : FVec Ideal S3200000x16 .f32) (x3 : IVec S100000 32) (x4 : FVec Ideal S128x16 .f32)
    (x5 x6 x7 : FVec Ideal S16x16 .f32) (x8 : FVec Ideal S16x8 .f32) (x9 : FVec Ideal S8 .f32)
    (h : Cert.Pre_finite_inputs.fn (F := Ideal) x0 x1 x2 x3 x4 x5 x6 x7 x8 x9 = fun _ => 1#1) : Cert.Spec.InRange x1 :=
  fun r e => words_of_pre x0 x1 x2 x3 x4 x5 x6 x7 x8 x9 h (ix2 r e)

end Cert.PreDecode

end
-- ==== Proof.Assembly.lean ====
/-
  The five claims from the two value theorems.

  Both programs compute, for every group g and output column o, the number Spec.out of the ten argument arrays,
  provided every word of the edge table is a node number, which the precondition says. The kernel's run ends with
  its result buffer at the last boundary's contents, which the kernel's value theorem reads as Spec.out; the
  reference's run ends with its result at the composed term of its operations, which the reference's value theorem
  reads as Spec.out of the same arrays (the two memories agree on the arguments). The three frames are the runs with
  the result dropped, and the idealization rewrote nothing.
-/
import proofs.«401563_j56057913147714_2_alg».proof.Defs
import proofs.«401563_j56057913147714_2_alg».proof.Proof.Gen.Kernel
import proofs.«401563_j56057913147714_2_alg».proof.Proof.Gen.Kernel.Skeleton
import proofs.«401563_j56057913147714_2_alg».proof.Proof.Gen.Kernel.Launch
import proofs.«401563_j56057913147714_2_alg».proof.Proof.Gen.Kernel.Points
import proofs.«401563_j56057913147714_2_alg».proof.Proof.Gen.Kernel.Frame
import proofs.«401563_j56057913147714_2_alg».proof.Proof.Gen.KernelIdeal
import proofs.«401563_j56057913147714_2_alg».proof.Proof.Gen.KernelIdeal.Skeleton
import proofs.«401563_j56057913147714_2_alg».proof.Proof.Gen.KernelIdeal.Launch
import proofs.«401563_j56057913147714_2_alg».proof.Proof.Gen.KernelIdeal.Points
import proofs.«401563_j56057913147714_2_alg».proof.Proof.Gen.KernelIdeal.Frame
import proofs.«401563_j56057913147714_2_alg».proof.Proof.Gen.ReferenceIdeal
import proofs.«401563_j56057913147714_2_alg».proof.Proof.Gen.Pre_finite_inputs
import proofs.«401563_j56057913147714_2_alg».proof.Proof.KRun
import proofs.«401563_j56057913147714_2_alg».proof.Proof.RefRun
import proofs.«401563_j56057913147714_2_alg».proof.Proof.RefRead
import proofs.«401563_j56057913147714_2_alg».proof.Proof.PreDecode
import proofs.«401563_j56057913147714_2_alg».proof.Proof.Spec
import Idealize.ShloMosaic.Lib.ValueIdx
import Idealize.ShloMosaic.Adequacy
import Idealize.ShloMosaic.Init

noncomputable section

namespace Cert.Proof

open Idealize.ShloMosaic Idealize.ShloMosaic.TcCoe Idealize.SL.Sem

/-- The word-level kernel runs and leaves its arguments as launched. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- No operation was rewritten when the kernel was printed for the extended reals. -/
theorem preserves : Cert.preserves_Kernel_KernelIdeal := trivial

/-- The two programs end with equal results: each result is Spec.out of the argument arrays, entry by entry. -/
theorem algebraic_of
    (hK : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.Spec.InRange (m ((c.tc : Thread Cert.KernelIdeal.nD Cert.KernelIdeal.τ).loc Cert.KernelIdeal.main_arg1)) →
      ∀ (g : Fin 64) (o : Fin 8),
        (Cert.KernelIdeal.Gen.W21 m ρ c (Proc.devRef .tc Cert.KernelIdeal.main_v95) : Cert.KernelIdeal.S64x8.Idx → EReal) (ValueIdx.ix2 g o)
          = Cert.Spec.out (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9)) g o)
    (hRef : ∀ (x0 : (⟨2, ![100000, 128]⟩ : Shape).Idx → EReal) (x1 : Cert.Spec.EdgeIx) (x2 : Cert.Spec.EdgeAttr)
      (x3 : (⟨1, ![100000]⟩ : Shape).Idx → BitVec 32) (x4 : Cert.Spec.Wt 128 16) (x5 x6 x7 : Cert.Spec.Wt 16 16)
      (x8 : Cert.Spec.Wt 16 8) (x9 : (⟨1, ![8]⟩ : Shape).Idx → EReal) (hR : Cert.Spec.InRange x1) (g : Fin 64) (o : Fin 8),
      Cert.ReferenceIdeal.ReadP.val_main_v83 (F := Ideal) x0 x1 x2 x3 x4 x5 x6 x7 x8 x9 (ValueIdx.ix2 g o)
        = Cert.Spec.out x0 x1 x2 x3 x4 x5 x6 x7 x8 x9 g o) :
    Cert.algebraic_KernelIdeal_ReferenceIdeal := by
  intro m ρ m' ρ' hpre hagree
  refine ⟨fun c => Cert.KernelIdeal.Gen.W21 m ρ c (Proc.devRef .tc Cert.KernelIdeal.main_v95),
    Cert.KernelIdeal.Gen.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  -- the reference's result is the last stage of its operations, of arguments that are the kernel's
  rw [Cert.ReferenceIdeal.ReadP.val_main_v83_eq]
  obtain ⟨e0, e1, e2, e3, e4, e5, e6, e7, e8, e9⟩ := hagree c
  rw [e0, e1, e2, e3, e4, e5, e6, e7, e8, e9]
  -- under the precondition every word of the edge table is a node number
  have hR := Cert.PreDecode.inRange_of_pre _ _ _ _ _ _ _ _ _ _ (hpre c)
  refine funext fun (i : Cert.KernelIdeal.S64x8.Idx) => ?_
  obtain ⟨g, o, rfl⟩ : ∃ (g : Fin 64) (o : Fin 8), i = ValueIdx.ix2 g o := ⟨i 0, i 1, ValueIdx.eq_ix2 i⟩
  exact (hRef _ _ _ _ _ _ _ _ _ _ hR g o).trans (hK m ρ c hR g o).symm

/-- EVERYTHING THE CERTIFICATE CLAIMS, from the two value theorems. -/
theorem claim_of
    (hK : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Cert.Spec.InRange (m ((c.tc : Thread Cert.KernelIdeal.nD Cert.KernelIdeal.τ).loc Cert.KernelIdeal.main_arg1)) →
      ∀ (g : Fin 64) (o : Fin 8),
        (Cert.KernelIdeal.Gen.W21 m ρ c (Proc.devRef .tc Cert.KernelIdeal.main_v95) : Cert.KernelIdeal.S64x8.Idx → EReal) (ValueIdx.ix2 g o)
          = Cert.Spec.out (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
              (m ((c.tc : Thread Cert.KernelIdeal.nD Cert.KernelIdeal.τ).loc Cert.KernelIdeal.main_arg6))
              (m ((c.tc : Thread Cert.KernelIdeal.nD Cert.KernelIdeal.τ).loc Cert.KernelIdeal.main_arg7))
              (m ((c.tc : Thread Cert.KernelIdeal.nD Cert.KernelIdeal.τ).loc Cert.KernelIdeal.main_arg8))
              (m ((c.tc : Thread Cert.KernelIdeal.nD Cert.KernelIdeal.τ).loc Cert.KernelIdeal.main_arg9)) g o)
    (hRef : ∀ (x0 : (⟨2, ![100000, 128]⟩ : Shape).Idx → EReal) (x1 : Cert.Spec.EdgeIx) (x2 : Cert.Spec.EdgeAttr)
      (x3 : (⟨1, ![100000]⟩ : Shape).Idx → BitVec 32) (x4 : Cert.Spec.Wt 128 16) (x5 x6 x7 : Cert.Spec.Wt 16 16)
      (x8 : Cert.Spec.Wt 16 8) (x9 : (⟨1, ![8]⟩ : Shape).Idx → EReal) (hR : Cert.Spec.InRange x1) (g : Fin 64) (o : Fin 8),
      Cert.ReferenceIdeal.ReadP.val_main_v83 (F := Ideal) x0 x1 x2 x3 x4 x5 x6 x7 x8 x9 (ValueIdx.ix2 g o)
        = Cert.Spec.out x0 x1 x2 x3 x4 x5 x6 x7 x8 x9 g o) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of hK hRef⟩

end Cert.Proof

end
-- ==== Proof.Keep.lean ====
/- What a buffer holds at a later boundary of the program when nothing in between writes it: a host operation
  rewrites only its result buffer and a pallas_call only its own arrays, so a buffer that is the result of none of
  the operations and an array of none of the calls between two boundaries holds at the later one what it held at the
  earlier one. Each fact below walks back, stretch by stretch and call by call, from the boundary where a value is
  consumed to the boundary where it was produced (or to the launch memory, for an argument).
-/
import proofs.«401563_j56057913147714_2_alg».proof.Proof.Gen.KernelIdeal.Frame

set_option maxRecDepth 16384

noncomputable section

namespace Cert.KernelIdeal.Keep

open Idealize.ShloMosaic Idealize.ShloMosaic.TcCoe Idealize.ShloMosaic.StableHlo
open Idealize.SL Idealize.SL.Sem
open Cert.KernelIdeal Cert.KernelIdeal.Gen

variable {F : FTy → Type} [FloatOps F]
variable (m : (ℓ : Loc nD τ sig) → Buf (Elt F) ℓ) (ρ : Dev nD → PrngReg)

/-- No operation of one literal stretch writes the buffer: every result buffer is another reference. -/
macro "no_write" ops:ident : tactic =>
  `(tactic| (
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

theorem arg4_W2 (c : Dev nD) : W2 m ρ c (Proc.devRef .tc main_arg4) = m ((c : Thread nD τ).loc main_arg4) :=
  calc W2 m ρ c (Proc.devRef .tc main_arg4)
    _ = W1 m ρ c (Proc.devRef .tc main_arg4) := StableHlo.after_of_forall_not_mem (b := Proc.devRef .tc main_arg4) _ _ (List.forall_iff_forall_mem.mp (by no_write hostOps0_1))
    _ = W0 m ρ c (Proc.devRef .tc main_arg4) := StableHlo.after_of_forall_not_mem (b := Proc.devRef .tc main_arg4) _ _ (List.forall_iff_forall_mem.mp (by no_write hostOps0))
    _ = m ((c : Thread nD τ).loc main_arg4) := rfl

theorem v1_W4 (c : Dev nD) : W4 m ρ c (Proc.devRef .tc main_v1) = W1 m ρ c (Proc.devRef .tc main_v1) :=
  calc W4 m ρ c (Proc.devRef .tc main_v1)
    _ = W3 m ρ c (Proc.devRef .tc main_v1) := StableHlo.after_of_forall_not_mem (b := Proc.devRef .tc main_v1) _ _ (List.forall_iff_forall_mem.mp (by no_write hostOps1))
    _ = W2 m ρ c (Proc.devRef .tc main_v1) := W3_of_ne m ρ c main_v1 (by decide)
    _ = W1 m ρ c (Proc.devRef .tc main_v1) := StableHlo.after_of_forall_not_mem (b := Proc.devRef .tc main_v1) _ _ (List.forall_iff_forall_mem.mp (by no_write hostOps0_1))

theorem v27_W5 (c : Dev nD) : W5 m ρ c (Proc.devRef .tc main_v27) = W1 m ρ c (Proc.devRef .tc main_v27) :=
  calc W5 m ρ c (Proc.devRef .tc main_v27)
    _ = W4 m ρ c (Proc.devRef .tc main_v27) := StableHlo.after_of_forall_not_mem (b := Proc.devRef .tc main_v27) _ _ (List.forall_iff_forall_mem.mp (by no_write hostOps1_1))
    _ = W3 m ρ c (Proc.devRef .tc main_v27) := StableHlo.after_of_forall_not_mem (b := Proc.devRef .tc main_v27) _ _ (List.forall_iff_forall_mem.mp (by no_write hostOps1))
    _ = W2 m ρ c (Proc.devRef .tc main_v27) := W3_of_ne m ρ c main_v27 (by decide)
    _ = W1 m ρ c (Proc.devRef .tc main_v27) := StableHlo.after_of_forall_not_mem (b := Proc.devRef .tc main_v27) _ _ (List.forall_iff_forall_mem.mp (by no_write hostOps0_1))

theorem v31_W6 (c : Dev nD) : W6 m ρ c (Proc.devRef .tc main_v31) = W1 m ρ c (Proc.devRef .tc main_v31) :=
  calc W6 m ρ c (Proc.devRef .tc main_v31)
    _ = W5 m ρ c (Proc.devRef .tc main_v31) := StableHlo.after_of_forall_not_mem (b := Proc.devRef .tc main_v31) _ _ (List.forall_iff_forall_mem.mp (by no_write hostOps1_2))
    _ = W4 m ρ c (Proc.devRef .tc main_v31) := StableHlo.after_of_forall_not_mem (b := Proc.devRef .tc main_v31) _ _ (List.forall_iff_forall_mem.mp (by no_write hostOps1_1))
    _ = W3 m ρ c (Proc.devRef .tc main_v31) := StableHlo.after_of_forall_not_mem (b := Proc.devRef .tc main_v31) _ _ (List.forall_iff_forall_mem.mp (by no_write hostOps1))
    _ = W2 m ρ c (Proc.devRef .tc main_v31) := W3_of_ne m ρ c main_v31 (by decide)
    _ = W1 m ρ c (Proc.devRef .tc main_v31) := StableHlo.after_of_forall_not_mem (b := Proc.devRef .tc main_v31) _ _ (List.forall_iff_forall_mem.mp (by no_write hostOps0_1))

theorem v38_W8 (c : Dev nD) : W8 m ρ c (Proc.devRef .tc main_v38) = W6 m ρ c (Proc.devRef .tc main_v38) :=
  calc W8 m ρ c (Proc.devRef .tc main_v38)
    _ = W7 m ρ c (Proc.devRef .tc main_v38) := StableHlo.after_of_forall_not_mem (b := Proc.devRef .tc main_v38) _ _ (List.forall_iff_forall_mem.mp (by no_write hostOps1_4))
    _ = W6 m ρ c (Proc.devRef .tc main_v38) := StableHlo.after_of_forall_not_mem (b := Proc.devRef .tc main_v38) _ _ (List.forall_iff_forall_mem.mp (by no_write hostOps1_3))

theorem v39_W9 (c : Dev nD) : W9 m ρ c (Proc.devRef .tc main_v39) = W7 m ρ c (Proc.devRef .tc main_v39) :=
  calc W9 m ρ c (Proc.devRef .tc main_v39)
    _ = W8 m ρ c (Proc.devRef .tc main_v39) := StableHlo.after_of_forall_not_mem (b := Proc.devRef .tc main_v39) _ _ (List.forall_iff_forall_mem.mp (by no_write hostOps1_5))
    _ = W7 m ρ c (Proc.devRef .tc main_v39) := StableHlo.after_of_forall_not_mem (b := Proc.devRef .tc main_v39) _ _ (List.forall_iff_forall_mem.mp (by no_write hostOps1_4))

set_option maxHeartbeats 2000000 in
theorem arg5_W9 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_forall_not_mem (b := Proc.devRef .tc main_arg5) _ _ (List.forall_iff_forall_mem.mp (by no_write hostOps1_5))
    _ = W7 m ρ c (Proc.devRef .tc main_arg5) := StableHlo.after_of_forall_not_mem (b := Proc.devRef .tc main_arg5) _ _ (List.forall_iff_forall_mem.mp (by no_write hostOps1_4))
    _ = W6 m ρ c (Proc.devRef .tc main_arg5) := StableHlo.after_of_forall_not_mem (b := Proc.devRef .tc main_arg5) _ _ (List.forall_iff_forall_mem.mp (by no_write hostOps1_3))
    _ = W5 m ρ c (Proc.devRef .tc main_arg5) := StableHlo.after_of_forall_not_mem (b := Proc.devRef .tc main_arg5) _ _ (List.forall_iff_forall_mem.mp (by no_write hostOps1_2))
    _ = W4 m ρ c (Proc.devRef .tc main_arg5) := StableHlo.after_of_forall_not_mem (b := Proc.devRef .tc main_arg5) _ _ (List.forall_iff_forall_mem.mp (by no_write hostOps1_1))
    _ = W3 m ρ c (Proc.devRef .tc main_arg5) := StableHlo.after_of_forall_not_mem (b := Proc.devRef .tc main_arg5) _ _ (List.forall_iff_forall_mem.mp (by no_write hostOps1))
    _ = W2 m ρ c (Proc.devRef .tc main_arg5) := W3_of_ne m ρ c main_arg5 (by decide)
    _ = W1 m ρ c (Proc.devRef .tc main_arg5) := StableHlo.after_of_forall_not_mem (b := Proc.devRef .tc main_arg5) _ _ (List.forall_iff_forall_mem.mp (by no_write hostOps0_1))
    _ = W0 m ρ c (Proc.devRef .tc main_arg5) := StableHlo.after_of_forall_not_mem (b := Proc.devRef .tc main_arg5) _ _ (List.forall_iff_forall_mem.mp (by no_write hostOps0))
    _ = m ((c : Thread nD τ).loc main_arg5) := rfl

set_option maxHeartbeats 2000000 in
theorem v3_W10 (c : Dev nD) : W10 m ρ c (Proc.devRef .tc main_v3) = W1 m ρ c (Proc.devRef .tc main_v3) :=
  calc W10 m ρ c (Proc.devRef .tc main_v3)
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by no_write hostOps1_5))
    _ = W7 m ρ c (Proc.devRef .tc main_v3) := StableHlo.after_of_forall_not_mem (b := Proc.devRef .tc main_v3) _ _ (List.forall_iff_forall_mem.mp (by no_write hostOps1_4))
    _ = W6 m ρ c (Proc.devRef .tc main_v3) := StableHlo.after_of_forall_not_mem (b := Proc.devRef .tc main_v3) _ _ (List.forall_iff_forall_mem.mp (by no_write hostOps1_3))
    _ = W5 m ρ c (Proc.devRef .tc main_v3) := StableHlo.after_of_forall_not_mem (b := Proc.devRef .tc main_v3) _ _ (List.forall_iff_forall_mem.mp (by no_write hostOps1_2))
    _ = W4 m ρ c (Proc.devRef .tc main_v3) := StableHlo.after_of_forall_not_mem (b := Proc.devRef .tc main_v3) _ _ (List.forall_iff_forall_mem.mp (by no_write hostOps1_1))
    _ = W3 m ρ c (Proc.devRef .tc main_v3) := StableHlo.after_of_forall_not_mem (b := Proc.devRef .tc main_v3) _ _ (List.forall_iff_forall_mem.mp (by no_write hostOps1))
    _ = W2 m ρ c (Proc.devRef .tc main_v3) := W3_of_ne m ρ c main_v3 (by decide)
    _ = W1 m ρ c (Proc.devRef .tc main_v3) := StableHlo.after_of_forall_not_mem (b := Proc.devRef .tc main_v3) _ _ (List.forall_iff_forall_mem.mp (by no_write hostOps0_1))

set_option maxHeartbeats 2000000 in
theorem v28_W10 (c : Dev nD) : W10 m ρ c (Proc.devRef .tc main_v28) = W1 m ρ c (Proc.devRef .tc main_v28) :=
  calc W10 m ρ c (Proc.devRef .tc main_v28)
    _ = W9 m ρ c (Proc.devRef .tc main_v28) := W10_of_ne m ρ c main_v28 (by decide)
    _ = W8 m ρ c (Proc.devRef .tc main_v28) := StableHlo.after_of_forall_not_mem (b := Proc.devRef .tc main_v28) _ _ (List.forall_iff_forall_mem.mp (by no_write hostOps1_5))
    _ = W7 m ρ c (Proc.devRef .tc main_v28) := StableHlo.after_of_forall_not_mem (b := Proc.devRef .tc main_v28) _ _ (List.forall_iff_forall_mem.mp (by no_write hostOps1_4))
    _ = W6 m ρ c (Proc.devRef .tc main_v28) := StableHlo.after_of_forall_not_mem (b := Proc.devRef .tc main_v28) _ _ (List.forall_iff_forall_mem.mp (by no_write hostOps1_3))
    _ = W5 m ρ c (Proc.devRef .tc main_v28) := StableHlo.after_of_forall_not_mem (b := Proc.devRef .tc main_v28) _ _ (List.forall_iff_forall_mem.mp (by no_write hostOps1_2))
    _ = W4 m ρ c (Proc.devRef .tc main_v28) := StableHlo.after_of_forall_not_mem (b := Proc.devRef .tc main_v28) _ _ (List.forall_iff_forall_mem.mp (by no_write hostOps1_1))
    _ = W3 m ρ c (Proc.devRef .tc main_v28) := StableHlo.after_of_forall_not_mem (b := Proc.devRef .tc main_v28) _ _ (List.forall_iff_forall_mem.mp (by no_write hostOps1))
    _ = W2 m ρ c (Proc.devRef .tc main_v28) := W3_of_ne m ρ c main_v28 (by decide)
    _ = W1 m ρ c (Proc.devRef .tc main_v28) := StableHlo.after_of_forall_not_mem (b := Proc.devRef .tc main_v28) _ _ (List.forall_iff_forall_mem.mp (by no_write hostOps0_1))

theorem v34_W10 (c : Dev nD) : W10 m ρ c (Proc.devRef .tc main_v34) = W4 m ρ c (Proc.devRef .tc main_v34) :=
  calc W10 m ρ c (Proc.devRef .tc main_v34)
    _ = W9 m ρ c (Proc.devRef .tc main_v34) := W10_of_ne m ρ c main_v34 (by decide)
    _ = W8 m ρ c (Proc.devRef .tc main_v34) := StableHlo.after_of_forall_not_mem (b := Proc.devRef .tc main_v34) _ _ (List.forall_iff_forall_mem.mp (by no_write hostOps1_5))
    _ = W7 m ρ c (Proc.devRef .tc main_v34) := StableHlo.after_of_forall_not_mem (b := Proc.devRef .tc main_v34) _ _ (List.forall_iff_forall_mem.mp (by no_write hostOps1_4))
    _ = W6 m ρ c (Proc.devRef .tc main_v34) := StableHlo.after_of_forall_not_mem (b := Proc.devRef .tc main_v34) _ _ (List.forall_iff_forall_mem.mp (by no_write hostOps1_3))
    _ = W5 m ρ c (Proc.devRef .tc main_v34) := StableHlo.after_of_forall_not_mem (b := Proc.devRef .tc main_v34) _ _ (List.forall_iff_forall_mem.mp (by no_write hostOps1_2))
    _ = W4 m ρ c (Proc.devRef .tc main_v34) := StableHlo.after_of_forall_not_mem (b := Proc.devRef .tc main_v34) _ _ (List.forall_iff_forall_mem.mp (by no_write hostOps1_1))

set_option maxHeartbeats 2000000 in
theorem arg6_W12 (c : Dev nD) : W12 m ρ c (Proc.devRef .tc main_arg6) = m ((c : Thread nD τ).loc main_arg6) :=
  calc W12 m ρ c (Proc.devRef .tc main_arg6)
    _ = W11 m ρ c (Proc.devRef .tc main_arg6) := StableHlo.after_of_forall_not_mem (b := Proc.devRef .tc main_arg6) _ _ (List.forall_iff_forall_mem.mp (by no_write hostOps2_1))
    _ = W10 m ρ c (Proc.devRef .tc main_arg6) := StableHlo.after_of_forall_not_mem (b := Proc.devRef .tc main_arg6) _ _ (List.forall_iff_forall_mem.mp (by no_write hostOps2))
    _ = W9 m ρ c (Proc.devRef .tc main_arg6) := W10_of_ne m ρ c main_arg6 (by decide)
    _ = W8 m ρ c (Proc.devRef .tc main_arg6) := StableHlo.after_of_forall_not_mem (b := Proc.devRef .tc main_arg6) _ _ (List.forall_iff_forall_mem.mp (by no_write hostOps1_5))
    _ = W7 m ρ c (Proc.devRef .tc main_arg6) := StableHlo.after_of_forall_not_mem (b := Proc.devRef .tc main_arg6) _ _ (List.forall_iff_forall_mem.mp (by no_write hostOps1_4))
    _ = W6 m ρ c (Proc.devRef .tc main_arg6) := StableHlo.after_of_forall_not_mem (b := Proc.devRef .tc main_arg6) _ _ (List.forall_iff_forall_mem.mp (by no_write hostOps1_3))
    _ = W5 m ρ c (Proc.devRef .tc main_arg6) := StableHlo.after_of_forall_not_mem (b := Proc.devRef .tc main_arg6) _ _ (List.forall_iff_forall_mem.mp (by no_write hostOps1_2))
    _ = W4 m ρ c (Proc.devRef .tc main_arg6) := StableHlo.after_of_forall_not_mem (b := Proc.devRef .tc main_arg6) _ _ (List.forall_iff_forall_mem.mp (by no_write hostOps1_1))
    _ = W3 m ρ c (Proc.devRef .tc main_arg6) := StableHlo.after_of_forall_not_mem (b := Proc.devRef .tc main_arg6) _ _ (List.forall_iff_forall_mem.mp (by no_write hostOps1))
    _ = W2 m ρ c (Proc.devRef .tc main_arg6) := W3_of_ne m ρ c main_arg6 (by decide)
    _ = W1 m ρ c (Proc.devRef .tc main_arg6) := StableHlo.after_of_forall_not_mem (b := Proc.devRef .tc main_arg6) _ _ (List.forall_iff_forall_mem.mp (by no_write hostOps0_1))
    _ = W0 m ρ c (Proc.devRef .tc main_arg6) := StableHlo.after_of_forall_not_mem (b := Proc.devRef .tc main_arg6) _ _ (List.forall_iff_forall_mem.mp (by no_write hostOps0))
    _ = m ((c : Thread nD τ).loc main_arg6) := rfl

set_option maxHeartbeats 2000000 in
theorem v1_W14 (c : Dev nD) : W14 m ρ c (Proc.devRef .tc main_v1) = W1 m ρ c (Proc.devRef .tc main_v1) :=
  calc W14 m ρ c (Proc.devRef .tc main_v1)
    _ = W13 m ρ c (Proc.devRef .tc main_v1) := StableHlo.after_of_forall_not_mem (b := Proc.devRef .tc main_v1) _ _ (List.forall_iff_forall_mem.mp (by no_write hostOps3))
    _ = W12 m ρ c (Proc.devRef .tc main_v1) := W13_of_ne m ρ c main_v1 (by decide)
    _ = W11 m ρ c (Proc.devRef .tc main_v1) := StableHlo.after_of_forall_not_mem (b := Proc.devRef .tc main_v1) _ _ (List.forall_iff_forall_mem.mp (by no_write hostOps2_1))
    _ = W10 m ρ c (Proc.devRef .tc main_v1) := StableHlo.after_of_forall_not_mem (b := Proc.devRef .tc main_v1) _ _ (List.forall_iff_forall_mem.mp (by no_write hostOps2))
    _ = W9 m ρ c (Proc.devRef .tc main_v1) := W10_of_ne m ρ c main_v1 (by decide)
    _ = W8 m ρ c (Proc.devRef .tc main_v1) := StableHlo.after_of_forall_not_mem (b := Proc.devRef .tc main_v1) _ _ (List.forall_iff_forall_mem.mp (by no_write hostOps1_5))
    _ = W7 m ρ c (Proc.devRef .tc main_v1) := StableHlo.after_of_forall_not_mem (b := Proc.devRef .tc main_v1) _ _ (List.forall_iff_forall_mem.mp (by no_write hostOps1_4))
    _ = W6 m ρ c (Proc.devRef .tc main_v1) := StableHlo.after_of_forall_not_mem (b := Proc.devRef .tc main_v1) _ _ (List.forall_iff_forall_mem.mp (by no_write hostOps1_3))
    _ = W5 m ρ c (Proc.devRef .tc main_v1) := StableHlo.after_of_forall_not_mem (b := Proc.devRef .tc main_v1) _ _ (List.forall_iff_forall_mem.mp (by no_write hostOps1_2))
    _ = W4 m ρ c (Proc.devRef .tc main_v1) := StableHlo.after_of_forall_not_mem (b := Proc.devRef .tc main_v1) _ _ (List.forall_iff_forall_mem.mp (by no_write hostOps1_1))
    _ = W3 m ρ c (Proc.devRef .tc main_v1) := StableHlo.after_of_forall_not_mem (b := Proc.devRef .tc main_v1) _ _ (List.forall_iff_forall_mem.mp (by no_write hostOps1))
    _ = W2 m ρ c (Proc.devRef .tc main_v1) := W3_of_ne m ρ c main_v1 (by decide)
    _ = W1 m ρ c (Proc.devRef .tc main_v1) := StableHlo.after_of_forall_not_mem (b := Proc.devRef .tc main_v1) _ _ (List.forall_iff_forall_mem.mp (by no_write hostOps0_1))

set_option maxHeartbeats 2000000 in
theorem v27_W15 (c : Dev nD) : W15 m ρ c (Proc.devRef .tc main_v27) = W1 m ρ c (Proc.devRef .tc main_v27) :=
  calc W15 m ρ c (Proc.devRef .tc main_v27)
    _ = W14 m ρ c (Proc.devRef .tc main_v27) := StableHlo.after_of_forall_not_mem (b := Proc.devRef .tc main_v27) _ _ (List.forall_iff_forall_mem.mp (by no_write hostOps3_1))
    _ = W13 m ρ c (Proc.devRef .tc main_v27) := StableHlo.after_of_forall_not_mem (b := Proc.devRef .tc main_v27) _ _ (List.forall_iff_forall_mem.mp (by no_write hostOps3))
    _ = W12 m ρ c (Proc.devRef .tc main_v27) := W13_of_ne m ρ c main_v27 (by decide)
    _ = W11 m ρ c (Proc.devRef .tc main_v27) := StableHlo.after_of_forall_not_mem (b := Proc.devRef .tc main_v27) _ _ (List.forall_iff_forall_mem.mp (by no_write hostOps2_1))
    _ = W10 m ρ c (Proc.devRef .tc main_v27) := StableHlo.after_of_forall_not_mem (b := Proc.devRef .tc main_v27) _ _ (List.forall_iff_forall_mem.mp (by no_write hostOps2))
    _ = W9 m ρ c (Proc.devRef .tc main_v27) := W10_of_ne m ρ c main_v27 (by decide)
    _ = W8 m ρ c (Proc.devRef .tc main_v27) := StableHlo.after_of_forall_not_mem (b := Proc.devRef .tc main_v27) _ _ (List.forall_iff_forall_mem.mp (by no_write hostOps1_5))
    _ = W7 m ρ c (Proc.devRef .tc main_v27) := StableHlo.after_of_forall_not_mem (b := Proc.devRef .tc main_v27) _ _ (List.forall_iff_forall_mem.mp (by no_write hostOps1_4))
    _ = W6 m ρ c (Proc.devRef .tc main_v27) := StableHlo.after_of_forall_not_mem (b := Proc.devRef .tc main_v27) _ _ (List.forall_iff_forall_mem.mp (by no_write hostOps1_3))
    _ = W5 m ρ c (Proc.devRef .tc main_v27) := StableHlo.after_of_forall_not_mem (b := Proc.devRef .tc main_v27) _ _ (List.forall_iff_forall_mem.mp (by no_write hostOps1_2))
    _ = W4 m ρ c (Proc.devRef .tc main_v27) := StableHlo.after_of_forall_not_mem (b := Proc.devRef .tc main_v27) _ _ (List.forall_iff_forall_mem.mp (by no_write hostOps1_1))
    _ = W3 m ρ c (Proc.devRef .tc main_v27) := StableHlo.after_of_forall_not_mem (b := Proc.devRef .tc main_v27) _ _ (List.forall_iff_forall_mem.mp (by no_write hostOps1))
    _ = W2 m ρ c (Proc.devRef .tc main_v27) := W3_of_ne m ρ c main_v27 (by decide)
    _ = W1 m ρ c (Proc.devRef .tc main_v27) := StableHlo.after_of_forall_not_mem (b := Proc.devRef .tc main_v27) _ _ (List.forall_iff_forall_mem.mp (by no_write hostOps0_1))

set_option maxHeartbeats 2000000 in
theorem v31_W16 (c : Dev nD) : W16 m ρ c (Proc.devRef .tc main_v31) = W1 m ρ c (Proc.devRef .tc main_v31) :=
  calc W16 m ρ c (Proc.devRef .tc main_v31)
    _ = W15 m ρ c (Proc.devRef .tc main_v31) := StableHlo.after_of_forall_not_mem (b := Proc.devRef .tc main_v31) _ _ (List.forall_iff_forall_mem.mp (by no_write hostOps3_2))
    _ = W14 m ρ c (Proc.devRef .tc main_v31) := StableHlo.after_of_forall_not_mem (b := Proc.devRef .tc main_v31) _ _ (List.forall_iff_forall_mem.mp (by no_write hostOps3_1))
    _ = W13 m ρ c (Proc.devRef .tc main_v31) := StableHlo.after_of_forall_not_mem (b := Proc.devRef .tc main_v31) _ _ (List.forall_iff_forall_mem.mp (by no_write hostOps3))
    _ = W12 m ρ c (Proc.devRef .tc main_v31) := W13_of_ne m ρ c main_v31 (by decide)
    _ = W11 m ρ c (Proc.devRef .tc main_v31) := StableHlo.after_of_forall_not_mem (b := Proc.devRef .tc main_v31) _ _ (List.forall_iff_forall_mem.mp (by no_write hostOps2_1))
    _ = W10 m ρ c (Proc.devRef .tc main_v31) := StableHlo.after_of_forall_not_mem (b := Proc.devRef .tc main_v31) _ _ (List.forall_iff_forall_mem.mp (by no_write hostOps2))
    _ = W9 m ρ c (Proc.devRef .tc main_v31) := W10_of_ne m ρ c main_v31 (by decide)
    _ = W8 m ρ c (Proc.devRef .tc main_v31) := StableHlo.after_of_forall_not_mem (b := Proc.devRef .tc main_v31) _ _ (List.forall_iff_forall_mem.mp (by no_write hostOps1_5))
    _ = W7 m ρ c (Proc.devRef .tc main_v31) := StableHlo.after_of_forall_not_mem (b := Proc.devRef .tc main_v31) _ _ (List.forall_iff_forall_mem.mp (by no_write hostOps1_4))
    _ = W6 m ρ c (Proc.devRef .tc main_v31) := StableHlo.after_of_forall_not_mem (b := Proc.devRef .tc main_v31) _ _ (List.forall_iff_forall_mem.mp (by no_write hostOps1_3))
    _ = W5 m ρ c (Proc.devRef .tc main_v31) := StableHlo.after_of_forall_not_mem (b := Proc.devRef .tc main_v31) _ _ (List.forall_iff_forall_mem.mp (by no_write hostOps1_2))
    _ = W4 m ρ c (Proc.devRef .tc main_v31) := StableHlo.after_of_forall_not_mem (b := Proc.devRef .tc main_v31) _ _ (List.forall_iff_forall_mem.mp (by no_write hostOps1_1))
    _ = W3 m ρ c (Proc.devRef .tc main_v31) := StableHlo.after_of_forall_not_mem (b := Proc.devRef .tc main_v31) _ _ (List.forall_iff_forall_mem.mp (by no_write hostOps1))
    _ = W2 m ρ c (Proc.devRef .tc main_v31) := W3_of_ne m ρ c main_v31 (by decide)
    _ = W1 m ρ c (Proc.devRef .tc main_v31) := StableHlo.after_of_forall_not_mem (b := Proc.devRef .tc main_v31) _ _ (List.forall_iff_forall_mem.mp (by no_write hostOps0_1))

theorem v61_W18 (c : Dev nD) : W18 m ρ c (Proc.devRef .tc main_v61) = W16 m ρ c (Proc.devRef .tc main_v61) :=
  calc W18 m ρ c (Proc.devRef .tc main_v61)
    _ = W17 m ρ c (Proc.devRef .tc main_v61) := StableHlo.after_of_forall_not_mem (b := Proc.devRef .tc main_v61) _ _ (List.forall_iff_forall_mem.mp (by no_write hostOps3_4))
    _ = W16 m ρ c (Proc.devRef .tc main_v61) := StableHlo.after_of_forall_not_mem (b := Proc.devRef .tc main_v61) _ _ (List.forall_iff_forall_mem.mp (by no_write hostOps3_3))

theorem v62_W19 (c : Dev nD) : W19 m ρ c (Proc.devRef .tc main_v62) = W17 m ρ c (Proc.devRef .tc main_v62) :=
  calc W19 m ρ c (Proc.devRef .tc main_v62)
    _ = W18 m ρ c (Proc.devRef .tc main_v62) := StableHlo.after_of_forall_not_mem (b := Proc.devRef .tc main_v62) _ _ (List.forall_iff_forall_mem.mp (by no_write hostOps3_5))
    _ = W17 m ρ c (Proc.devRef .tc main_v62) := StableHlo.after_of_forall_not_mem (b := Proc.devRef .tc main_v62) _ _ (List.forall_iff_forall_mem.mp (by no_write hostOps3_4))

set_option maxHeartbeats 2000000 in
theorem arg7_W19 (c : Dev nD) : W19 m ρ c (Proc.devRef .tc main_arg7) = m ((c : Thread nD τ).loc main_arg7) :=
  calc W19 m ρ c (Proc.devRef .tc main_arg7)
    _ = W18 m ρ c (Proc.devRef .tc main_arg7) := StableHlo.after_of_forall_not_mem (b := Proc.devRef .tc main_arg7) _ _ (List.forall_iff_forall_mem.mp (by no_write hostOps3_5))
    _ = W17 m ρ c (Proc.devRef .tc main_arg7) := StableHlo.after_of_forall_not_mem (b := Proc.devRef .tc main_arg7) _ _ (List.forall_iff_forall_mem.mp (by no_write hostOps3_4))
    _ = W16 m ρ c (Proc.devRef .tc main_arg7) := StableHlo.after_of_forall_not_mem (b := Proc.devRef .tc main_arg7) _ _ (List.forall_iff_forall_mem.mp (by no_write hostOps3_3))
    _ = W15 m ρ c (Proc.devRef .tc main_arg7) := StableHlo.after_of_forall_not_mem (b := Proc.devRef .tc main_arg7) _ _ (List.forall_iff_forall_mem.mp (by no_write hostOps3_2))
    _ = W14 m ρ c (Proc.devRef .tc main_arg7) := StableHlo.after_of_forall_not_mem (b := Proc.devRef .tc main_arg7) _ _ (List.forall_iff_forall_mem.mp (by no_write hostOps3_1))
    _ = W13 m ρ c (Proc.devRef .tc main_arg7) := StableHlo.after_of_forall_not_mem (b := Proc.devRef .tc main_arg7) _ _ (List.forall_iff_forall_mem.mp (by no_write hostOps3))
    _ = W12 m ρ c (Proc.devRef .tc main_arg7) := W13_of_ne m ρ c main_arg7 (by decide)
    _ = W11 m ρ c (Proc.devRef .tc main_arg7) := StableHlo.after_of_forall_not_mem (b := Proc.devRef .tc main_arg7) _ _ (List.forall_iff_forall_mem.mp (by no_write hostOps2_1))
    _ = W10 m ρ c (Proc.devRef .tc main_arg7) := StableHlo.after_of_forall_not_mem (b := Proc.devRef .tc main_arg7) _ _ (List.forall_iff_forall_mem.mp (by no_write hostOps2))
    _ = W9 m ρ c (Proc.devRef .tc main_arg7) := W10_of_ne m ρ c main_arg7 (by decide)
    _ = W8 m ρ c (Proc.devRef .tc main_arg7) := StableHlo.after_of_forall_not_mem (b := Proc.devRef .tc main_arg7) _ _ (List.forall_iff_forall_mem.mp (by no_write hostOps1_5))
    _ = W7 m ρ c (Proc.devRef .tc main_arg7) := StableHlo.after_of_forall_not_mem (b := Proc.devRef .tc main_arg7) _ _ (List.forall_iff_forall_mem.mp (by no_write hostOps1_4))
    _ = W6 m ρ c (Proc.devRef .tc main_arg7) := StableHlo.after_of_forall_not_mem (b := Proc.devRef .tc main_arg7) _ _ (List.forall_iff_forall_mem.mp (by no_write hostOps1_3))
    _ = W5 m ρ c (Proc.devRef .tc main_arg7) := StableHlo.after_of_forall_not_mem (b := Proc.devRef .tc main_arg7) _ _ (List.forall_iff_forall_mem.mp (by no_write hostOps1_2))
    _ = W4 m ρ c (Proc.devRef .tc main_arg7) := StableHlo.after_of_forall_not_mem (b := Proc.devRef .tc main_arg7) _ _ (List.forall_iff_forall_mem.mp (by no_write hostOps1_1))
    _ = W3 m ρ c (Proc.devRef .tc main_arg7) := StableHlo.after_of_forall_not_mem (b := Proc.devRef .tc main_arg7) _ _ (List.forall_iff_forall_mem.mp (by no_write hostOps1))
    _ = W2 m ρ c (Proc.devRef .tc main_arg7) := W3_of_ne m ρ c main_arg7 (by decide)
    _ = W1 m ρ c (Proc.devRef .tc main_arg7) := StableHlo.after_of_forall_not_mem (b := Proc.devRef .tc main_arg7) _ _ (List.forall_iff_forall_mem.mp (by no_write hostOps0_1))
    _ = W0 m ρ c (Proc.devRef .tc main_arg7) := StableHlo.after_of_forall_not_mem (b := Proc.devRef .tc main_arg7) _ _ (List.forall_iff_forall_mem.mp (by no_write hostOps0))
    _ = m ((c : Thread nD τ).loc main_arg7) := rfl

set_option maxHeartbeats 2000000 in
theorem v3_W20 (c : Dev nD) : W20 m ρ c (Proc.devRef .tc main_v3) = W1 m ρ c (Proc.devRef .tc main_v3) :=
  calc W20 m ρ c (Proc.devRef .tc main_v3)
    _ = W19 m ρ c (Proc.devRef .tc main_v3) := W20_of_ne m ρ c main_v3 (by decide)
    _ = W18 m ρ c (Proc.devRef .tc main_v3) := StableHlo.after_of_forall_not_mem (b := Proc.devRef .tc main_v3) _ _ (List.forall_iff_forall_mem.mp (by no_write hostOps3_5))
    _ = W17 m ρ c (Proc.devRef .tc main_v3) := StableHlo.after_of_forall_not_mem (b := Proc.devRef .tc main_v3) _ _ (List.forall_iff_forall_mem.mp (by no_write hostOps3_4))
    _ = W16 m ρ c (Proc.devRef .tc main_v3) := StableHlo.after_of_forall_not_mem (b := Proc.devRef .tc main_v3) _ _ (List.forall_iff_forall_mem.mp (by no_write hostOps3_3))
    _ = W15 m ρ c (Proc.devRef .tc main_v3) := StableHlo.after_of_forall_not_mem (b := Proc.devRef .tc main_v3) _ _ (List.forall_iff_forall_mem.mp (by no_write hostOps3_2))
    _ = W14 m ρ c (Proc.devRef .tc main_v3) := StableHlo.after_of_forall_not_mem (b := Proc.devRef .tc main_v3) _ _ (List.forall_iff_forall_mem.mp (by no_write hostOps3_1))
    _ = W13 m ρ c (Proc.devRef .tc main_v3) := StableHlo.after_of_forall_not_mem (b := Proc.devRef .tc main_v3) _ _ (List.forall_iff_forall_mem.mp (by no_write hostOps3))
    _ = W12 m ρ c (Proc.devRef .tc main_v3) := W13_of_ne m ρ c main_v3 (by decide)
    _ = W11 m ρ c (Proc.devRef .tc main_v3) := StableHlo.after_of_forall_not_mem (b := Proc.devRef .tc main_v3) _ _ (List.forall_iff_forall_mem.mp (by no_write hostOps2_1))
    _ = W10 m ρ c (Proc.devRef .tc main_v3) := StableHlo.after_of_forall_not_mem (b := Proc.devRef .tc main_v3) _ _ (List.forall_iff_forall_mem.mp (by no_write hostOps2))
    _ = W9 m ρ c (Proc.devRef .tc main_v3) := W10_of_ne m ρ c main_v3 (by decide)
    _ = W8 m ρ c (Proc.devRef .tc main_v3) := StableHlo.after_of_forall_not_mem (b := Proc.devRef .tc main_v3) _ _ (List.forall_iff_forall_mem.mp (by no_write hostOps1_5))
    _ = W7 m ρ c (Proc.devRef .tc main_v3) := StableHlo.after_of_forall_not_mem (b := Proc.devRef .tc main_v3) _ _ (List.forall_iff_forall_mem.mp (by no_write hostOps1_4))
    _ = W6 m ρ c (Proc.devRef .tc main_v3) := StableHlo.after_of_forall_not_mem (b := Proc.devRef .tc main_v3) _ _ (List.forall_iff_forall_mem.mp (by no_write hostOps1_3))
    _ = W5 m ρ c (Proc.devRef .tc main_v3) := StableHlo.after_of_forall_not_mem (b := Proc.devRef .tc main_v3) _ _ (List.forall_iff_forall_mem.mp (by no_write hostOps1_2))
    _ = W4 m ρ c (Proc.devRef .tc main_v3) := StableHlo.after_of_forall_not_mem (b := Proc.devRef .tc main_v3) _ _ (List.forall_iff_forall_mem.mp (by no_write hostOps1_1))
    _ = W3 m ρ c (Proc.devRef .tc main_v3) := StableHlo.after_of_forall_not_mem (b := Proc.devRef .tc main_v3) _ _ (List.forall_iff_forall_mem.mp (by no_write hostOps1))
    _ = W2 m ρ c (Proc.devRef .tc main_v3) := W3_of_ne m ρ c main_v3 (by decide)
    _ = W1 m ρ c (Proc.devRef .tc main_v3) := StableHlo.after_of_forall_not_mem (b := Proc.devRef .tc main_v3) _ _ (List.forall_iff_forall_mem.mp (by no_write hostOps0_1))

set_option maxHeartbeats 2000000 in
theorem v28_W20 (c : Dev nD) : W20 m ρ c (Proc.devRef .tc main_v28) = W1 m ρ c (Proc.devRef .tc main_v28) :=
  calc W20 m ρ c (Proc.devRef .tc main_v28)
    _ = W19 m ρ c (Proc.devRef .tc main_v28) := W20_of_ne m ρ c main_v28 (by decide)
    _ = W18 m ρ c (Proc.devRef .tc main_v28) := StableHlo.after_of_forall_not_mem (b := Proc.devRef .tc main_v28) _ _ (List.forall_iff_forall_mem.mp (by no_write hostOps3_5))
    _ = W17 m ρ c (Proc.devRef .tc main_v28) := StableHlo.after_of_forall_not_mem (b := Proc.devRef .tc main_v28) _ _ (List.forall_iff_forall_mem.mp (by no_write hostOps3_4))
    _ = W16 m ρ c (Proc.devRef .tc main_v28) := StableHlo.after_of_forall_not_mem (b := Proc.devRef .tc main_v28) _ _ (List.forall_iff_forall_mem.mp (by no_write hostOps3_3))
    _ = W15 m ρ c (Proc.devRef .tc main_v28) := StableHlo.after_of_forall_not_mem (b := Proc.devRef .tc main_v28) _ _ (List.forall_iff_forall_mem.mp (by no_write hostOps3_2))
    _ = W14 m ρ c (Proc.devRef .tc main_v28) := StableHlo.after_of_forall_not_mem (b := Proc.devRef .tc main_v28) _ _ (List.forall_iff_forall_mem.mp (by no_write hostOps3_1))
    _ = W13 m ρ c (Proc.devRef .tc main_v28) := StableHlo.after_of_forall_not_mem (b := Proc.devRef .tc main_v28) _ _ (List.forall_iff_forall_mem.mp (by no_write hostOps3))
    _ = W12 m ρ c (Proc.devRef .tc main_v28) := W13_of_ne m ρ c main_v28 (by decide)
    _ = W11 m ρ c (Proc.devRef .tc main_v28) := StableHlo.after_of_forall_not_mem (b := Proc.devRef .tc main_v28) _ _ (List.forall_iff_forall_mem.mp (by no_write hostOps2_1))
    _ = W10 m ρ c (Proc.devRef .tc main_v28) := StableHlo.after_of_forall_not_mem (b := Proc.devRef .tc main_v28) _ _ (List.forall_iff_forall_mem.mp (by no_write hostOps2))
    _ = W9 m ρ c (Proc.devRef .tc main_v28) := W10_of_ne m ρ c main_v28 (by decide)
    _ = W8 m ρ c (Proc.devRef .tc main_v28) := StableHlo.after_of_forall_not_mem (b := Proc.devRef .tc main_v28) _ _ (List.forall_iff_forall_mem.mp (by no_write hostOps1_5))
    _ = W7 m ρ c (Proc.devRef .tc main_v28) := StableHlo.after_of_forall_not_mem (b := Proc.devRef .tc main_v28) _ _ (List.forall_iff_forall_mem.mp (by no_write hostOps1_4))
    _ = W6 m ρ c (Proc.devRef .tc main_v28) := StableHlo.after_of_forall_not_mem (b := Proc.devRef .tc main_v28) _ _ (List.forall_iff_forall_mem.mp (by no_write hostOps1_3))
    _ = W5 m ρ c (Proc.devRef .tc main_v28) := StableHlo.after_of_forall_not_mem (b := Proc.devRef .tc main_v28) _ _ (List.forall_iff_forall_mem.mp (by no_write hostOps1_2))
    _ = W4 m ρ c (Proc.devRef .tc main_v28) := StableHlo.after_of_forall_not_mem (b := Proc.devRef .tc main_v28) _ _ (List.forall_iff_forall_mem.mp (by no_write hostOps1_1))
    _ = W3 m ρ c (Proc.devRef .tc main_v28) := StableHlo.after_of_forall_not_mem (b := Proc.devRef .tc main_v28) _ _ (List.forall_iff_forall_mem.mp (by no_write hostOps1))
    _ = W2 m ρ c (Proc.devRef .tc main_v28) := W3_of_ne m ρ c main_v28 (by decide)
    _ = W1 m ρ c (Proc.devRef .tc main_v28) := StableHlo.after_of_forall_not_mem (b := Proc.devRef .tc main_v28) _ _ (List.forall_iff_forall_mem.mp (by no_write hostOps0_1))

theorem v57_W20 (c : Dev nD) : W20 m ρ c (Proc.devRef .tc main_v57) = W14 m ρ c (Proc.devRef .tc main_v57) :=
  calc W20 m ρ c (Proc.devRef .tc main_v57)
    _ = W19 m ρ c (Proc.devRef .tc main_v57) := W20_of_ne m ρ c main_v57 (by decide)
    _ = W18 m ρ c (Proc.devRef .tc main_v57) := StableHlo.after_of_forall_not_mem (b := Proc.devRef .tc main_v57) _ _ (List.forall_iff_forall_mem.mp (by no_write hostOps3_5))
    _ = W17 m ρ c (Proc.devRef .tc main_v57) := StableHlo.after_of_forall_not_mem (b := Proc.devRef .tc main_v57) _ _ (List.forall_iff_forall_mem.mp (by no_write hostOps3_4))
    _ = W16 m ρ c (Proc.devRef .tc main_v57) := StableHlo.after_of_forall_not_mem (b := Proc.devRef .tc main_v57) _ _ (List.forall_iff_forall_mem.mp (by no_write hostOps3_3))
    _ = W15 m ρ c (Proc.devRef .tc main_v57) := StableHlo.after_of_forall_not_mem (b := Proc.devRef .tc main_v57) _ _ (List.forall_iff_forall_mem.mp (by no_write hostOps3_2))
    _ = W14 m ρ c (Proc.devRef .tc main_v57) := StableHlo.after_of_forall_not_mem (b := Proc.devRef .tc main_v57) _ _ (List.forall_iff_forall_mem.mp (by no_write hostOps3_1))

set_option maxHeartbeats 2000000 in
theorem arg3_W20 (c : Dev nD) : W20 m ρ c (Proc.devRef .tc main_arg3) = m ((c : Thread nD τ).loc main_arg3) :=
  calc W20 m ρ c (Proc.devRef .tc main_arg3)
    _ = W19 m ρ c (Proc.devRef .tc main_arg3) := W20_of_ne m ρ c main_arg3 (by decide)
    _ = W18 m ρ c (Proc.devRef .tc main_arg3) := StableHlo.after_of_forall_not_mem (b := Proc.devRef .tc main_arg3) _ _ (List.forall_iff_forall_mem.mp (by no_write hostOps3_5))
    _ = W17 m ρ c (Proc.devRef .tc main_arg3) := StableHlo.after_of_forall_not_mem (b := Proc.devRef .tc main_arg3) _ _ (List.forall_iff_forall_mem.mp (by no_write hostOps3_4))
    _ = W16 m ρ c (Proc.devRef .tc main_arg3) := StableHlo.after_of_forall_not_mem (b := Proc.devRef .tc main_arg3) _ _ (List.forall_iff_forall_mem.mp (by no_write hostOps3_3))
    _ = W15 m ρ c (Proc.devRef .tc main_arg3) := StableHlo.after_of_forall_not_mem (b := Proc.devRef .tc main_arg3) _ _ (List.forall_iff_forall_mem.mp (by no_write hostOps3_2))
    _ = W14 m ρ c (Proc.devRef .tc main_arg3) := StableHlo.after_of_forall_not_mem (b := Proc.devRef .tc main_arg3) _ _ (List.forall_iff_forall_mem.mp (by no_write hostOps3_1))
    _ = W13 m ρ c (Proc.devRef .tc main_arg3) := StableHlo.after_of_forall_not_mem (b := Proc.devRef .tc main_arg3) _ _ (List.forall_iff_forall_mem.mp (by no_write hostOps3))
    _ = W12 m ρ c (Proc.devRef .tc main_arg3) := W13_of_ne m ρ c main_arg3 (by decide)
    _ = W11 m ρ c (Proc.devRef .tc main_arg3) := StableHlo.after_of_forall_not_mem (b := Proc.devRef .tc main_arg3) _ _ (List.forall_iff_forall_mem.mp (by no_write hostOps2_1))
    _ = W10 m ρ c (Proc.devRef .tc main_arg3) := StableHlo.after_of_forall_not_mem (b := Proc.devRef .tc main_arg3) _ _ (List.forall_iff_forall_mem.mp (by no_write hostOps2))
    _ = W9 m ρ c (Proc.devRef .tc main_arg3) := W10_of_ne m ρ c main_arg3 (by decide)
    _ = W8 m ρ c (Proc.devRef .tc main_arg3) := StableHlo.after_of_forall_not_mem (b := Proc.devRef .tc main_arg3) _ _ (List.forall_iff_forall_mem.mp (by no_write hostOps1_5))
    _ = W7 m ρ c (Proc.devRef .tc main_arg3) := StableHlo.after_of_forall_not_mem (b := Proc.devRef .tc main_arg3) _ _ (List.forall_iff_forall_mem.mp (by no_write hostOps1_4))
    _ = W6 m ρ c (Proc.devRef .tc main_arg3) := StableHlo.after_of_forall_not_mem (b := Proc.devRef .tc main_arg3) _ _ (List.forall_iff_forall_mem.mp (by no_write hostOps1_3))
    _ = W5 m ρ c (Proc.devRef .tc main_arg3) := StableHlo.after_of_forall_not_mem (b := Proc.devRef .tc main_arg3) _ _ (List.forall_iff_forall_mem.mp (by no_write hostOps1_2))
    _ = W4 m ρ c (Proc.devRef .tc main_arg3) := StableHlo.after_of_forall_not_mem (b := Proc.devRef .tc main_arg3) _ _ (List.forall_iff_forall_mem.mp (by no_write hostOps1_1))
    _ = W3 m ρ c (Proc.devRef .tc main_arg3) := StableHlo.after_of_forall_not_mem (b := Proc.devRef .tc main_arg3) _ _ (List.forall_iff_forall_mem.mp (by no_write hostOps1))
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by no_write hostOps0_1))
    _ = W0 m ρ c (Proc.devRef .tc main_arg3) := StableHlo.after_of_forall_not_mem (b := Proc.devRef .tc main_arg3) _ _ (List.forall_iff_forall_mem.mp (by no_write hostOps0))
    _ = m ((c : Thread nD τ).loc main_arg3) := rfl

set_option maxHeartbeats 2000000 in
theorem arg8_W20 (c : Dev nD) : W20 m ρ c (Proc.devRef .tc main_arg8) = m ((c : Thread nD τ).loc main_arg8) :=
  calc W20 m ρ c (Proc.devRef .tc main_arg8)
    _ = W19 m ρ c (Proc.devRef .tc main_arg8) := W20_of_ne m ρ c main_arg8 (by decide)
    _ = W18 m ρ c (Proc.devRef .tc main_arg8) := StableHlo.after_of_forall_not_mem (b := Proc.devRef .tc main_arg8) _ _ (List.forall_iff_forall_mem.mp (by no_write hostOps3_5))
    _ = W17 m ρ c (Proc.devRef .tc main_arg8) := StableHlo.after_of_forall_not_mem (b := Proc.devRef .tc main_arg8) _ _ (List.forall_iff_forall_mem.mp (by no_write hostOps3_4))
    _ = W16 m ρ c (Proc.devRef .tc main_arg8) := StableHlo.after_of_forall_not_mem (b := Proc.devRef .tc main_arg8) _ _ (List.forall_iff_forall_mem.mp (by no_write hostOps3_3))
    _ = W15 m ρ c (Proc.devRef .tc main_arg8) := StableHlo.after_of_forall_not_mem (b := Proc.devRef .tc main_arg8) _ _ (List.forall_iff_forall_mem.mp (by no_write hostOps3_2))
    _ = W14 m ρ c (Proc.devRef .tc main_arg8) := StableHlo.after_of_forall_not_mem (b := Proc.devRef .tc main_arg8) _ _ (List.forall_iff_forall_mem.mp (by no_write hostOps3_1))
    _ = W13 m ρ c (Proc.devRef .tc main_arg8) := StableHlo.after_of_forall_not_mem (b := Proc.devRef .tc main_arg8) _ _ (List.forall_iff_forall_mem.mp (by no_write hostOps3))
    _ = W12 m ρ c (Proc.devRef .tc main_arg8) := W13_of_ne m ρ c main_arg8 (by decide)
    _ = W11 m ρ c (Proc.devRef .tc main_arg8) := StableHlo.after_of_forall_not_mem (b := Proc.devRef .tc main_arg8) _ _ (List.forall_iff_forall_mem.mp (by no_write hostOps2_1))
    _ = W10 m ρ c (Proc.devRef .tc main_arg8) := StableHlo.after_of_forall_not_mem (b := Proc.devRef .tc main_arg8) _ _ (List.forall_iff_forall_mem.mp (by no_write hostOps2))
    _ = W9 m ρ c (Proc.devRef .tc main_arg8) := W10_of_ne m ρ c main_arg8 (by decide)
    _ = W8 m ρ c (Proc.devRef .tc main_arg8) := StableHlo.after_of_forall_not_mem (b := Proc.devRef .tc main_arg8) _ _ (List.forall_iff_forall_mem.mp (by no_write hostOps1_5))
    _ = W7 m ρ c (Proc.devRef .tc main_arg8) := StableHlo.after_of_forall_not_mem (b := Proc.devRef .tc main_arg8) _ _ (List.forall_iff_forall_mem.mp (by no_write hostOps1_4))
    _ = W6 m ρ c (Proc.devRef .tc main_arg8) := StableHlo.after_of_forall_not_mem (b := Proc.devRef .tc main_arg8) _ _ (List.forall_iff_forall_mem.mp (by no_write hostOps1_3))
    _ = W5 m ρ c (Proc.devRef .tc main_arg8) := StableHlo.after_of_forall_not_mem (b := Proc.devRef .tc main_arg8) _ _ (List.forall_iff_forall_mem.mp (by no_write hostOps1_2))
    _ = W4 m ρ c (Proc.devRef .tc main_arg8) := StableHlo.after_of_forall_not_mem (b := Proc.devRef .tc main_arg8) _ _ (List.forall_iff_forall_mem.mp (by no_write hostOps1_1))
    _ = W3 m ρ c (Proc.devRef .tc main_arg8) := StableHlo.after_of_forall_not_mem (b := Proc.devRef .tc main_arg8) _ _ (List.forall_iff_forall_mem.mp (by no_write hostOps1))
    _ = W2 m ρ c (Proc.devRef .tc main_arg8) := W3_of_ne m ρ c main_arg8 (by decide)
    _ = W1 m ρ c (Proc.devRef .tc main_arg8) := StableHlo.after_of_forall_not_mem (b := Proc.devRef .tc main_arg8) _ _ (List.forall_iff_forall_mem.mp (by no_write hostOps0_1))
    _ = W0 m ρ c (Proc.devRef .tc main_arg8) := StableHlo.after_of_forall_not_mem (b := Proc.devRef .tc main_arg8) _ _ (List.forall_iff_forall_mem.mp (by no_write hostOps0))
    _ = m ((c : Thread nD τ).loc main_arg8) := rfl

set_option maxHeartbeats 2000000 in
theorem arg9_W20 (c : Dev nD) : W20 m ρ c (Proc.devRef .tc main_arg9) = m ((c : Thread nD τ).loc main_arg9) :=
  calc W20 m ρ c (Proc.devRef .tc main_arg9)
    _ = W19 m ρ c (Proc.devRef .tc main_arg9) := W20_of_ne m ρ c main_arg9 (by decide)
    _ = W18 m ρ c (Proc.devRef .tc main_arg9) := StableHlo.after_of_forall_not_mem (b := Proc.devRef .tc main_arg9) _ _ (List.forall_iff_forall_mem.mp (by no_write hostOps3_5))
    _ = W17 m ρ c (Proc.devRef .tc main_arg9) := StableHlo.after_of_forall_not_mem (b := Proc.devRef .tc main_arg9) _ _ (List.forall_iff_forall_mem.mp (by no_write hostOps3_4))
    _ = W16 m ρ c (Proc.devRef .tc main_arg9) := StableHlo.after_of_forall_not_mem (b := Proc.devRef .tc main_arg9) _ _ (List.forall_iff_forall_mem.mp (by no_write hostOps3_3))
    _ = W15 m ρ c (Proc.devRef .tc main_arg9) := StableHlo.after_of_forall_not_mem (b := Proc.devRef .tc main_arg9) _ _ (List.forall_iff_forall_mem.mp (by no_write hostOps3_2))
    _ = W14 m ρ c (Proc.devRef .tc main_arg9) := StableHlo.after_of_forall_not_mem (b := Proc.devRef .tc main_arg9) _ _ (List.forall_iff_forall_mem.mp (by no_write hostOps3_1))
    _ = W13 m ρ c (Proc.devRef .tc main_arg9) := StableHlo.after_of_forall_not_mem (b := Proc.devRef .tc main_arg9) _ _ (List.forall_iff_forall_mem.mp (by no_write hostOps3))
    _ = W12 m ρ c (Proc.devRef .tc main_arg9) := W13_of_ne m ρ c main_arg9 (by decide)
    _ = W11 m ρ c (Proc.devRef .tc main_arg9) := StableHlo.after_of_forall_not_mem (b := Proc.devRef .tc main_arg9) _ _ (List.forall_iff_forall_mem.mp (by no_write hostOps2_1))
    _ = W10 m ρ c (Proc.devRef .tc main_arg9) := StableHlo.after_of_forall_not_mem (b := Proc.devRef .tc main_arg9) _ _ (List.forall_iff_forall_mem.mp (by no_write hostOps2))
    _ = W9 m ρ c (Proc.devRef .tc main_arg9) := W10_of_ne m ρ c main_arg9 (by decide)
    _ = W8 m ρ c (Proc.devRef .tc main_arg9) := StableHlo.after_of_forall_not_mem (b := Proc.devRef .tc main_arg9) _ _ (List.forall_iff_forall_mem.mp (by no_write hostOps1_5))
    _ = W7 m ρ c (Proc.devRef .tc main_arg9) := StableHlo.after_of_forall_not_mem (b := Proc.devRef .tc main_arg9) _ _ (List.forall_iff_forall_mem.mp (by no_write hostOps1_4))
    _ = W6 m ρ c (Proc.devRef .tc main_arg9) := StableHlo.after_of_forall_not_mem (b := Proc.devRef .tc main_arg9) _ _ (List.forall_iff_forall_mem.mp (by no_write hostOps1_3))
    _ = W5 m ρ c (Proc.devRef .tc main_arg9) := StableHlo.after_of_forall_not_mem (b := Proc.devRef .tc main_arg9) _ _ (List.forall_iff_forall_mem.mp (by no_write hostOps1_2))
    _ = W4 m ρ c (Proc.devRef .tc main_arg9) := StableHlo.after_of_forall_not_mem (b := Proc.devRef .tc main_arg9) _ _ (List.forall_iff_forall_mem.mp (by no_write hostOps1_1))
    _ = W3 m ρ c (Proc.devRef .tc main_arg9) := StableHlo.after_of_forall_not_mem (b := Proc.devRef .tc main_arg9) _ _ (List.forall_iff_forall_mem.mp (by no_write hostOps1))
    _ = W2 m ρ c (Proc.devRef .tc main_arg9) := W3_of_ne m ρ c main_arg9 (by decide)
    _ = W1 m ρ c (Proc.devRef .tc main_arg9) := StableHlo.after_of_forall_not_mem (b := Proc.devRef .tc main_arg9) _ _ (List.forall_iff_forall_mem.mp (by no_write hostOps0_1))
    _ = W0 m ρ c (Proc.devRef .tc main_arg9) := StableHlo.after_of_forall_not_mem (b := Proc.devRef .tc main_arg9) _ _ (List.forall_iff_forall_mem.mp (by no_write hostOps0))
    _ = m ((c : Thread nD τ).loc main_arg9) := rfl

theorem arg0_W1 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by no_write hostOps0))
    _ = m ((c : Thread nD τ).loc main_arg0) := rfl

theorem arg1_W0 (c : Dev nD) : W0 m ρ c (Proc.devRef .tc main_arg1) = m ((c : Thread nD τ).loc main_arg1) :=
  calc W0 m ρ c (Proc.devRef .tc main_arg1)
    _ = m ((c : Thread nD τ).loc main_arg1) := rfl

theorem arg2_W0 (c : Dev nD) : W0 m ρ c (Proc.devRef .tc main_arg2) = m ((c : Thread nD τ).loc main_arg2) :=
  calc W0 m ρ c (Proc.devRef .tc main_arg2)
    _ = m ((c : Thread nD τ).loc main_arg2) := rfl

end Cert.KernelIdeal.Keep

end
-- ==== Proof.LibRowIndex.lean ====
/-
  Where a scatter of rows lands, and what a lookup by position reads.

  A scatter of E update rows of width D into an array of N rows, each row sent to the row number its index word
  names (read as a signed integer, not clamped; a row number outside 0 … N − 1 drops the update), lands update
  entry (e, k) on array entry (n, k) only if the e-th index word, read as a signed integer, is n.
  A lookup of a vector of N entries by a column of E positions reads, at p, the vector at the p-th position read
  as a signed integer and clamped into 0 … N − 1; a position that is already a row number is its own clamp; and
  the wrap-around of negative positions (add N where the word is negative) leaves a non-negative word alone.
-/
import Idealize.ShloMosaic.Lib.ValueIdx
import Idealize.ShloMosaic.Lib.StableHlo.Predicate
import proofs.«401563_j56057913147714_2_alg».proof.Proof.LibRowGather

noncomputable section

namespace Cert.RowIndex

open Idealize.ShloMosaic Idealize.ShloMosaic.ValueIdx Cert.LibRowGather

/-- The dimension numbers of a scatter of rows: array [N, D], index column [E, 1], updates [E, D]; the update's
    axis 1 is the window, the array's axis 0 is the scattered one. -/
abbrev rowScatterDims (N D E : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update entry that lands on array entry `i` was sent there by its row's index word: that word, read as a signed
    integer, is `i`'s row number. -/
theorem row_of_resultIdx {N D E w : Nat}
    (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatterDims N D E wf).resultIdx? j idx = some i) :
    (idx (ix2 (j 0) (0 : Fin 1))).toInt = ((i 0).val : ℤ) := by
  unfold ScatterDims.resultIdx? at h
  split at h
  · rename_i hall
    have hi := Option.some.inj h
    have h0 := hall 0
    -- axis 0 is inserted: it carries no window coordinate
    have hw0 : (rowScatterDims N D E wf).window j 0 = 0 := by
      unfold ScatterDims.window
      rw [dif_neg]
      intro hk
      simp [ScatterDims.sKept, Shape.kept, List.mem_filter] at hk
    -- axis 0 is the one the index word addresses: its start is that word read signed
    have hs0 : (rowScatterDims N D E wf).start j idx 0 = (idx (ix2 (j 0) (0 : Fin 1))).toInt := by
      unfold ScatterDims.start
      rw [dif_pos (show (0 : Fin 2) ∈ (rowScatterDims N D E wf).scatterDimsToOperandDims from List.mem_singleton.mpr rfl)]
      have hsi : (rowScatterDims N D E wf).siIdx j
          ⟨List.idxOf (0 : Fin 2) (rowScatterDims N D E wf).scatterDimsToOperandDims,
            List.idxOf_lt_length_iff.2 (List.mem_singleton.mpr rfl)⟩ = ix2 (j 0) (0 : Fin 1) := by
        funext c; refine Fin.ext ?_
        match c with
        | ⟨0, _⟩ => rfl
        | ⟨1, _⟩ => rfl
      rw [hsi]
      rfl
    have hv : (i 0).val = ((rowScatterDims N D E wf).start j idx 0 + (rowScatterDims N D E wf).window j 0).toNat := by
      rw [← hi]
    rw [hw0, hs0] at h0
    rw [hw0, hs0] at hv
    rw [hv]
    have := h0.1
    omega
  · exact absurd h (by simp)

/-- A word that reads, as a signed integer, a row number is clamped to that row. -/
theorem clampRow_of_toInt {N w : Nat} (hN : 0 < N) (v : BitVec w) (n : Fin N) (h : v.toInt = (n.val : ℤ)) :
    clampRow N hN v = n := by
  refine Fin.ext ?_
  show min v.toInt.toNat (N - 1) = n.val
  have hv : v.toInt.toNat = n.val := by rw [h]; exact Int.toNat_natCast _
  have := n.isLt
  rw [hv]
  omega

/-- jnp's wrap-around of a negative position leaves a non-negative word as it is. -/
theorem wrap_of_nonneg (v c : BitVec 32) (h : 0 ≤ v.toInt) :
    Scalar.select (IntOp.cmpi .slt v 0#32) (IntOp.addi v c) v = v := by
  have hs : v.slt 0#32 = false := by
    unfold BitVec.slt
    rw [BitVec.toInt_zero]
    exact decide_eq_false (by omega)
  show Scalar.select (BitVec.ofBool (v.slt 0#32)) (IntOp.addi v c) v = v
  rw [hs]
  exact select_zero _ _

/-- The lookup of a vector by a column of positions, read at `p`: the vector at the clamped position. -/
theorem take_apply {α : Type} {N E w : Nat} (hN : 0 < N) (d : GatherDims ⟨1, ![N]⟩ ⟨2, ![E, 1]⟩ ⟨1, ![E]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![E, 1]⟩ w) (p : Fin E) :
    Host.gather d x idx (ix1 p) = x (ix1 (clampRow N hN (idx (ix2 p (0 : Fin 1))))) := by
  -- the rank-1 index at p, and row p of the column, written either way
  have h1 : ∀ {n : Nat} (q : Fin n), Shape.Idx.ofFin q = ix1 q := fun q => by
    funext a
    obtain rfl : a = 0 := Subsingleton.elim _ _
    exact Fin.ext rfl
  have h2 : StableHlo.Predicate.ixP p = ix2 p (0 : Fin 1) := by
    funext a
    match a with
    | ⟨0, _⟩ => rfl
    | ⟨1, _⟩ => rfl
  have hg := StableHlo.Predicate.gather_take d hcoll hob hsim hivd x idx p hN
  rw [h1, h1] at hg
  simp only [h2] at hg
  exact hg

end Cert.RowIndex

end
-- ==== Proof.LibSegmentCount.lean ====
/-
  A scatter-add of scalars into a vector, read at one entry, on the extended reals.

  E update scalars are added into a vector of N entries; update e goes to the position its index word names (read
  as a signed integer, not clamped; a position outside 0 … N − 1 drops the update). So the result at n is the
  vector's entry there plus the sum of the updates whose index word reads n: a segment sum of scalars; with every
  update equal to one, a count.
-/
import Idealize.ShloMosaic.PureOps.Ideal
import Idealize.ShloMosaic.PureOps.Contract
import Idealize.ShloMosaic.Lib.ValueIdx

noncomputable section

namespace Cert.LibSegmentCount

open Idealize.ShloMosaic Idealize.ShloMosaic.ValueIdx

open scoped BigOperators

/-- The dimension numbers of a scatter of scalars: vector [N], index column [E, 1], updates [E]; no window axis,
    the vector's one axis is the scattered one. -/
abbrev vecScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The vector's one axis is the scattered one: the window starts at the update's index word, read signed. -/
private theorem start_zero {N E w : Nat}
    (wf : ScatterDims.WF ⟨1, ![N]⟩ ⟨2, ![E, 1]⟩ ⟨1, ![E]⟩ [] [0] [0] 1)
    (idx : IVec ⟨2, ![E, 1]⟩ w) (j : (⟨1, ![E]⟩ : Shape).Idx) :
    (vecScatterDims N E wf).start j idx 0 = (idx (ix2 (j 0) (0 : Fin 1))).toInt := by
  unfold ScatterDims.start
  rw [dif_pos (show (0 : Fin 1) ∈ (vecScatterDims N E wf).scatterDimsToOperandDims from List.mem_singleton.mpr rfl)]
  have hsi : (vecScatterDims N E wf).siIdx j
      ⟨List.idxOf (0 : Fin 1) (vecScatterDims N E wf).scatterDimsToOperandDims,
        List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- The vector's one axis is inserted: it carries no window coordinate. -/
private theorem window_zero {N E : Nat}
    (wf : ScatterDims.WF ⟨1, ![N]⟩ ⟨2, ![E, 1]⟩ ⟨1, ![E]⟩ [] [0] [0] 1)
    (j : (⟨1, ![E]⟩ : Shape).Idx) :
    (vecScatterDims N E wf).window j 0 = 0 := by
  unfold ScatterDims.window
  rw [dif_neg]
  intro hk
  simp [ScatterDims.sKept, Shape.kept, List.mem_filter] at hk

/-- WHERE AN UPDATE LANDS: update e lands on entry n of the vector exactly when the e-th index word, read as a
    signed integer, is n. -/
theorem vecScatter_resultIdx_iff {N E w : Nat}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : ℤ) := by
  have hs0 := start_zero wf idx (ix1 e)
  have hw0 := window_zero wf (ix1 e)
  have he : (ix1 e : (⟨1, ![E]⟩ : Shape).Idx) 0 = e := rfl
  rw [he] at hs0
  constructor
  · intro h
    unfold ScatterDims.resultIdx? at h
    split at h
    · rename_i hall
      have hi := Option.some.inj h
      have h0 := hall 0
      have e0 : ((vecScatterDims N E wf).start (ix1 e) idx 0 + (vecScatterDims N E wf).window (ix1 e) 0).toNat
          = n.val := by
        have := congrArg (fun f : (⟨1, ![N]⟩ : Shape).Idx => (f 0).val) hi
        exact this
      rw [hs0, hw0] at h0 e0
      have := h0.1
      omega
    · exact absurd h (by simp)
  · intro hn
    have hall : ∀ a : Fin 1, 0 ≤ (vecScatterDims N E wf).start (ix1 e) idx a + (vecScatterDims N E wf).window (ix1 e) a
        ∧ (vecScatterDims N E wf).start (ix1 e) idx a + (vecScatterDims N E wf).window (ix1 e) a
          < (⟨1, ![N]⟩ : Shape).size a := by
      intro a
      match a with
      | ⟨0, _⟩ =>
        show 0 ≤ (vecScatterDims N E wf).start (ix1 e) idx 0 + (vecScatterDims N E wf).window (ix1 e) 0
          ∧ (vecScatterDims N E wf).start (ix1 e) idx 0 + (vecScatterDims N E wf).window (ix1 e) 0 < (N : ℤ)
        rw [hs0, hw0, hn]
        have := n.isLt
        omega
    unfold ScatterDims.resultIdx?
    rw [dif_pos hall]
    congr 1
    funext a
    refine Fin.ext ?_
    match a with
    | ⟨0, _⟩ =>
      show ((vecScatterDims N E wf).start (ix1 e) idx 0 + (vecScatterDims N E wf).window (ix1 e) 0).toNat = n.val
      rw [hs0, hw0, hn]
      omega

/-- THE SCATTER-ADD READ AT n: the vector's entry plus the sum of the updates whose index word reads n. -/
theorem scatterAdd_vec_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e ∈ Finset.univ.filter (fun e : Fin E => (idx (ix2 e (0 : Fin 1))).toInt = (n.val : ℤ)),
          upd (ix1 e) := by
  -- the scatter-add at one entry is that entry plus the sum of the updates that land there
  show x (ix1 n) + ∑ j ∈ Finset.univ.filter
      (fun j => (vecScatterDims N E wf).resultIdx? j idx = some (ix1 n)), upd j = _
  congr 1
  symm
  -- update positions and update numbers correspond one to one
  refine Finset.sum_bij (fun e _ => (ix1 e : (⟨1, ![E]⟩ : Shape).Idx)) ?_ ?_ ?_ ?_
  · intro e he
    rw [Finset.mem_filter] at he ⊢
    exact ⟨Finset.mem_univ _, (vecScatter_resultIdx_iff wf idx e n).mpr he.2⟩
  · intro e₁ _ e₂ _ h
    have := congrFun h 0
    exact this
  · intro j hj
    rw [Finset.mem_filter] at hj
    have hj2 := hj.2
    rw [eq_ix1 j] at hj2
    have := (vecScatter_resultIdx_iff wf idx (j 0) n).mp hj2
    exact ⟨j 0, Finset.mem_filter.mpr ⟨Finset.mem_univ _, this⟩, (eq_ix1 j).symm⟩
  · intro e _
    rfl

end Cert.LibSegmentCount

end
-- ==== Proof.LibColumn.lean ====
/-
  Two layout readings between a vector [a] and a column [a, 1], the inverse directions of the keepdims forms:
  a column [a, 1] cast to a vector [a] (the reshape that drops a kept unit axis), and a vector [a] spread by
  `broadcast_in_dim` along `dims = [0]` into a column [a, 1] (the reshape that adds one, as jax lowers
  `keepdims=True` on the host).
-/
import Idealize.ShloMosaic.Lib.Pipeline.Value
import Idealize.ShloMosaic.Lib.ValueIdx

namespace Cert.LibColumn

open Idealize.ShloMosaic Idealize.ShloMosaic.ValueIdx

variable {α : Type}

/-- A column [a, 1] cast to a vector [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] broadcast along `dims = [0]` into a column [a, 1] reads, at (i, u), the vector's entry i. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

end Cert.LibColumn
-- ==== Proof.KHost0.lean ====
/-
  The first stretch of the host's operations, read at an index.

  From the edge table (row 0 the source words, row 1 the destination words) the stretch takes the two rows as
  vectors, counts for every node the edges whose destination word reads that node (a scatter-add of ones into
  zeros), adds one, takes the maximum with one and the reciprocal square root: the node's scale. It looks the
  scale up at the source word and at the destination word of every edge (a negative word first wrapped around by
  the number of nodes, which leaves a word in the node range alone; the lookup clamps) and multiplies the two: the
  edge's weight. It squares the scale (the node's own weight) and multiplies every attribute row by its edge's
  weight. Each of these, read at one index, is the specification's number of the same name.
-/
import proofs.«401563_j56057913147714_2_alg».proof.Proof.Gen.KernelIdeal.Launch
import proofs.«401563_j56057913147714_2_alg».proof.Proof.Spec
import proofs.«401563_j56057913147714_2_alg».proof.Proof.LibRowIndex
import proofs.«401563_j56057913147714_2_alg».proof.Proof.LibSegmentCount
import proofs.«401563_j56057913147714_2_alg».proof.Proof.LibColumn

set_option maxRecDepth 16384

noncomputable section

namespace Cert.KernelIdeal.KHost0

open Idealize.ShloMosaic Idealize.ShloMosaic.TcCoe Idealize.ShloMosaic.ValueIdx Idealize.ShloMosaic.StableHlo
open Cert.KernelIdeal Cert.KernelIdeal.Gen Cert.Spec
open scoped BigOperators

-- The buffers' contents when the stretch is entered: any contents.
variable (V : Valuation τ sig (Elt Ideal))

variable (ei : EdgeIx) (ea : EdgeAttr)

/-! ## The stretch's values as functions of the edge table -/

/-- A row of the edge table as a vector of words. -/
def rowW (r : Fin 2 → Nat) (h : S2x3200000.Slices r S1x3200000) (a : IVec S2x3200000 32) : IVec S3200000 32 :=
  shapeCast S3200000 (extractStridedSlice S1x3200000 r a h) shapeCasts_S1x3200000_S3200000

/-- The source words and the destination words. -/
def srcV (a : IVec S2x3200000 32) : IVec S3200000 32 := rowW ![0, 0] slices_S2x3200000_S1x3200000_0_0 a
def dstV (a : IVec S2x3200000 32) : IVec S3200000 32 := rowW ![1, 0] slices_S2x3200000_S1x3200000_1_0 a

/-- A number spread over the nodes, over the edges. -/
def allN (b : BitVec 32) : FVec Ideal S100000 .f32 := broadcastInDim S100000 ![] bcast_S_S100000 (constant (F := Ideal) S_ .f32 b)
def allE (b : BitVec 32) : FVec Ideal S3200000 .f32 := broadcastInDim S3200000 ![] bcast_S_S3200000 (constant (F := Ideal) S_ .f32 b)
def allEI (b : BitVec 32) : IVec S3200000 32 := broadcastInDim S3200000 ![] bcast_S_S3200000 (constantI S_ 32 b)

/-- A vector over the edges as a column. -/
def colE {α : Type} (x : S3200000.Idx → α) : S3200000x1.Idx → α := broadcastInDim S3200000x1 ![0] bcast_S3200000_S3200000x1_0 x

/-- The count of arriving edges, by a scatter-add of ones into zeros. -/
def cntV (a : IVec S2x3200000 32) : FVec Ideal S100000 .f32 :=
  Host.scatterAdd scatter_S100000_S3200000x1_S3200000_n_0_0_1 (allN 0x00000000#32) (colE (dstV a)) (allE 0x3F800000#32)

/-- The node scale. -/
def dinvV (a : IVec S2x3200000 32) : FVec Ideal S100000 .f32 :=
  Host.rsqrt (maximumf (addf (cntV a) (allN 0x3F800000#32)) (allN 0x3F800000#32))

/-- A word vector with its negative words wrapped around by the number of nodes. -/
def wrapV (w : IVec S3200000 32) : IVec S3200000 32 :=
  select (cmpi .slt w (allEI 0#32)) (addi w (allEI 100000#32)) w

/-- The node scale looked up at a vector of words. -/
def lookV (a : IVec S2x3200000 32) (w : IVec S3200000 32) : FVec Ideal S3200000 .f32 :=
  Host.gather gather_S100000_S3200000x1_S3200000_n_0_n_n_0_1_1 (dinvV a) (colE (wrapV w))

/-- The edge weight. -/
def nrmV (a : IVec S2x3200000 32) : FVec Ideal S3200000 .f32 := mulf (lookV a (srcV a)) (lookV a (dstV a))

/-- The scaled attributes. -/
def easV (a : IVec S2x3200000 32) (b : FVec Ideal S3200000x16 .f32) : FVec Ideal S3200000x16 .f32 :=
  mulf (broadcastInDim S3200000x16 ![0, 1] bcast_S3200000x1_S3200000x16_0_1 (colE (nrmV a))) b

/-! ## What the stretch leaves in its buffers -/

theorem v1_term :
    (StableHlo.after (hostOps0 (F := Ideal)) V (Proc.devRef .tc main_v1) : S3200000.Idx → BitVec 32)
      = srcV (V (Proc.devRef .tc main_arg1)) := by
  after_results
  rfl

theorem v3_term :
    (StableHlo.after (hostOps0 (F := Ideal)) V (Proc.devRef .tc main_v3) : S3200000.Idx → BitVec 32)
      = dstV (V (Proc.devRef .tc main_arg1)) := by
  after_results
  rfl

theorem v27_term :
    (StableHlo.after (hostOps0 (F := Ideal)) V (Proc.devRef .tc main_v27) : S3200000.Idx → EReal)
      = nrmV (V (Proc.devRef .tc main_arg1)) := by
  after_results_simp
  rfl

theorem v28_term :
    (StableHlo.after (hostOps0 (F := Ideal)) V (Proc.devRef .tc main_v28) : S100000.Idx → EReal)
      = mulf (dinvV (V (Proc.devRef .tc main_arg1))) (dinvV (V (Proc.devRef .tc main_arg1))) := by
  after_results
  rfl

theorem v31_term :
    (StableHlo.after (hostOps0 (F := Ideal)) V (Proc.devRef .tc main_v31) : S3200000x16.Idx → EReal)
      = easV (V (Proc.devRef .tc main_arg1)) (V (Proc.devRef .tc main_arg2)) := by
  after_results_simp
  rfl

theorem c6_term :
    (StableHlo.after (hostOps0 (F := Ideal)) V (Proc.devRef .tc main_c_6) : S_.Idx → BitVec 32)
      = constantI S_ 32 0#32 := by
  after_results

/-! ## The values read at an index -/

/-- Row r of the table, read at edge e. -/
theorem srcV_apply (a : IVec S2x3200000 32) (e : Fin 3200000) : srcV a (ix1 e) = a (ix2 (0 : Fin 2) e) := by
  unfold srcV rowW
  refine (shapeCast_apply _ _ (ix1 e) (ix2 (0 : Fin 1) e) ?_).trans ?_
  · rw [Shape.rowMajor_val_two, Shape.rowMajor_val_one]
    show 0 * 3200000 + e.val = e.val
    omega
  · refine extractStridedSlice_apply _ a _ (ix2 (0 : Fin 1) e) (ix2 (0 : Fin 2) e) fun ax => ?_
    match ax with
    | ⟨0, _⟩ => rfl
    | ⟨1, _⟩ => show e.val = 0 + e.val; omega

theorem dstV_apply (a : IVec S2x3200000 32) (e : Fin 3200000) : dstV a (ix1 e) = a (ix2 (1 : Fin 2) e) := by
  unfold dstV rowW
  refine (shapeCast_apply _ _ (ix1 e) (ix2 (0 : Fin 1) e) ?_).trans ?_
  · rw [Shape.rowMajor_val_two, Shape.rowMajor_val_one]
    show 0 * 3200000 + e.val = e.val
    omega
  · refine extractStridedSlice_apply _ a _ (ix2 (0 : Fin 1) e) (ix2 (1 : Fin 2) e) fun ax => ?_
    match ax with
    | ⟨0, _⟩ => rfl
    | ⟨1, _⟩ => show e.val = 0 + e.val; omega

/-- A spread number reads that number everywhere. -/
theorem allN_apply (b : BitVec 32) (i : S100000.Idx) : allN b i = Ideal.ofBits .f32 b := rfl
theorem allE_apply (b : BitVec 32) (i : S3200000.Idx) : allE b i = Ideal.ofBits .f32 b := rfl
theorem allEI_apply (b : BitVec 32) (i : S3200000.Idx) : allEI b i = b := rfl

/-- A column reads its vector. -/
theorem colE_apply {α : Type} (x : S3200000.Idx → α) (e : Fin 3200000) (u : Fin 1) : colE x (ix2 e u) = x (ix1 e) :=
  LibColumn.broadcastInDim_a_a1_apply x _ e u

/-- The count at node n: zero plus a one for every edge whose destination word reads n. -/
theorem cntV_apply (a : IVec S2x3200000 32) (n : Fin 100000) :
    cntV a (ix1 n) = Ideal.ofBits .f32 0x00000000#32
      + ∑ _e ∈ Finset.univ.filter (fun e : Fin 3200000 => (a (ix2 (1 : Fin 2) e)).toInt = (n.val : ℤ)),
          Ideal.ofBits .f32 0x3F800000#32 := by
  unfold cntV
  rw [show (scatter_S100000_S3200000x1_S3200000_n_0_0_1 : ScatterDims S100000 S3200000x1 S3200000)
      = LibSegmentCount.vecScatterDims 100000 3200000 scatter_S100000_S3200000x1_S3200000_n_0_0_1_wf from rfl]
  rw [LibSegmentCount.scatterAdd_vec_apply, allN_apply]
  have hf : (Finset.univ.filter fun e : Fin 3200000 => (colE (dstV a) (ix2 e (0 : Fin 1))).toInt = (n.val : ℤ))
      = Finset.univ.filter fun e : Fin 3200000 => (a (ix2 (1 : Fin 2) e)).toInt = (n.val : ℤ) :=
    Finset.filter_congr fun e _ => by rw [colE_apply, dstV_apply]
  rw [hf]
  congr 1

/-- The host's reciprocal root at an index is the extended reals'. -/
theorem hostRsqrt_apply (x : FVec Ideal S100000 .f32) (n : Fin 100000) : Host.rsqrt x (ix1 n) = Ideal.rsqrt (x (ix1 n)) := rfl

/-- The node scale at node n. -/
theorem dinvV_apply (a : IVec S2x3200000 32) (n : Fin 100000) :
    dinvV a (ix1 n) = Ideal.rsqrt (max (cntV a (ix1 n) + Ideal.ofBits .f32 0x3F800000#32) (Ideal.ofBits .f32 0x3F800000#32)) := by
  have h1 : dinvV a (ix1 n)
      = Ideal.rsqrt (maximumf (addf (cntV a) (allN 0x3F800000#32)) (allN 0x3F800000#32) (ix1 n)) := by
    unfold dinvV
    exact hostRsqrt_apply _ n
  have h2 : maximumf (addf (cntV a) (allN 0x3F800000#32)) (allN 0x3F800000#32) (ix1 n)
      = max (cntV a (ix1 n) + Ideal.ofBits .f32 0x3F800000#32) (Ideal.ofBits .f32 0x3F800000#32) := by
    rw [maximumf_apply, addf_apply, allN_apply]
  rw [h1, h2]

/-- A word that is not negative is its own wrap. -/
theorem wrapV_apply (w : IVec S3200000 32) (e : Fin 3200000) (h : 0 ≤ (w (ix1 e)).toInt) : wrapV w (ix1 e) = w (ix1 e) :=
  RowIndex.wrap_of_nonneg (w (ix1 e)) 100000#32 h

/-- The lookup at edge e: the node scale at the clamped word. -/
theorem lookV_apply (a : IVec S2x3200000 32) (w : IVec S3200000 32) (e : Fin 3200000) (h : 0 ≤ (w (ix1 e)).toInt) :
    lookV a w (ix1 e) = dinvV a (ix1 (LibRowGather.clampRow NN hNN (w (ix1 e)))) := by
  unfold lookV
  rw [RowIndex.take_apply hNN gather_S100000_S3200000x1_S3200000_n_0_n_n_0_1_1 rfl rfl rfl rfl, colE_apply, wrapV_apply w e h]

/-- A column over the edges spread to sixteen columns reads, at (e, k), the column's entry e. -/
theorem wideE_apply {α : Type} (x : S3200000x1.Idx → α) (e : Fin 3200000) (k : Fin 16) :
    broadcastInDim S3200000x16 ![0, 1] bcast_S3200000x1_S3200000x16_0_1 x (ix2 e k) = x (ix2 e (0 : Fin 1)) := by
  refine broadcastInDim_apply _ _ x (ix2 e k) (ix2 e (0 : Fin 1)) fun ax => ?_
  match ax with
  | ⟨0, h0⟩ => exact (if_neg (show ¬ S3200000x1.size ⟨0, h0⟩ = 1 by show ¬ (3200000 : ℕ) = 1; omega)).symm
  | ⟨1, h1⟩ => exact (if_pos (show S3200000x1.size ⟨1, h1⟩ = 1 from rfl)).symm

/-- The scaled attributes at (e, k). -/
theorem easV_apply (a : IVec S2x3200000 32) (b : FVec Ideal S3200000x16 .f32) (e : Fin 3200000) (k : Fin 16) :
    easV a b (ix2 e k) = nrmV a (ix1 e) * b (ix2 e k) := by
  unfold easV
  rw [mulf_apply, wideE_apply, colE_apply]

/-! ## The specification's numbers -/

/-- The node scale at node n is the specification's. -/
theorem dinvV_eq (n : Fin NN) : dinvV ei (ix1 n) = dinv ei n := by
  rw [dinvV_apply, cntV_apply]
  unfold dinv cnt into dstW zero one
  rfl

/-- The edge weight at edge e is the specification's, every word of the table being a node number. -/
theorem nrmV_eq (hR : InRange ei) (e : Fin EE) : nrmV ei (ix1 e) = nrm ei e := by
  have hs : 0 ≤ (srcV ei (ix1 e)).toInt := by rw [srcV_apply]; exact (hR 0 e).1
  have hd : 0 ≤ (dstV ei (ix1 e)).toInt := by rw [dstV_apply]; exact (hR 1 e).1
  unfold nrmV
  rw [mulf_apply, lookV_apply ei (srcV ei) e hs, lookV_apply ei (dstV ei) e hd, srcV_apply, dstV_apply, dinvV_eq, dinvV_eq]
  rfl

/-! ## The stretch's results -/

theorem src_eq (h1 : (V (Proc.devRef .tc main_arg1) : S2x3200000.Idx → BitVec 32) = ei) (e : Fin EE) :
    (StableHlo.after (hostOps0 (F := Ideal)) V (Proc.devRef .tc main_v1) : S3200000.Idx → BitVec 32) (ix1 e) = srcW ei e := by
  rw [v1_term, h1]
  exact srcV_apply ei e

theorem dst_eq (h1 : (V (Proc.devRef .tc main_arg1) : S2x3200000.Idx → BitVec 32) = ei) (e : Fin EE) :
    (StableHlo.after (hostOps0 (F := Ideal)) V (Proc.devRef .tc main_v3) : S3200000.Idx → BitVec 32) (ix1 e) = dstW ei e := by
  rw [v3_term, h1]
  exact dstV_apply ei e

theorem nrm_eq (h1 : (V (Proc.devRef .tc main_arg1) : S2x3200000.Idx → BitVec 32) = ei) (hR : InRange ei) (e : Fin EE) :
    (StableHlo.after (hostOps0 (F := Ideal)) V (Proc.devRef .tc main_v27) : S3200000.Idx → EReal) (ix1 e) = nrm ei e := by
  rw [v27_term, h1]
  exact nrmV_eq ei hR e

theorem selfc_eq (h1 : (V (Proc.devRef .tc main_arg1) : S2x3200000.Idx → BitVec 32) = ei) (n : Fin NN) :
    (StableHlo.after (hostOps0 (F := Ideal)) V (Proc.devRef .tc main_v28) : S100000.Idx → EReal) (ix1 n) = dinv ei n * dinv ei n := by
  rw [v28_term, h1, mulf_apply, dinvV_eq]

theorem eas_eq (h1 : (V (Proc.devRef .tc main_arg1) : S2x3200000.Idx → BitVec 32) = ei)
    (h2 : (V (Proc.devRef .tc main_arg2) : S3200000x16.Idx → EReal) = ea) (hR : InRange ei) (e : Fin EE) (k : Fin 16) :
    (StableHlo.after (hostOps0 (F := Ideal)) V (Proc.devRef .tc main_v31) : S3200000x16.Idx → EReal) (ix2 e k) = nrm ei e * ea (ix2 e k) := by
  rw [v31_term, h1, h2, easV_apply, nrmV_eq ei hR e]

theorem c6_eq (i : S_.Idx) :
    (StableHlo.after (hostOps0 (F := Ideal)) V (Proc.devRef .tc main_c_6) : S_.Idx → BitVec 32) i = 0#32 := by
  rw [c6_term]
  rfl

end Cert.KernelIdeal.KHost0

end
-- ==== Proof.KPads.lean ====
import proofs.«401563_j56057913147714_2_alg».proof.Proof.Gen.KernelIdeal.Launch
import proofs.«401563_j56057913147714_2_alg».proof.Proof.Spec
import Idealize.ShloMosaic.Lib.StableHlo.Run
import Idealize.ShloMosaic.Lib.ValueIdx
import Idealize.ShloMosaic.Lib.KernelVsHost
import Idealize.ShloMosaic.Lib.Pipeline.Value

/-
  The zero-pads and the row slices of the host program, read at an entry.

  Before each of its four tiled stages the program pads an array of rows with further rows (a fill value below the
  last row) so that the row count is a multiple of the tile, and after a stage it cuts the first rows back out. A
  row inside the original array is read back unchanged from the padded one, whatever the fill value is; and row n of
  the cut is row n of the array it was cut from. Both are stated once for any extents and then at the program's
  eight places.
-/

set_option maxRecDepth 16384

noncomputable section

namespace Cert.KernelIdeal.KPads

open Idealize.ShloMosaic Idealize.ShloMosaic.TcCoe Idealize.ShloMosaic.ValueIdx Idealize.ShloMosaic.StableHlo
open Cert.KernelIdeal Cert.KernelIdeal.Gen

open Cert.Spec (upN upE)

/-- Rows padded below by a fill value: an entry of the operand is read back where it was. On each axis the low
    padding is 0 and there is no interior padding, so entry (n, k) of the operand sits at (n, k) of the result. -/
theorem pad_rows_apply {α : Type} {N M D p : Nat} {u : Shape} (x : (⟨2, ![N, D]⟩ : Shape).Idx → α) (v : u.Idx → α)
    (h : (⟨2, ![N, D]⟩ : Shape).Pads ![0, 0] ![p, 0] ![0, 0] ⟨2, ![M, D]⟩) (hu : 0 < u.numel) (hNM : N ≤ M)
    (n : Fin N) (k : Fin D) :
    pad ⟨2, ![M, D]⟩ ![0, 0] ![p, 0] ![0, 0] x v h hu (ix2 (Fin.castLE hNM n) k) = x (ix2 n k) := by
  refine pad_apply_of_inside _ _ _ x v h hu _ (ix2 n k) fun a => ?_
  match a with
  | ⟨0, _⟩ => show n.val = 0 + n.val * (0 + 1); omega
  | ⟨1, _⟩ => show k.val = 0 + k.val * (0 + 1); omega

/-- The first rows cut out of an array (offsets 0 on both axes): entry (n, k) of the cut is entry (n, k) of the array. -/
theorem slice_rows_apply {α : Type} {N M D : Nat} (x : (⟨2, ![M, D]⟩ : Shape).Idx → α)
    (h : (⟨2, ![M, D]⟩ : Shape).Slices ![0, 0] ⟨2, ![N, D]⟩) (hNM : N ≤ M) (n : Fin N) (k : Fin D) :
    extractStridedSlice ⟨2, ![N, D]⟩ ![0, 0] x h (ix2 n k) = x (ix2 (Fin.castLE hNM n) k) := by
  refine extractStridedSlice_apply _ x h _ (ix2 (Fin.castLE hNM n) k) fun a => ?_
  match a with
  | ⟨0, _⟩ => show n.val = 0 + n.val; omega
  | ⟨1, _⟩ => show k.val = 0 + k.val; omega

-- the buffers' contents when a stretch is entered: any contents
variable (V : Valuation τ sig (Elt Ideal))

/-- The node features padded to 106496 rows. -/
theorem pad_x (n : Fin 100000) (k : Fin 128) :
    (StableHlo.after (hostOps0_1 (F := Ideal)) V (Proc.devRef .tc main_v32) : S106496x128.Idx → EReal) (ix2 (upN n) k)
      = (V (Proc.devRef .tc main_arg0) : S100000x128.Idx → EReal) (ix2 n k) := by
  dsimp only [hostOps0_1]
  after_results
  exact pad_rows_apply (p := 6496) (V (Proc.devRef .tc main_arg0)) _ pads_S100000x128_S106496x128_064960_000 h_S_ _ n k

/-- The first layer's node rows cut back to 100000 rows. -/
theorem slice_ne1 (n : Fin 100000) (j : Fin 16) :
    (StableHlo.after (hostOps1 (F := Ideal)) V (Proc.devRef .tc main_v34) : S100000x16.Idx → EReal) (ix2 n j)
      = (V (Proc.devRef .tc main_v33) : S106496x16.Idx → EReal) (ix2 (upN n) j) := by
  dsimp only [hostOps1]
  after_results
  exact slice_rows_apply (V (Proc.devRef .tc main_v33)) _ _ n j

/-- The scaled edge attributes padded to 3203072 rows, for the first layer. -/
theorem pad_eas1 (e : Fin 3200000) (k : Fin 16) :
    (StableHlo.after (hostOps1_3 (F := Ideal)) V (Proc.devRef .tc main_v39) : S3203072x16.Idx → EReal) (ix2 (upE e) k)
      = (V (Proc.devRef .tc main_v31) : S3200000x16.Idx → EReal) (ix2 e k) := by
  dsimp only [hostOps1_3]
  after_results
  exact pad_rows_apply (p := 3072) (V (Proc.devRef .tc main_v31)) _ pads_S3200000x16_S3203072x16_030720_000 h_S_ _ e k

/-- The scaled gathered rows padded to 3203072 rows, for the first layer. -/
theorem pad_g1 (e : Fin 3200000) (k : Fin 16) :
    (StableHlo.after (hostOps1_5 (F := Ideal)) V (Proc.devRef .tc main_v40) : S3203072x16.Idx → EReal) (ix2 (upE e) k)
      = (V (Proc.devRef .tc main_v38) : S3200000x16.Idx → EReal) (ix2 e k) := by
  dsimp only [hostOps1_5]
  after_results
  exact pad_rows_apply (p := 3072) (V (Proc.devRef .tc main_v38)) _ pads_S3200000x16_S3203072x16_030720_000 h_S_ _ e k

/-- The first layer's result padded to 106496 rows. -/
theorem pad_h1 (n : Fin 100000) (j : Fin 16) :
    (StableHlo.after (hostOps2_1 (F := Ideal)) V (Proc.devRef .tc main_v55) : S106496x16.Idx → EReal) (ix2 (upN n) j)
      = (V (Proc.devRef .tc main_v54) : S100000x16.Idx → EReal) (ix2 n j) := by
  dsimp only [hostOps2_1]
  after_results
  exact pad_rows_apply (p := 6496) (V (Proc.devRef .tc main_v54)) _ pads_S100000x16_S106496x16_064960_000 h_S_ _ n j

/-- The second layer's node rows cut back to 100000 rows. -/
theorem slice_ne2 (n : Fin 100000) (j : Fin 16) :
    (StableHlo.after (hostOps3 (F := Ideal)) V (Proc.devRef .tc main_v57) : S100000x16.Idx → EReal) (ix2 n j)
      = (V (Proc.devRef .tc main_v56) : S106496x16.Idx → EReal) (ix2 (upN n) j) := by
  dsimp only [hostOps3]
  after_results
  exact slice_rows_apply (V (Proc.devRef .tc main_v56)) _ _ n j

/-- The scaled edge attributes padded to 3203072 rows, for the second layer. -/
theorem pad_eas2 (e : Fin 3200000) (k : Fin 16) :
    (StableHlo.after (hostOps3_3 (F := Ideal)) V (Proc.devRef .tc main_v62) : S3203072x16.Idx → EReal) (ix2 (upE e) k)
      = (V (Proc.devRef .tc main_v31) : S3200000x16.Idx → EReal) (ix2 e k) := by
  dsimp only [hostOps3_3]
  after_results
  exact pad_rows_apply (p := 3072) (V (Proc.devRef .tc main_v31)) _ pads_S3200000x16_S3203072x16_030720_000 h_S_ _ e k

/-- The scaled gathered rows padded to 3203072 rows, for the second layer. -/
theorem pad_g2 (e : Fin 3200000) (k : Fin 16) :
    (StableHlo.after (hostOps3_5 (F := Ideal)) V (Proc.devRef .tc main_v63) : S3203072x16.Idx → EReal) (ix2 (upE e) k)
      = (V (Proc.devRef .tc main_v61) : S3200000x16.Idx → EReal) (ix2 e k) := by
  dsimp only [hostOps3_5]
  after_results
  exact pad_rows_apply (p := 3072) (V (Proc.devRef .tc main_v61)) _ pads_S3200000x16_S3203072x16_030720_000 h_S_ _ e k

end Cert.KernelIdeal.KPads

end
-- ==== Proof.KTake.lean ====
/-
  Two host computations of the kernel program, read at one entry: the lookup of node rows by the edges' source words, and
  the scaling of the rows so found by the edges' weights.

  The lookup takes a table of 100000 rows of 16 numbers and 3200000 position words. A negative word is first wrapped by
  the row count; the rows are then gathered at the (clamped) positions; and where a position is outside 0 … 99999 the
  row is replaced by a filler. When every word is already a row number nothing is wrapped, every position is inside, and
  entry (e, j) of the result is entry (s[e], j) of the table. The scaling multiplies entry (e, j) by the weight of row e,
  which is laid out over the row by two broadcasts. Both computations occur twice in the program, on different buffers.
-/
import proofs.«401563_j56057913147714_2_alg».proof.Proof.Gen.KernelIdeal.Launch
import proofs.«401563_j56057913147714_2_alg».proof.Proof.Spec
import proofs.«401563_j56057913147714_2_alg».proof.Proof.LibRowGather
import proofs.«401563_j56057913147714_2_alg».proof.Proof.LibRowIndex
import proofs.«401563_j56057913147714_2_alg».proof.Proof.LibColumn
import Idealize.ShloMosaic.Lib.StableHlo.Run
import Idealize.ShloMosaic.Lib.ValueIdx
import Idealize.ShloMosaic.Lib.Pipeline.Value
import Idealize.ShloMosaic.Lib.ReduceAll

set_option maxRecDepth 16384

noncomputable section

namespace Cert.KernelIdeal.KTake

open Idealize.ShloMosaic Idealize.ShloMosaic.TcCoe Idealize.ShloMosaic.ValueIdx Idealize.ShloMosaic.StableHlo
open Cert.KernelIdeal Cert.KernelIdeal.Gen Cert.LibRowGather

/-! ## Conjunctions of ones, and two broadcasts read at an entry -/

/-- A left fold by `and` that starts at 1 and meets only 1s is 1. -/
theorem foldl_andi_ones {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    exact foldl_andi_ones f l _ (IntOp.andi_eq_one.2 ⟨hi, h a List.mem_cons_self⟩) fun n hn => h n (List.mem_cons_of_mem _ hn)

/-- A reduction by `and`, from 1, of an array of 1s is 1 at every result entry. -/
theorem reduce_andi_ones {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl]
  exact foldl_andi_ones x _ _ hi fun n _ => hx n

/-- A vector [a] laid along the rows of an [a, b] array reads, at (p, k), the vector's entry p. -/
theorem bcast_vec_rows {α : Type} {a b : ℕ} (x : (⟨1, ![a]⟩ : Shape).Idx → α)
    (h : (⟨1, ![a]⟩ : Shape).BroadcastsInDim ⟨2, ![a, b]⟩ (![0] : Fin 1 → Fin 2)) (p : Fin a) (k : Fin b) :
    broadcastInDim ⟨2, ![a, b]⟩ ![0] h x (ix2 p k) = x (ix1 p) := by
  refine broadcastInDim_apply _ h x (ix2 p k) (ix1 p) fun ax => ?_
  match ax with
  | ⟨0, _⟩ =>
    show p.val = if a = 1 then 0 else p.val
    split
    · have := p.isLt; omega
    · rfl

/-- A column [a, 1] spread over the b entries of each row reads, at (p, k), the column's entry in row p. -/
theorem bcast_col_rows {α : Type} {a b : ℕ} (x : (⟨2, ![a, 1]⟩ : Shape).Idx → α)
    (h : (⟨2, ![a, 1]⟩ : Shape).BroadcastsInDim ⟨2, ![a, b]⟩ (![0, 1] : Fin 2 → Fin 2)) (p : Fin a) (k : Fin b) :
    broadcastInDim ⟨2, ![a, b]⟩ ![0, 1] h x (ix2 p k) = x (ix2 p (0 : Fin 1)) := by
  refine broadcastInDim_apply _ h x (ix2 p k) (ix2 p (0 : Fin 1)) fun ax => ?_
  match ax with
  | ⟨0, _⟩ =>
    show p.val = if a = 1 then 0 else p.val
    split
    · have := p.isLt; omega
    · rfl
  | ⟨1, _⟩ => rfl

/-- Contents carried to a buffer's own type and back are the contents. -/
theorem ofBuf_toBuf {sig : RefSig} {T : BufTy} {Val : EltTy → Type} (r : Ref sig .tc) (h h' : r.ty = T)
    (a : r.space ≠ .host) (b : r.isScoped = false) (c : r.space ≠ .host) (d : r.isScoped = false) (v : T.Contents Val) :
    (TRef.of r h a b : TRef sig T).ofBuf ((TRef.of r h' c d : TRef sig T).toBuf v) = v := by
  subst h
  rfl

/-! ## The two computations as functions of their inputs -/

section Functions
variable {F : FTy → Type} [FloatOps F]

/-- The positions a lookup reads: a negative word wrapped by the row count 100000, then the words kept as a column. -/
def positions (s : IVec S3200000 32) : IVec S3200000x1 32 :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- Which positions lie in 0 … 99999: both comparisons, joined, and reduced by `and` over the column's unit axis. -/
def inside (pos : IVec S3200000x1 32) : IVec S3200000 1 :=
  Host.reduce IntOp.andi
    (andi (cmpi .sge pos (broadcastInDim S3200000x1 ![] bcast_S_S3200000x1 (constantI S_ 32 0#32)))
      (cmpi .sle pos (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The lookup of table rows by position words as the program writes it: the rows gathered at the positions, and a row
    replaced by the filler where its position is not inside. -/
def takeRows (tbl : FVec F S100000x16 .f32) (s : IVec S3200000 32) : FVec F S3200000x16 .f32 :=
  select (broadcastInDim S3200000x16 ![0] bcast_S3200000_S3200000x16_0 (inside (positions s)))
    (Host.gather gather_S100000x16_S3200000x1_S3200000x16_1_0_n_n_0_1_116 tbl (positions s))
    (broadcastInDim S3200000x16 ![] bcast_S_S3200000x16 (constant (F := F) S_ .f32 0x7FC00000#32))

/-- The scaling of each row by its own weight as the program writes it. -/
def scaleRows (w : FVec F S3200000 .f32) (x : FVec F S3200000x16 .f32) : FVec F S3200000x16 .f32 :=
  mulf (broadcastInDim S3200000x16 ![0, 1] bcast_S3200000x1_S3200000x16_0_1
    (broadcastInDim S3200000x1 ![0] bcast_S3200000_S3200000x1_0 w)) x

/-- A word that is already a row number is its own position. -/
theorem positions_apply (s : IVec S3200000 32) (p : Fin 3200000) (u : Fin 1) (h0 : 0 ≤ (s (ix1 p)).toInt) :
    positions s (ix2 p u) = s (ix1 p) := by
  unfold positions
  rw [Cert.LibColumn.broadcastInDim_a_a1_apply]
  exact Cert.RowIndex.wrap_of_nonneg (s (ix1 p)) 100000#32 h0

/-- Positions that all lie in 0 … 99999 are all inside. -/
theorem inside_apply (pos : IVec S3200000x1 32) (h : ∀ i, 0 ≤ (pos i).toInt ∧ (pos i).toInt ≤ 99999) (p : Fin 3200000) :
    inside pos (ix1 p) = 1#1 := by
  unfold inside
  refine reduce_andi_ones _ _ _ _ _ rfl fun i => ?_
  show IntOp.andi (IntOp.cmpi .sge (pos i) 0#32) (IntOp.cmpi .sle (pos i) 99999#32) = 1#1
  refine IntOp.andi_eq_one.2 ⟨IntOp.cmpi_sge.2 ?_, IntOp.cmpi_sle.2 ?_⟩
  · rw [show (0#32 : BitVec 32).toInt = 0 from by decide]; exact (h i).1
  · rw [show (99999#32 : BitVec 32).toInt = 99999 from by decide]; exact (h i).2

/-- THE LOOKUP AT (e, j), every word a row number: row s[e] of the table, column j. -/
theorem takeRows_apply (tbl : FVec F S100000x16 .f32) (s : IVec S3200000 32)
    (hr : ∀ e : Fin 3200000, 0 ≤ (s (ix1 e)).toInt ∧ (s (ix1 e)).toInt < 100000) (e : Fin 3200000) (j : Fin 16) :
    takeRows tbl s (ix2 e j) = tbl (ix2 (clampRow 100000 Cert.Spec.hNN (s (ix1 e))) j) := by
  have hin : inside (positions s) (ix1 e) = 1#1 := by
    refine inside_apply _ (fun i => ?_) e
    obtain ⟨p, u, rfl⟩ : ∃ (p : Fin 3200000) (u : Fin 1), i = ix2 p u := ⟨i 0, i 1, eq_ix2 i⟩
    rw [positions_apply s p u (hr p).1]
    have := hr p
    omega
  unfold takeRows
  rw [select_apply, bcast_vec_rows, hin, select_one,
    show (gather_S100000x16_S3200000x1_S3200000x16_1_0_n_n_0_1_116 : GatherDims S100000x16 S3200000x1 S3200000x16)
      = rowDims 100000 16 3200000 _ from rfl,
    gather_row_apply Cert.Spec.hNN, positions_apply s e 0 (hr e).1]

/-- THE SCALING AT (e, j), at the extended reals: the row's weight times the entry. -/
theorem scaleRows_apply (w : FVec Ideal S3200000 .f32) (x : FVec Ideal S3200000x16 .f32) (e : Fin 3200000) (j : Fin 16) :
    scaleRows w x (ix2 e j) = w (ix1 e) * x (ix2 e j) := by
  unfold scaleRows
  rw [mulf_apply, bcast_col_rows, Cert.LibColumn.broadcastInDim_a_a1_apply]

/-! ## The four stretches as those functions of the contents they start from -/

variable (W : Valuation τ sig (Elt F))

set_option maxHeartbeats 1000000 in
/-- The first lookup: the rows of main_v34 at the words of main_v1. -/
theorem take1_fn : StableHlo.after (hostOps1_1 (F := F)) W (Proc.devRef .tc main_v35)
    = takeRows (W (Proc.devRef .tc main_v34)) (W (Proc.devRef .tc main_v1)) := by
  -- a buffer's own type is the type its reference carries: carrying contents between the two changes nothing
  have h34 : (TRef.of main_v34 : TRef sig ⟨S100000x16, .f32⟩).ofBuf (W (Proc.devRef .tc main_v34))
      = W (Proc.devRef .tc main_v34) := rfl
  have h1 : (TRef.of main_v1 : TRef sig ⟨S3200000, .i32⟩).ofBuf (W (Proc.devRef .tc main_v1))
      = W (Proc.devRef .tc main_v1) := rfl
  have h35 : ∀ f : (⟨S3200000x16, .f32⟩ : BufTy).Contents (Elt F),
      (TRef.of main_v35 : TRef sig ⟨S3200000x16, .f32⟩).toBuf f = f := fun _ => rfl
  after_results_simp
  simp only [ofBuf_toBuf]
  rw [h35, h34, h1]
  rfl

set_option maxHeartbeats 1000000 in
/-- The second lookup: the rows of main_v57 at the words of main_v1. -/
theorem take2_fn : StableHlo.after (hostOps3_1 (F := F)) W (Proc.devRef .tc main_v58)
    = takeRows (W (Proc.devRef .tc main_v57)) (W (Proc.devRef .tc main_v1)) := by
  have h57 : (TRef.of main_v57 : TRef sig ⟨S100000x16, .f32⟩).ofBuf (W (Proc.devRef .tc main_v57))
      = W (Proc.devRef .tc main_v57) := rfl
  have h1 : (TRef.of main_v1 : TRef sig ⟨S3200000, .i32⟩).ofBuf (W (Proc.devRef .tc main_v1))
      = W (Proc.devRef .tc main_v1) := rfl
  have h58 : ∀ f : (⟨S3200000x16, .f32⟩ : BufTy).Contents (Elt F),
      (TRef.of main_v58 : TRef sig ⟨S3200000x16, .f32⟩).toBuf f = f := fun _ => rfl
  after_results_simp
  simp only [ofBuf_toBuf]
  rw [h58, h57, h1]
  rfl

/-- The first scaling: main_v35's rows by main_v27's weights. -/
theorem scale1_fn : StableHlo.after (hostOps1_2 (F := F)) W (Proc.devRef .tc main_v38)
    = scaleRows (W (Proc.devRef .tc main_v27)) (W (Proc.devRef .tc main_v35)) := by
  after_results
  rfl

/-- The second scaling: main_v58's rows by main_v27's weights. -/
theorem scale2_fn : StableHlo.after (hostOps3_2 (F := F)) W (Proc.devRef .tc main_v61)
    = scaleRows (W (Proc.devRef .tc main_v27)) (W (Proc.devRef .tc main_v58)) := by
  after_results
  rfl

end Functions

/-! ## The four stretches read at an entry, at the extended reals, from any contents -/

variable (V : Valuation τ sig (Elt Ideal))

theorem take1 (srcv : Fin 3200000 → BitVec 32)
    (hs : ∀ e, (V (Proc.devRef .tc main_v1) : S3200000.Idx → BitVec 32) (ix1 e) = srcv e)
    (hr : ∀ e, 0 ≤ (srcv e).toInt ∧ (srcv e).toInt < 100000) (e : Fin 3200000) (j : Fin 16) :
    (StableHlo.after (hostOps1_1 (F := Ideal)) V (Proc.devRef .tc main_v35) : S3200000x16.Idx → EReal) (ix2 e j)
      = (V (Proc.devRef .tc main_v34) : S100000x16.Idx → EReal) (ix2 (clampRow 100000 Cert.Spec.hNN (srcv e)) j) := by
  rw [take1_fn V, ← hs e]
  exact takeRows_apply (F := Ideal) (V (Proc.devRef .tc main_v34)) (V (Proc.devRef .tc main_v1))
    (fun e' => by rw [hs e']; exact hr e') e j

theorem take2 (srcv : Fin 3200000 → BitVec 32)
    (hs : ∀ e, (V (Proc.devRef .tc main_v1) : S3200000.Idx → BitVec 32) (ix1 e) = srcv e)
    (hr : ∀ e, 0 ≤ (srcv e).toInt ∧ (srcv e).toInt < 100000) (e : Fin 3200000) (j : Fin 16) :
    (StableHlo.after (hostOps3_1 (F := Ideal)) V (Proc.devRef .tc main_v58) : S3200000x16.Idx → EReal) (ix2 e j)
      = (V (Proc.devRef .tc main_v57) : S100000x16.Idx → EReal) (ix2 (clampRow 100000 Cert.Spec.hNN (srcv e)) j) := by
  rw [take2_fn V, ← hs e]
  exact takeRows_apply (F := Ideal) (V (Proc.devRef .tc main_v57)) (V (Proc.devRef .tc main_v1))
    (fun e' => by rw [hs e']; exact hr e') e j

theorem scale1 (w : Fin 3200000 → EReal) (x : Fin 3200000 → Fin 16 → EReal)
    (hw : ∀ e, (V (Proc.devRef .tc main_v27) : S3200000.Idx → EReal) (ix1 e) = w e)
    (hx : ∀ e j, (V (Proc.devRef .tc main_v35) : S3200000x16.Idx → EReal) (ix2 e j) = x e j)
    (e : Fin 3200000) (j : Fin 16) :
    (StableHlo.after (hostOps1_2 (F := Ideal)) V (Proc.devRef .tc main_v38) : S3200000x16.Idx → EReal) (ix2 e j)
      = w e * x e j := by
  rw [scale1_fn V, ← hw e, ← hx e j]
  exact scaleRows_apply _ _ e j

theorem scale2 (w : Fin 3200000 → EReal) (x : Fin 3200000 → Fin 16 → EReal)
    (hw : ∀ e, (V (Proc.devRef .tc main_v27) : S3200000.Idx → EReal) (ix1 e) = w e)
    (hx : ∀ e j, (V (Proc.devRef .tc main_v58) : S3200000x16.Idx → EReal) (ix2 e j) = x e j)
    (e : Fin 3200000) (j : Fin 16) :
    (StableHlo.after (hostOps3_2 (F := Ideal)) V (Proc.devRef .tc main_v61) : S3200000x16.Idx → EReal) (ix2 e j)
      = w e * x e j := by
  rw [scale2_fn V, ← hw e, ← hx e j]
  exact scaleRows_apply _ _ e j

end Cert.KernelIdeal.KTake

end
-- ==== Proof.LibSegmentSum.lean ====
/-
  A scatter-add of rows, read at one entry, on the extended reals.

  E update rows of width D are added into an array of N rows; update row e goes to the row number its index word
  names (read as a signed integer, not clamped; a row number outside 0 … N − 1 drops the row). Update entry (e, k)
  lands on array entry (n, k') exactly when the e-th index word reads n and k = k'. So the result at (n, k) is the
  array's entry there plus the sum, over the update rows whose index word reads n, of their entries in column k:
  a segment sum.
-/
import Idealize.ShloMosaic.PureOps.Ideal
import Idealize.ShloMosaic.PureOps.Contract
import Idealize.ShloMosaic.Lib.ValueIdx
import proofs.«401563_j56057913147714_2_alg».proof.Proof.LibRowIndex

noncomputable section

namespace Cert.LibSegmentSum

open Idealize.ShloMosaic Idealize.ShloMosaic.ValueIdx Cert.RowIndex

open scoped BigOperators

section Coordinates

variable {N D E w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- Axis 0 of the array is the scattered one: the window starts at the row's index word, read signed. -/
private theorem start_zero :
    (rowScatterDims N D E wf).start j idx 0 = (idx (ix2 (j 0) (0 : Fin 1))).toInt := by
  unfold ScatterDims.start
  rw [dif_pos (show (0 : Fin 2) ∈ (rowScatterDims N D E wf).scatterDimsToOperandDims from List.mem_singleton.mpr rfl)]
  have hsi : (rowScatterDims N D E wf).siIdx j
      ⟨List.idxOf (0 : Fin 2) (rowScatterDims N D E wf).scatterDimsToOperandDims,
        List.idxOf_lt_length_iff.2 (List.mem_singleton.mpr rfl)⟩ = ix2 (j 0) (0 : Fin 1) := by
    funext c; refine Fin.ext ?_
    match c with
    | ⟨0, _⟩ => rfl
    | ⟨1, _⟩ => rfl
  rw [hsi]
  rfl

/-- Axis 0 of the array is inserted: it carries no window coordinate. -/
private theorem window_zero : (rowScatterDims N D E wf).window j 0 = 0 := by
  unfold ScatterDims.window
  rw [dif_neg]
  intro hk
  simp [ScatterDims.sKept, Shape.kept, List.mem_filter] at hk

/-- Axis 1 of the array is not addressed by the index word: the window starts at column 0. -/
private theorem start_one : (rowScatterDims N D E wf).start j idx 1 = 0 := by
  unfold ScatterDims.start
  rw [dif_neg]
  intro hk
  exact Nat.one_ne_zero (congrArg Fin.val (List.mem_singleton.mp hk))

/-- Axis 1 of the array is the window axis: its window coordinate is the update's column. -/
private theorem window_one : (rowScatterDims N D E wf).window j 1 = (j 1).val := by
  unfold ScatterDims.window
  have h1 : (1 : Fin 2) ∈ (rowScatterDims N D E wf).sKept := by
    show (1 : Fin 2) ∈ (List.finRange 2).filter (fun a => decide (a ∉ [(0 : Fin 2)]))
    decide
  rw [dif_pos h1]
  rfl

end Coordinates

/-- WHERE AN UPDATE ENTRY LANDS: entry (e, k) of the updates lands on entry (n, k') of the array exactly when the
    e-th index word, read as a signed integer, is n, and the columns agree. -/
theorem rowScatter_resultIdx_iff {N D E w : Nat} (wf : ScatterDims.WF ⟨2, ![N, D]⟩ ⟨2, ![E, 1]⟩ ⟨2, ![E, D]⟩ [1] [0] [0] 1)
    (idx : IVec ⟨2, ![E, 1]⟩ w) (e : Fin E) (k : Fin D) (n : Fin N) (k' : Fin D) :
    (rowScatterDims N D E wf).resultIdx? (ix2 e k) idx = some (ix2 n k')
      ↔ (idx (ix2 e (0 : Fin 1))).toInt = (n.val : ℤ) ∧ k = k' := by
  have hs0 := start_zero wf idx (ix2 e k)
  have hw0 := window_zero wf (ix2 e k)
  have hs1 := start_one wf idx (ix2 e k)
  have hw1 := window_one wf (ix2 e k)
  have he : (ix2 e k : (⟨2, ![E, D]⟩ : Shape).Idx) 0 = e := rfl
  have hk : (ix2 e k : (⟨2, ![E, D]⟩ : Shape).Idx) 1 = k := rfl
  rw [he] at hs0
  rw [hk] at hw1
  constructor
  · intro h
    unfold ScatterDims.resultIdx? at h
    split at h
    · rename_i hall
      have hi := Option.some.inj h
      have h0 := hall 0
      have e0 : ((rowScatterDims N D E wf).start (ix2 e k) idx 0 + (rowScatterDims N D E wf).window (ix2 e k) 0).toNat
          = n.val := by
        have := congrArg (fun f : (⟨2, ![N, D]⟩ : Shape).Idx => (f 0).val) hi
        exact this
      have e1 : ((rowScatterDims N D E wf).start (ix2 e k) idx 1 + (rowScatterDims N D E wf).window (ix2 e k) 1).toNat
          = k'.val := by
        have := congrArg (fun f : (⟨2, ![N, D]⟩ : Shape).Idx => (f 1).val) hi
        exact this
      rw [hs0, hw0] at h0 e0
      rw [hs1, hw1] at e1
      refine ⟨?_, Fin.ext ?_⟩
      · have := h0.1
        omega
      · omega
    · exact absurd h (by simp)
  · rintro ⟨hn, rfl⟩
    have hall : ∀ a : Fin 2, 0 ≤ (rowScatterDims N D E wf).start (ix2 e k) idx a + (rowScatterDims N D E wf).window (ix2 e k) a
        ∧ (rowScatterDims N D E wf).start (ix2 e k) idx a + (rowScatterDims N D E wf).window (ix2 e k) a
          < (⟨2, ![N, D]⟩ : Shape).size a := by
      intro a
      match a with
      | ⟨0, _⟩ =>
        show 0 ≤ (rowScatterDims N D E wf).start (ix2 e k) idx 0 + (rowScatterDims N D E wf).window (ix2 e k) 0
          ∧ (rowScatterDims N D E wf).start (ix2 e k) idx 0 + (rowScatterDims N D E wf).window (ix2 e k) 0 < (N : ℤ)
        rw [hs0, hw0, hn]
        have := n.isLt
        omega
      | ⟨1, _⟩ =>
        show 0 ≤ (rowScatterDims N D E wf).start (ix2 e k) idx 1 + (rowScatterDims N D E wf).window (ix2 e k) 1
          ∧ (rowScatterDims N D E wf).start (ix2 e k) idx 1 + (rowScatterDims N D E wf).window (ix2 e k) 1 < (D : ℤ)
        rw [hs1, hw1]
        have := k.isLt
        omega
    unfold ScatterDims.resultIdx?
    rw [dif_pos hall]
    congr 1
    funext a
    refine Fin.ext ?_
    match a with
    | ⟨0, _⟩ =>
      show ((rowScatterDims N D E wf).start (ix2 e k) idx 0 + (rowScatterDims N D E wf).window (ix2 e k) 0).toNat = n.val
      rw [hs0, hw0, hn]
      omega
    | ⟨1, _⟩ =>
      show ((rowScatterDims N D E wf).start (ix2 e k) idx 1 + (rowScatterDims N D E wf).window (ix2 e k) 1).toNat = k.val
      rw [hs1, hw1]
      omega

/-- THE SCATTER-ADD READ AT (n, k): the array's entry plus the sum, over the update rows whose index word reads n,
    of the update's entry in column k. -/
theorem scatterAdd_row_apply {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w)
    (upd : FVec Ideal ⟨2, ![E, D]⟩ φ) (n : Fin N) (k : Fin D) :
    Host.scatterAdd (rowScatterDims N D E wf) x idx upd (ix2 n k)
      = x (ix2 n k) + ∑ e ∈ Finset.univ.filter (fun e : Fin E => (idx (ix2 e (0 : Fin 1))).toInt = (n.val : ℤ)),
          upd (ix2 e k) := by
  show x (ix2 n k) + ∑ j ∈ Finset.univ.filter
      (fun j => (rowScatterDims N D E wf).resultIdx? j idx = some (ix2 n k)), upd j = _
  congr 1
  symm
  refine Finset.sum_bij (fun e _ => (ix2 e k : (⟨2, ![E, D]⟩ : Shape).Idx)) ?_ ?_ ?_ ?_
  · intro e he
    rw [Finset.mem_filter] at he ⊢
    exact ⟨Finset.mem_univ _, (rowScatter_resultIdx_iff wf idx e k n k).mpr ⟨he.2, rfl⟩⟩
  · intro e₁ _ e₂ _ h
    have := congrFun h 0
    exact this
  · intro j hj
    rw [Finset.mem_filter] at hj
    have hj2 := hj.2
    rw [eq_ix2 j] at hj2
    have := (rowScatter_resultIdx_iff wf idx (j 0) (j 1) n k).mp hj2
    refine ⟨j 0, Finset.mem_filter.mpr ⟨Finset.mem_univ _, this.1⟩, ?_⟩
    · rw [← this.2]
      exact (eq_ix2 j).symm
  · intro e _
    rfl

end Cert.LibSegmentSum

end
-- ==== Proof.KAgg.lean ====
/-
  One aggregation step of the network, read at a node and a feature column.

  The host program, between two launches, slices the padded array of edge messages back to its 3200000 rows, adds
  every row into the row of an array of zeros that the edge's destination word names (a word that is already a node
  number passes the wrap-around of negative positions unchanged), and adds the node's own row scaled by the node's
  own weight. Read at node n and column j this is: zero plus the sum, over the edges whose destination word reads n,
  of the message's column j, plus the node's weight times its own entry.
-/
import proofs.«401563_j56057913147714_2_alg».proof.Proof.Gen.KernelIdeal.Launch
import proofs.«401563_j56057913147714_2_alg».proof.Proof.Spec
import proofs.«401563_j56057913147714_2_alg».proof.Proof.LibSegmentSum
import proofs.«401563_j56057913147714_2_alg».proof.Proof.LibColumn
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.KAgg

open Idealize.ShloMosaic Idealize.ShloMosaic.TcCoe Idealize.ShloMosaic.ValueIdx Idealize.ShloMosaic.StableHlo
open Cert.KernelIdeal Cert.KernelIdeal.Gen
open scoped BigOperators

/-! ## Layout operations read at an entry -/

section Layout

variable {α : Type}

/-- A scalar spread over any shape reads the scalar everywhere. -/
theorem bcast_scalar_apply {t : Shape} (h : (⟨0, ![]⟩ : Shape).BroadcastsInDim t (![] : Fin 0 → Fin t.rank))
    (x : (⟨0, ![]⟩ : Shape).Idx → α) (i : t.Idx) : broadcastInDim t ![] h x i = x ix0 :=
  broadcastInDim_apply _ h x i ix0 fun a => a.elim0

/-- A column [a, 1] spread along the axes [0, 1] over [a, b] reads, at (p, c), the column's entry in row p. -/
theorem bcast_col_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The first 3200000 rows of an array of 3203072 rows: row e of the slice is row e of the array. -/
theorem sliceRows_apply (x : S3203072x16.Idx → α) (e : Fin 3200000) (k : Fin 16) :
    extractStridedSlice S3200000x16 ![0, 0] x slices_S3203072x16_S3200000x16_0_0 (ix2 e k) = x (ix2 (Cert.Spec.upE e) k) :=
  extractStridedSlice_apply ![0, 0] x slices_S3203072x16_S3200000x16_0_0 (ix2 e k) (ix2 (Cert.Spec.upE e) k) fun a =>
    match a with
    | ⟨0, _⟩ => by show e.val = 0 + e.val; omega
    | ⟨1, _⟩ => by show k.val = 0 + k.val; omega

/-- The column of wrapped destination words reads, at edge e, the word itself when the word is not negative. -/
theorem wrapCol_apply (w : IVec S3200000 32) (e : Fin 3200000) (h : 0 ≤ (w (ix1 e)).toInt) :
    broadcastInDim S3200000x1 ![0] bcast_S3200000_S3200000x1_0
        (select (cmpi .slt w (broadcastInDim S3200000 ![] bcast_S_S3200000 (constantI S_ 32 0#32)))
          (addi w (broadcastInDim S3200000 ![] bcast_S_S3200000 (constantI S_ 32 100000#32))) w) (ix2 e (0 : Fin 1))
      = w (ix1 e) := by
  rw [Cert.LibColumn.broadcastInDim_a_a1_apply]
  exact Cert.RowIndex.wrap_of_nonneg (w (ix1 e)) 100000#32 h

end Layout

/-! ## The scatter-add of the message rows -/

/-- The scatter-add of 3200000 rows into 100000 rows, read at (n, k): the array's entry plus the sum of column k over
    the rows whose index word reads n. -/
theorem scatterRows_apply (x : FVec Ideal S100000x16 .f32) (idx : IVec S3200000x1 32) (upd : FVec Ideal S3200000x16 .f32)
    (n : Fin 100000) (k : Fin 16) :
    Host.scatterAdd scatter_S100000x16_S3200000x1_S3200000x16_1_0_0_1 x idx upd (ix2 n k)
      = x (ix2 n k) + ∑ e ∈ Finset.univ.filter (fun e : Fin 3200000 => (idx (ix2 e (0 : Fin 1))).toInt = (n.val : ℤ)),
          upd (ix2 e k) :=
  Cert.LibSegmentSum.scatterAdd_row_apply scatter_S100000x16_S3200000x1_S3200000x16_1_0_0_1_wf x idx upd n k

/-- THE STEP OVER ABSTRACT OPERANDS: a scatter-add of rows plus a scaled own row, read at (n, j), given what each
    operand reads there. -/
theorem aggCore_apply (x : FVec Ideal S100000x16 .f32) (idx : IVec S3200000x1 32) (upd : FVec Ideal S3200000x16 .f32)
    (bc own : FVec Ideal S100000x16 .f32) (n : Fin 100000) (j : Fin 16) (z s : EReal) (dstv : Fin 3200000 → BitVec 32)
    (row : Fin 3200000 → EReal) (hx : x (ix2 n j) = z) (hidx : ∀ e, idx (ix2 e (0 : Fin 1)) = dstv e)
    (hupd : ∀ e, upd (ix2 e j) = row e) (hbc : bc (ix2 n j) = s) :
    addf (Host.scatterAdd scatter_S100000x16_S3200000x1_S3200000x16_1_0_0_1 x idx upd) (mulf bc own) (ix2 n j)
      = (z + ∑ e ∈ Finset.univ.filter (fun e : Fin 3200000 => (dstv e).toInt = (n.val : ℤ)), row e)
        + s * own (ix2 n j) := by
  -- the edges whose wrapped word reads n are the edges whose own word reads n
  have hf : Finset.univ.filter (fun e : Fin 3200000 => (idx (ix2 e (0 : Fin 1))).toInt = (n.val : ℤ))
      = Finset.univ.filter (fun e : Fin 3200000 => (dstv e).toInt = (n.val : ℤ)) :=
    Finset.filter_congr fun e _ => by rw [hidx e]
  show Host.scatterAdd scatter_S100000x16_S3200000x1_S3200000x16_1_0_0_1 x idx upd (ix2 n j) + bc (ix2 n j) * own (ix2 n j) = _
  rw [scatterRows_apply, hx, hbc, hf, Finset.sum_congr rfl fun e _ => hupd e]

/-- THE STEP AS A TERM over the destination words w, the padded messages, the nodes' own weights and own rows, read at
    node n and column j. -/
theorem aggTerm_apply (w : IVec S3200000 32) (msgs : FVec Ideal S3203072x16 .f32) (sc : FVec Ideal S100000 .f32)
    (own : FVec Ideal S100000x16 .f32) (dstv : Fin 3200000 → BitVec 32) (hd : ∀ e, w (ix1 e) = dstv e)
    (hr : ∀ e, 0 ≤ (dstv e).toInt ∧ (dstv e).toInt < 100000) (n : Fin 100000) (j : Fin 16) :
    addf (Host.scatterAdd scatter_S100000x16_S3200000x1_S3200000x16_1_0_0_1
            (broadcastInDim S100000x16 ![] bcast_S_S100000x16 (constant (F := Ideal) S_ .f32 0x00000000#32))
            (broadcastInDim S3200000x1 ![0] bcast_S3200000_S3200000x1_0
              (select (cmpi .slt w (broadcastInDim S3200000 ![] bcast_S_S3200000 (constantI S_ 32 0#32)))
                (addi w (broadcastInDim S3200000 ![] bcast_S_S3200000 (constantI S_ 32 100000#32))) w))
            (extractStridedSlice S3200000x16 ![0, 0] msgs slices_S3203072x16_S3200000x16_0_0))
        (mulf (broadcastInDim S100000x16 ![0, 1] bcast_S100000x1_S100000x16_0_1
            (broadcastInDim S100000x1 ![0] bcast_S100000_S100000x1_0 sc)) own) (ix2 n j)
      = (Cert.Spec.zero + ∑ e ∈ Finset.univ.filter (fun e : Fin 3200000 => (dstv e).toInt = (n.val : ℤ)),
            msgs (ix2 (Cert.Spec.upE e) j))
        + sc (ix1 n) * own (ix2 n j) :=
  aggCore_apply _ _ _ _ own n j _ _ dstv _ rfl
    (fun e => (wrapCol_apply w e (by rw [hd]; exact (hr e).1)).trans (hd e))
    (fun e => sliceRows_apply msgs e j)
    ((bcast_col_apply _ _ n j).trans (Cert.LibColumn.broadcastInDim_a_a1_apply sc _ n 0))

/-! ## The stretch of the program -/

-- the buffers' contents when the stretch is entered: any contents
variable (V : Valuation τ sig (Elt Ideal))

set_option maxHeartbeats 1000000 in
/-- THE FIRST LAYER'S AGGREGATION: what the stretch leaves in its result buffer, at node n and column j. -/
theorem agg1 (dstv : Fin 3200000 → BitVec 32)
    (hd : ∀ e, (V (Proc.devRef .tc main_v3) : S3200000.Idx → BitVec 32) (ix1 e) = dstv e)
    (hr : ∀ e, 0 ≤ (dstv e).toInt ∧ (dstv e).toInt < 100000)
    (msgs : S3203072x16.Idx → EReal) (hm : (V (Proc.devRef .tc main_v41) : S3203072x16.Idx → EReal) = msgs)
    (sc : S100000.Idx → EReal) (hs : (V (Proc.devRef .tc main_v28) : S100000.Idx → EReal) = sc)
    (own : S100000x16.Idx → EReal) (ho : (V (Proc.devRef .tc main_v34) : S100000x16.Idx → EReal) = own)
    (n : Fin 100000) (j : Fin 16) :
    (StableHlo.after (hostOps2 (F := Ideal)) V (Proc.devRef .tc main_v54) : S100000x16.Idx → EReal) (ix2 n j)
      = (Cert.Spec.zero + ∑ e ∈ Finset.univ.filter (fun e : Fin 3200000 => (dstv e).toInt = (n.val : ℤ)),
            msgs (ix2 (Cert.Spec.upE e) j))
        + sc (ix1 n) * own (ix2 n j) := by
  subst hm hs ho
  dsimp only [hostOps2]
  after_results_simp
  exact aggTerm_apply (V (Proc.devRef .tc main_v3)) (V (Proc.devRef .tc main_v41)) (V (Proc.devRef .tc main_v28))
    (V (Proc.devRef .tc main_v34)) dstv hd hr n j

end Cert.KernelIdeal.KAgg

end
-- ==== Proof.LibPlainMatmul.lean ====
/-
  A plain matrix product read at one entry, on the extended reals.

  For the dimension numbers of an M×K by K×N product (left operand contracted on its second axis, right
  operand on its first, no batch axes), a `tpu.matmul` into the zero accumulator has at entry (a, b) the value
  ∑ₖ l(a, k) · r(k, b): the contraction index has one axis of extent K, so the sum over it is the sum over
  k : Fin K, and the two operand indices at (a, b) and k are (a, k) and (k, b).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

variable {φ₁ φ₂ : FTy}

/-- The left operand's index at output (a, b) and contraction coordinate k is (a, k). -/
theorem lhsIdx_plain (M K N : Nat) (a : Fin M) (b : Fin N) (k : Fin K) :
    (DotDims.plain M K N).lhsIdx (ix2 a b) ((contrEquiv1 (DotDims.plain M K N) K rfl rfl).symm k) = ix2 a k := by
  have hk := contrEquiv1_symm_val (DotDims.plain M K N) K rfl rfl k
  funext d
  refine Fin.ext ?_
  match d with
  | ⟨0, _⟩ =>
    show ((DotDims.plain M K N).lhsIdx (ix2 a b) _ (0 : Fin 2)).val = a.val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ =>
    exact ((DotDims.plain M K N).lhsIdx_val_of_single (cl := (1 : Fin 2)) rfl (ix2 a b) _).trans hk

/-- The right operand's index at output (a, b) and contraction coordinate k is (k, b). -/
theorem rhsIdx_plain (M K N : Nat) (a : Fin M) (b : Fin N) (k : Fin K) :
    (DotDims.plain M K N).rhsIdx (ix2 a b) ((contrEquiv1 (DotDims.plain M K N) K rfl rfl).symm k) = ix2 k b := by
  have hk := contrEquiv1_symm_val (DotDims.plain M K N) K rfl rfl k
  funext d
  refine Fin.ext ?_
  match d with
  | ⟨0, _⟩ =>
    exact ((DotDims.plain M K N).rhsIdx_val_of_single (cr := (0 : Fin 2)) rfl (ix2 a b) _).trans hk
  | ⟨1, _⟩ =>
    show ((DotDims.plain M K N).rhsIdx (ix2 a b) _ (1 : Fin 2)).val = b.val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- ENTRY (a, b) OF A PLAIN PRODUCT into the zero accumulator: ∑ₖ l(a, k) · r(k, b). -/
theorem matmul_zero_apply (M K N : Nat) (prec : Option ContractPrecision)
    (l : FVec Ideal ⟨2, ![M, K]⟩ φ₁) (r : FVec Ideal ⟨2, ![K, N]⟩ φ₂) (a : Fin M) (b : Fin N) :
    matmul (DotDims.plain M K N) prec l r (constant (F := Ideal) ⟨2, ![M, N]⟩ .f32 0x00000000#32) (ix2 a b)
      = ∑ k : Fin K, l (ix2 a k) * r (ix2 k b) := by
  simp only [matmul]
  rw [Ideal.matmul_constant_zero_apply, ← Equiv.sum_comp (contrEquiv1 (DotDims.plain M K N) K rfl rfl).symm]
  refine Finset.sum_congr rfl fun k _ => ?_
  rw [lhsIdx_plain, rhsIdx_plain]

end Cert.LibPlainMatmul

end
-- ==== Proof.KTail.lean ====
import proofs.«401563_j56057913147714_2_alg».proof.Proof.Gen.KernelIdeal.Launch
import proofs.«401563_j56057913147714_2_alg».proof.Proof.Spec
import proofs.«401563_j56057913147714_2_alg».proof.Proof.LibSegmentSum
import proofs.«401563_j56057913147714_2_alg».proof.Proof.LibSegmentCount
import proofs.«401563_j56057913147714_2_alg».proof.Proof.LibColumn
import proofs.«401563_j56057913147714_2_alg».proof.Proof.LibPlainMatmul
import Idealize.ShloMosaic.Lib.StableHlo.Run
import Idealize.ShloMosaic.Lib.ValueIdx
import Idealize.ShloMosaic.Lib.Pipeline.Value
import Idealize.ShloMosaic.PureOps.Ideal.Laws

/-
  The last stretch of the host program, read at one entry of the result.

  The stretch takes the second layer's message rows, adds up the rows that arrive at each node (a scatter-add by the
  destination words, whose wrap-around of negative words does nothing to a word that is a node number), adds the
  node's own row scaled, and rectifies. It then counts the nodes of each group and adds up their rows (two more
  scatter-adds, by the group labels), divides each group's sum by the larger of its count and one, multiplies by
  the output weights and adds the bias. Read at group g and output column o this is the specification's affine head
  of the group means of the rectified rows.
-/

set_option maxRecDepth 16384

noncomputable section

namespace Cert.KernelIdeal.KTail

open Idealize.ShloMosaic Idealize.ShloMosaic.TcCoe Idealize.ShloMosaic.ValueIdx Idealize.ShloMosaic.StableHlo
open Cert.KernelIdeal Cert.KernelIdeal.Gen Cert.LibRowGather Cert.RowIndex
open scoped BigOperators

section Readings

variable {α : Type}

/-- A vector [a] laid as a column [a, 1] and spread over the b entries of each row reads, at (p, c), entry p. -/
theorem col_spread_apply {a b : ℕ} (x : (⟨1, ![a]⟩ : Shape).Idx → α)
    (h₁ : (⟨1, ![a]⟩ : Shape).BroadcastsInDim ⟨2, ![a, 1]⟩ (![0] : Fin 1 → Fin 2))
    (h₂ : (⟨2, ![a, 1]⟩ : Shape).BroadcastsInDim ⟨2, ![a, b]⟩ (![0, 1] : Fin 2 → Fin 2)) (p : Fin a) (c : Fin b) :
    broadcastInDim ⟨2, ![a, b]⟩ ![0, 1] h₂ (broadcastInDim ⟨2, ![a, 1]⟩ ![0] h₁ x) (ix2 p c) = x (ix1 p) := by
  refine (broadcastInDim_apply _ h₂ _ (ix2 p c) (ix2 p (0 : Fin 1)) fun ax => ?_).trans
    (Cert.LibColumn.broadcastInDim_a_a1_apply x h₁ p 0)
  match ax with
  | ⟨0, _⟩ =>
    show p.val = if a = 1 then 0 else p.val
    split
    · have := p.isLt; omega
    · rfl
  | ⟨1, _⟩ => rfl

/-- A vector [b] laid as a row [1, b] and repeated down the a rows reads, at (p, c), entry c. -/
theorem row_spread_apply {a b : ℕ} (x : (⟨1, ![b]⟩ : Shape).Idx → α)
    (h₁ : (⟨1, ![b]⟩ : Shape).BroadcastsInDim ⟨2, ![1, b]⟩ (![1] : Fin 1 → Fin 2))
    (h₂ : (⟨2, ![1, b]⟩ : Shape).BroadcastsInDim ⟨2, ![a, b]⟩ (![0, 1] : Fin 2 → Fin 2)) (p : Fin a) (c : Fin b) :
    broadcastInDim ⟨2, ![a, b]⟩ ![0, 1] h₂ (broadcastInDim ⟨2, ![1, b]⟩ ![1] h₁ x) (ix2 p c) = x (ix1 c) := by
  refine (broadcastInDim_apply _ h₂ _ (ix2 p c) (ix2 (0 : Fin 1) c) fun ax => ?_).trans
    (broadcastInDim_apply _ h₁ x (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

/-- A scatter-add of rows whose index column is a vector of words laid as a column, the words known by name
    (ids e = idv e): at (n, k) the array's entry plus the sum of column k over the rows whose word reads n. -/
theorem scatter_rows_by_vec {N D E w : Nat} {φ : FTy}
    (wf : ScatterDims.WF ⟨2, ![N, D]⟩ ⟨2, ![E, 1]⟩ ⟨2, ![E, D]⟩ [1] [0] [0] 1)
    (x : FVec Ideal ⟨2, ![N, D]⟩ φ) (ids : IVec ⟨1, ![E]⟩ w) (idv : Fin E → BitVec w) (hid : ∀ e, ids (ix1 e) = idv e)
    (h₁ : (⟨1, ![E]⟩ : Shape).BroadcastsInDim ⟨2, ![E, 1]⟩ (![0] : Fin 1 → Fin 2))
    (upd : FVec Ideal ⟨2, ![E, D]⟩ φ) (n : Fin N) (k : Fin D) :
    Host.scatterAdd (rowScatterDims N D E wf) x (broadcastInDim ⟨2, ![E, 1]⟩ ![0] h₁ ids) upd (ix2 n k)
      = x (ix2 n k) + ∑ e ∈ Finset.univ.filter (fun e : Fin E => (idv e).toInt = (n.val : ℤ)), upd (ix2 e k) := by
  have hcol : ∀ e : Fin E, broadcastInDim ⟨2, ![E, 1]⟩ ![0] h₁ ids (ix2 e (0 : Fin 1)) = idv e :=
    fun e => (Cert.LibColumn.broadcastInDim_a_a1_apply ids h₁ e 0).trans (hid e)
  rw [Cert.LibSegmentSum.scatterAdd_row_apply]
  simp only [hcol]

/-- The same for a scatter-add of scalars into a vector. -/
theorem scatter_vec_by_vec {N E w : Nat} {φ : FTy}
    (wf : ScatterDims.WF ⟨1, ![N]⟩ ⟨2, ![E, 1]⟩ ⟨1, ![E]⟩ [] [0] [0] 1)
    (x : FVec Ideal ⟨1, ![N]⟩ φ) (ids : IVec ⟨1, ![E]⟩ w) (idv : Fin E → BitVec w) (hid : ∀ e, ids (ix1 e) = idv e)
    (h₁ : (⟨1, ![E]⟩ : Shape).BroadcastsInDim ⟨2, ![E, 1]⟩ (![0] : Fin 1 → Fin 2))
    (upd : FVec Ideal ⟨1, ![E]⟩ φ) (n : Fin N) :
    Host.scatterAdd (Cert.LibSegmentCount.vecScatterDims N E wf) x (broadcastInDim ⟨2, ![E, 1]⟩ ![0] h₁ ids) upd (ix1 n)
      = x (ix1 n) + ∑ e ∈ Finset.univ.filter (fun e : Fin E => (idv e).toInt = (n.val : ℤ)), upd (ix1 e) := by
  have hcol : ∀ e : Fin E, broadcastInDim ⟨2, ![E, 1]⟩ ![0] h₁ ids (ix2 e (0 : Fin 1)) = idv e :=
    fun e => (Cert.LibColumn.broadcastInDim_a_a1_apply ids h₁ e 0).trans (hid e)
  rw [Cert.LibSegmentCount.scatterAdd_vec_apply]
  simp only [hcol]

/-- Entry (a, b) of an M×K by K×N product: ∑ₖ l(a, k) · r(k, b). -/
theorem dot_plain_apply {M K N : Nat} {φ₁ φ₂ : FTy} (prec : Option ContractPrecision)
    (l : FVec Ideal ⟨2, ![M, K]⟩ φ₁) (r : FVec Ideal ⟨2, ![K, N]⟩ φ₂) (a : Fin M) (b : Fin N) :
    Host.dotGeneral (DotDims.plain M K N) prec l r (ix2 a b) = ∑ k : Fin K, l (ix2 a k) * r (ix2 k b) := by
  show FloatOps.dotGeneral (DotDims.plain M K N) prec .single l r (ix2 a b) = _
  rw [Ideal.dotGeneral_apply, ← Equiv.sum_comp (contrEquiv1 (DotDims.plain M K N) K rfl rfl).symm]
  refine Finset.sum_congr rfl fun k _ => ?_
  rw [Cert.LibPlainMatmul.lhsIdx_plain, Cert.LibPlainMatmul.rhsIdx_plain]

/-- A splat of a float constant reads the constant everywhere. -/
theorem splat_apply {t : Shape} (h : (⟨0, ![]⟩ : Shape).BroadcastsInDim t ![]) (b : BitVec FTy.f32.bits) (j : t.Idx) :
    broadcastInDim t ![] h (constant (F := Ideal) ⟨0, ![]⟩ .f32 b) j = Ideal.ofBits .f32 b := rfl

/-- The host's quotient at an index is the quotient of the elements. -/
theorem hostDivf_apply {s : Shape} {φ : FTy} (a b : FVec Ideal s φ) (i : s.Idx) :
    Host.divf a b i = Ideal.div (a i) (b i) := rfl

/-- The first rows cut out of an array (offsets 0 on both axes): entry (n, k) of the cut is entry (n, k) of the array. -/
theorem slice_rows_apply {N M D : Nat} (x : (⟨2, ![M, D]⟩ : Shape).Idx → α)
    (h : (⟨2, ![M, D]⟩ : Shape).Slices ![0, 0] ⟨2, ![N, D]⟩) (hNM : N ≤ M) (n : Fin N) (k : Fin D) :
    extractStridedSlice ⟨2, ![N, D]⟩ ![0, 0] x h (ix2 n k) = x (ix2 (Fin.castLE hNM n) k) := by
  refine extractStridedSlice_apply _ x h _ (ix2 (Fin.castLE hNM n) k) fun a => ?_
  match a with
  | ⟨0, _⟩ => show n.val = 0 + n.val; omega
  | ⟨1, _⟩ => show k.val = 0 + k.val; omega

end Readings

-- the buffers' contents when the stretch is entered: any contents
variable (V : Valuation τ sig (Elt Ideal))

set_option maxHeartbeats 2000000 in
/-- THE LAST STRETCH READ AT (g, o): the affine head of the group means of the rectified second-layer rows, the rows
    written from the message array, the nodes' own scales and own rows as the stretch finds them. -/
theorem tail (dstv : Fin 3200000 → BitVec 32)
    (hd : ∀ e, (V (Proc.devRef .tc main_v3) : S3200000.Idx → BitVec 32) (ix1 e) = dstv e)
    (hr : ∀ e, 0 ≤ (dstv e).toInt ∧ (dstv e).toInt < 100000)
    (msgs : S3203072x16.Idx → EReal) (hm : (V (Proc.devRef .tc main_v64) : S3203072x16.Idx → EReal) = msgs)
    (sc : S100000.Idx → EReal) (hs : (V (Proc.devRef .tc main_v28) : S100000.Idx → EReal) = sc)
    (own : S100000x16.Idx → EReal) (ho : (V (Proc.devRef .tc main_v57) : S100000x16.Idx → EReal) = own)
    (bi : S100000.Idx → BitVec 32) (hb : (V (Proc.devRef .tc main_arg3) : S100000.Idx → BitVec 32) = bi)
    (nW : S16x8.Idx → EReal) (h8 : (V (Proc.devRef .tc main_arg8) : S16x8.Idx → EReal) = nW)
    (nb : S8.Idx → EReal) (h9 : (V (Proc.devRef .tc main_arg9) : S8.Idx → EReal) = nb) (g : Fin 64) (o : Fin 8) :
    (StableHlo.after (hostOps4 (F := Ideal)) V (Proc.devRef .tc main_v95) : S64x8.Idx → EReal) (ix2 g o)
      = Cert.Spec.head bi (fun n j => max ((Cert.Spec.zero + ∑ e ∈ Finset.univ.filter (fun e : Fin 3200000 => (dstv e).toInt = (n.val : ℤ)),
            msgs (ix2 (Cert.Spec.upE e) j)) + sc (ix1 n) * own (ix2 n j)) Cert.Spec.zero) nW nb g o := by
  dsimp only [hostOps4]
  after_results_simp
  rw [hb, h8, h9, hm, hs, ho,
    show scatter_S100000x16_S3200000x1_S3200000x16_1_0_0_1 = rowScatterDims 100000 16 3200000 _ from rfl,
    show scatter_S64x16_S100000x1_S100000x16_1_0_0_1 = rowScatterDims 64 16 100000 _ from rfl,
    show scatter_S64_S100000x1_S100000_n_0_0_1 = Cert.LibSegmentCount.vecScatterDims 64 100000 _ from rfl,
    show dot_S64x16_S16x8_S64x8_1_0_0_1_n_n = DotDims.plain 64 16 8 from rfl]
  unfold Cert.Spec.head Cert.Spec.pooled Cert.Spec.grp Cert.Spec.zero Cert.Spec.one
  -- the bias row, and the product with the output weights as a sum over the 16 columns
  rw [addf_apply, row_spread_apply, dot_plain_apply]
  refine congrArg (· + nb (ix1 o)) ?_
  refine Finset.sum_congr rfl fun k _ => ?_
  refine congrArg (· * nW (ix2 k o)) ?_
  -- the quotient of the group's sum by the larger of its count and one
  rw [hostDivf_apply]
  refine congrArg₂ Ideal.div ?_ ?_
  · -- the group's sum of the rectified rows
    rw [scatter_rows_by_vec _ _ bi (fun n => bi (ix1 n)) (fun _ => rfl), splat_apply]
    refine congrArg (Ideal.ofBits .f32 0x00000000#32 + ·) ?_
    refine Finset.sum_congr rfl fun n _ => ?_
    show _ = max _ _
    -- one rectified row entry: the rows that arrive at node n, plus the node's own row scaled
    rw [maximumf_apply, splat_apply, addf_apply, mulf_apply, col_spread_apply,
      scatter_rows_by_vec (idv := dstv), splat_apply]
    · refine congrArg (fun t => max (Ideal.ofBits .f32 0x00000000#32 + t + sc (ix1 n) * own (ix2 n k))
        (Ideal.ofBits .f32 0x00000000#32)) ?_
      refine Finset.sum_congr rfl fun e _ => ?_
      exact slice_rows_apply msgs _ _ e k
    · intro e
      show Scalar.select (IntOp.cmpi .slt ((V (Proc.devRef .tc main_v3) : S3200000.Idx → BitVec 32) (ix1 e)) 0#32)
        (IntOp.addi ((V (Proc.devRef .tc main_v3) : S3200000.Idx → BitVec 32) (ix1 e)) 100000#32)
        ((V (Proc.devRef .tc main_v3) : S3200000.Idx → BitVec 32) (ix1 e)) = dstv e
      rw [hd]
      exact wrap_of_nonneg _ _ (hr e).1
  · -- the larger of the group's count and one
    rw [col_spread_apply, maximumf_apply, splat_apply,
      scatter_vec_by_vec _ _ bi (fun n => bi (ix1 n)) (fun _ => rfl), splat_apply]
    refine congrArg (fun t => max (Ideal.ofBits .f32 0x00000000#32 + t) (Ideal.ofBits .f32 0x3F800000#32)) ?_
    exact Finset.sum_congr rfl fun _ _ => rfl

end Cert.KernelIdeal.KTail

end
-- ==== Proof.Region0.lean ====
/-
  The node-wise linear map, region 0: what its three arrays hold when the region ends.

  The region runs over 13 grid points; point t stages rows 8192·t … 8192·t + 8191 of the 106496 × 128 feature
  array, the whole 128 × 16 weight matrix, and writes back rows 8192·t … 8192·t + 8191 of the 106496 × 16 result.
  The body multiplies the staged feature block by the weight matrix into a zero accumulator (the format changes
  before the product are the identity on the extended reals). Since 106496 = 13 · 8192 the thirteen row blocks
  tile the result, so entry (p, j) of the result ends as ∑ₖ x(p, k) · W(k, j): the row p lies in the block of
  the point p / 8192, and that block's entry is the product's entry there.
-/
import proofs.«401563_j56057913147714_2_alg».proof.Proof.Gen.KernelIdeal.Frame
import Idealize.ShloMosaic.Lib.Pipeline.Value
import Idealize.ShloMosaic.Lib.ValueIdx
import Idealize.ShloMosaic.PureOps.Ideal.Laws
import proofs.«401563_j56057913147714_2_alg».proof.Proof.LibPlainMatmul

-- the long axis has 106496 rows, and a comparison of coordinates on it recurses once per row block offset
set_option maxRecDepth 16384

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The product, entry by entry -/

/-- Entry (p, j) of the product of a 106496 × 128 array with a 128 × 16 matrix. -/
def rowDot (x : S106496x128.Idx → EReal) (w : S128x16.Idx → EReal) (p : Fin 106496) (j : Fin 16) : EReal :=
  ∑ k : Fin 128, x (ix2 p k) * w (ix2 k j)

/-- The product as one array. -/
def prod (x : S106496x128.Idx → EReal) (w : S128x16.Idx → EReal) : S106496x16.Idx → EReal :=
  fun i => rowDot x w ⟨(i 0).val, idx2_lt0 i⟩ ⟨(i 1).val, idx2_lt1 i⟩

/-! ## The body at an entry of its block -/

/-- The body's stored value at entry (a, b) of the staged block: the staged rows times the staged matrix. -/
theorem pay_apply (x0 : Vec Ideal S8192x128 .f32) (x1 : Vec Ideal S128x16 .f32) (a : Fin 8192) (b : Fin 16) :
    k0_pay1 x0 x1 (ix2 a b)
      = ∑ k : Fin 128, (x0 : S8192x128.Idx → EReal) (ix2 a k) * (x1 : S128x16.Idx → EReal) (ix2 k b) := by
  unfold k0_pay1
  simp only [shapeCast_self]
  exact Cert.LibPlainMatmul.matmul_zero_apply 8192 128 16 none
    (truncf .bf16 x0 bitsLt_bf16_f32) (truncf .bf16 x1 bitsLt_bf16_f32) a b

/-! ## The blocks the points stage -/

theorem hz : (![0, 0] : Fin 2 → Nat) = fun _ => 0 := funext fun a => by fin_cases a <;> rfl

/-- The block indices over the grid: the feature and result windows move down one row block per point, the weight
    window stays. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The staged feature block at point t is rows 8192·t … of the feature array. -/
theorem iblk_x_apply (c : Dev nD) (t : Fin cfg0.N) (y : S8192x128.Idx) (i : S106496x128.Idx)
    (h0 : (i 0).val = t.val * 8192 + (y 0).val) (h1 : (i 1).val = (y 1).val) :
    (iblk0 V c 0 t : S8192x128.Idx → EReal) y = (V c main_v32 : S106496x128.Idx → EReal) i := by
  obtain ⟨e0, e1, -, -, -, -⟩ := idx_facts t
  show (V c main_v32 : S106496x128.Idx → EReal) (((cfg0.win 0).blk t).view.emb y) = _
  congr 1
  funext a; apply Fin.ext
  match a with
  | ⟨0, _⟩ => show win0_0.index t (0 : Fin 2) * 8192 + 1 * (y 0).val = (i 0).val; omega
  | ⟨1, _⟩ => show win0_0.index t (1 : Fin 2) * 128 + 1 * (y 1).val = (i 1).val; omega

/-- The staged weight block at every point is the whole weight matrix. -/
theorem iblk_w_apply (c : Dev nD) (t : Fin cfg0.N) (y : S128x16.Idx) :
    (iblk0 V c 1 t : S128x16.Idx → EReal) y = (V c main_arg4 : S128x16.Idx → EReal) y := by
  obtain ⟨-, -, e2, e3, -, -⟩ := idx_facts t
  show (V c main_arg4 : S128x16.Idx → EReal) (((cfg0.win 1).blk t).view.emb y) = _
  congr 1
  funext a; apply Fin.ext
  match a with
  | ⟨0, _⟩ => show win0_1.index t (0 : Fin 2) * 128 + 1 * (y 0).val = (y 0).val; omega
  | ⟨1, _⟩ => show win0_1.index t (1 : Fin 2) * 16 + 1 * (y 1).val = (y 1).val; omega

/-! ## What a point writes back, and the array after the last point -/

/-- Point t writes back block t of the product of the arrays as the region finds them. -/
theorem flushed_eq (c : Dev nD) (t : Fin cfg0.N) :
    (dat0 V c).flushed 2 t
      = ((cfg0.win 2).blk t).view.read (Elt Ideal) (prod (V c main_v32) (V c main_arg4)) := by
  show (cfg0.win 2).cut (grid0.coords t) ((dat0 V c).after 2 t) = _
  rw [after0_2]
  unfold out0_2
  rw [View.canon_unit_zero hz]
  simp only [View.ld_unit_zero (S := S8192x128) hz, View.ld_unit_zero (S := S128x16) hz]
  obtain ⟨-, -, -, -, e4, e5⟩ := idx_facts t
  funext y
  obtain ⟨a, b, rfl⟩ : ∃ (a : Fin 8192) (b : Fin 16), y = ix2 a b := ⟨y 0, y 1, eq_ix2 y⟩
  have hi0 : ((((cfg0.win 2).blk t).view.emb (ix2 a b) : S106496x16.Idx) 0).val = t.val * 8192 + a.val := by
    show win0_2.index t (0 : Fin 2) * 8192 + 1 * a.val = _; omega
  have hi1 : ((((cfg0.win 2).blk t).view.emb (ix2 a b) : S106496x16.Idx) 1).val = b.val := by
    show win0_2.index t (1 : Fin 2) * 16 + 1 * b.val = _; omega
  show k0_pay1 (iblk0 V c 0 t) (iblk0 V c 1 t) (ix2 a b)
    = prod (V c main_v32) (V c main_arg4) (((cfg0.win 2).blk t).view.emb (ix2 a b))
  refine (pay_apply _ _ a b).trans ?_
  unfold prod rowDot
  refine Finset.sum_congr rfl fun k _ => ?_
  rw [iblk_w_apply V c t (ix2 k b)]
  refine congrArg₂ (· * ·) (iblk_x_apply V c t (ix2 a k) _ ?_ ?_) (congrArg _ ?_)
  · exact hi0
  · rfl
  · funext d; apply Fin.ext
    match d with
    | ⟨0, _⟩ => rfl
    | ⟨1, _⟩ => exact hi1.symm

/-- An index of the result is in point t's block iff each coordinate is in the block's range on its axis. -/
theorem mem_blk (t : Fin cfg0.N) (i : S106496x16.Idx) :
    i ∈ ((cfg0.win 2).blk t).view.set
      ↔ ∀ a : Fin 2, win0_2.index t a * S8192x16.size a ≤ (i a).val
          ∧ (i a).val < win0_2.index t a * S8192x16.size a + S8192x16.size a := by
  show i ∈ ((View.whole main_v33).slice (win0_2.rect t)).set ↔ _
  rw [View.set_slice_whole, Rect.mem_set_unit]
  exact Iff.rfl

/-- Every index of the result lies in some point's block: row r in the block of point r / 8192. -/
theorem cover (i : S106496x16.Idx) :
    ∃ t : Fin cfg0.N, (cfg0.win 2).flush t = true ∧ i ∈ ((cfg0.win 2).blk t).view.set := by
  have hi0 : (i 0).val < 106496 := idx2_lt0 i
  have hi1 : (i 1).val < 16 := idx2_lt1 i
  have hN : cfg0.N = 13 := N_0
  let t : Fin cfg0.N := ⟨(i 0).val / 8192, by rw [hN]; omega⟩
  obtain ⟨-, -, -, -, e4, e5⟩ := idx_facts t
  have ht : t.val = (i 0).val / 8192 := rfl
  refine ⟨t, flush0_2 t, ?_⟩
  rw [mem_blk]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 16 ≤ (i 1).val ∧ (i 1).val < win0_2.index t (1 : Fin 2) * 16 + 16
    omega

/-- The result array after the region: the product of the feature array and the weight matrix as the region
    finds them. -/
theorem final (c : Dev nD) :
    (dat0 V c).arrAt 2 cfg0.N = prod (V c main_v32) (V c main_arg4) :=
  (dat0 V c).arrAt_eq_of_cover 2 (prod (V c main_v32) (V c main_arg4)) (fun t _ => flushed_eq V c t) cover

/-- ENTRY (p, j) OF THE RESULT when the region ends: ∑ₖ x(p, k) · W(k, j) of the region's entry contents. -/
theorem arr_out (c : Dev nD) (p : Fin 106496) (j : Fin 16) :
    ((dat0 (F := Ideal) V c).arrAt 2 cfg0.N : S106496x16.Idx → EReal) (ix2 p j)
      = ∑ k : Fin 128, HMul.hMul (α := EReal) (β := EReal) (γ := EReal)
          ((V c main_v32 : S106496x128.Idx → EReal) (ix2 p k)) ((V c main_arg4 : S128x16.Idx → EReal) (ix2 k j)) := by
  rw [final V c]
  rfl

/-- The same with the two arrays named. -/
theorem arr_out_of (c : Dev nD) (x : S106496x128.Idx → EReal) (w : S128x16.Idx → EReal)
    (hx : (V c main_v32 : S106496x128.Idx → EReal) = x) (hw : (V c main_arg4 : S128x16.Idx → EReal) = w)
    (p : Fin 106496) (j : Fin 16) :
    ((dat0 (F := Ideal) V c).arrAt 2 cfg0.N : S106496x16.Idx → EReal) (ix2 p j)
      = ∑ k : Fin 128, x (ix2 p k) * w (ix2 k j) := by
  subst hx hw
  exact arr_out V c p j

end Cert.KernelIdeal.Region0

end
-- ==== Proof.Region1.lean ====
/-
  The first edge-message kernel, read as one function of what it finds.

  The kernel walks its 3203072-row arrays in 391 blocks of 8192 rows. At a block it multiplies the 8192 × 16 block
  of the first array by the whole 16 × 16 weight (into a zero accumulator) and adds the block of the second array.
  A row of the product depends on that row only, so the blocks are the restrictions of ONE function of the three
  arrays: entry (p, j) of the result is ∑ₖ a(p, k) · w(k, j) + b(p, j). Block t covers rows 8192·t … 8192·t + 8191,
  and 391 · 8192 = 3203072, so row p is covered by the block p / 8192 and the whole array ends holding that function.
-/
import proofs.«401563_j56057913147714_2_alg».proof.Proof.Gen.KernelIdeal.Frame
import Idealize.ShloMosaic.Lib.Pipeline.Value
import Idealize.ShloMosaic.Lib.ValueIdx
import Idealize.ShloMosaic.PureOps.Ideal.Laws
import proofs.«401563_j56057913147714_2_alg».proof.Proof.LibPlainMatmul

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The function the array ends holding -/

/-- Entry (p, j) of the result: row p of the first array against column j of the weight, plus the second array's entry. -/
def entry (a : S3203072x16.Idx → EReal) (w : S16x16.Idx → EReal) (b : S3203072x16.Idx → EReal)
    (p : Fin 3203072) (j : Fin 16) : EReal :=
  (∑ k : Fin 16, a (ix2 p k) * w (ix2 k j)) + b (ix2 p j)

/-- The whole result array. -/
def whole (a : S3203072x16.Idx → EReal) (w : S16x16.Idx → EReal) (b : S3203072x16.Idx → EReal) :
    S3203072x16.Idx → EReal := fun i => entry a w b (i 0) (i 1)

theorem whole_apply (a : S3203072x16.Idx → EReal) (w : S16x16.Idx → EReal) (b : S3203072x16.Idx → EReal)
    (p : Fin 3203072) (j : Fin 16) : whole a w b (ix2 p j) = entry a w b p j := rfl

/-! ## The body's arithmetic at an entry of the block -/

/-- The kernel's dimension numbers are those of a plain product of an 8192 × 16 by a 16 × 16 matrix. -/
theorem dims_plain : dot_S8192x16_S16x16_S8192x16_1_0_0_1_n_n = DotDims.plain 8192 16 16 := rfl

/-- The product into the zero accumulator at entry (r, j). -/
theorem product_apply (l : FVec Ideal S8192x16 .bf16) (w : FVec Ideal S16x16 .bf16) (r : Fin 8192) (j : Fin 16) :
    matmul dot_S8192x16_S16x16_S8192x16_1_0_0_1_n_n none l w (constant (F := Ideal) S8192x16 .f32 0x00000000#32) (ix2 r j)
      = ∑ k : Fin 16, l (ix2 r k) * w (ix2 k j) :=
  (congrArg (fun d => matmul d none l w (constant (F := Ideal) S8192x16 .f32 0x00000000#32) (ix2 r j)) dims_plain).trans
    (Cert.LibPlainMatmul.matmul_zero_apply 8192 16 16 none l w r j)

/-- What the body stores, at entry (r, j) of the block: the changes of float format are the identity on the
    extended reals, the casts to the same shape change nothing. -/
theorem stored_apply (x0 : Vec Ideal S8192x16 .f32) (x2 : Vec Ideal S16x16 .f32) (x1 : Vec Ideal S8192x16 .f32)
    (r : Fin 8192) (j : Fin 16) :
    (k1_pay1 (F := Ideal) x0 x2 x1 : S8192x16.Idx → EReal) (ix2 r j)
      = (∑ k : Fin 16, (x0 : S8192x16.Idx → EReal) (ix2 r k) * (x2 : S16x16.Idx → EReal) (ix2 k j))
        + (x1 : S8192x16.Idx → EReal) (ix2 r j) := by
  unfold k1_pay1
  refine (addf_apply _ _ (ix2 r j)).trans ?_
  refine congrArg₂ (· + ·) ?_ ?_
  · refine (product_apply _ _ r j).trans ?_
    refine Finset.sum_congr rfl fun k _ => ?_
    refine congrArg₂ (· * ·) ?_ ?_
    · exact congrFun (shapeCast_self x0 shapeCasts_S8192x16_S8192x16) (ix2 r k)
    · rfl
  · exact congrFun (shapeCast_self x1 shapeCasts_S8192x16_S8192x16) (ix2 r j)

/-! ## From the body's store to the staging buffer -/

theorem hz : (![0, 0] : Fin 2 → Nat) = fun _ => 0 := funext fun a => by fin_cases a <;> rfl

/-- The one store fills the whole staging buffer, and each load reads a whole buffer. -/
theorem out_eq (x0 x1 : Vec Ideal S8192x16 .f32) (x2 : Vec Ideal S16x16 .f32) :
    out1_3 (F := Ideal) x0 x1 x2 = k1_pay1 (F := Ideal) x0 x2 x1 := by
  unfold out1_3
  rw [View.canon_unit_zero hz]
  simp only [View.ld_unit_zero (S := S8192x16) hz, View.ld_unit_zero (S := S16x16) hz]

/-! ## Where the blocks lie -/

/-- The printed index maps over the 391 points: the three row-blocked windows are at block (t, 0), the weight at (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of block t is row 8192·t + r of the array. -/
def rowOf (t : Fin cfg1.N) (r : Fin 8192) : Fin 3203072 :=
  ⟨t.val * 8192 + r.val, by have ht : t.val < 391 := N_1 ▸ t.isLt; have hr := r.isLt; omega⟩

/-- The first array's block at point t. -/
theorem blk0_apply (c : Dev nD) (t : Fin cfg1.N) (r : Fin 8192) (k : Fin 16) :
    (iblk1 (F := Ideal) V c 0 t : Vec Ideal S8192x16 .f32) (ix2 r k) = (V c main_v39 : S3203072x16.Idx → EReal) (ix2 (rowOf t r) k) := by
  obtain ⟨e0, e1, -⟩ := idx_facts t
  show (V c main_v39 : S3203072x16.Idx → EReal) (((cfg1.win 0).blk t).view.emb (ix2 r k)) = _
  refine congrArg _ ?_
  funext a; apply Fin.ext
  match a with
  | ⟨0, _⟩ => show win1_0.index t (0 : Fin 2) * 8192 + 1 * r.val = t.val * 8192 + r.val; omega
  | ⟨1, _⟩ => show win1_0.index t (1 : Fin 2) * 16 + 1 * k.val = k.val; omega

/-- The second array's block at point t. -/
theorem blk1_apply (c : Dev nD) (t : Fin cfg1.N) (r : Fin 8192) (j : Fin 16) :
    (iblk1 (F := Ideal) V c 1 t : Vec Ideal S8192x16 .f32) (ix2 r j) = (V c main_v40 : S3203072x16.Idx → EReal) (ix2 (rowOf t r) j) := by
  obtain ⟨-, -, e0, e1, -⟩ := idx_facts t
  show (V c main_v40 : S3203072x16.Idx → EReal) (((cfg1.win 1).blk t).view.emb (ix2 r j)) = _
  refine congrArg _ ?_
  funext a; apply Fin.ext
  match a with
  | ⟨0, _⟩ => show win1_1.index t (0 : Fin 2) * 8192 + 1 * r.val = t.val * 8192 + r.val; omega
  | ⟨1, _⟩ => show win1_1.index t (1 : Fin 2) * 16 + 1 * j.val = j.val; omega

/-- The weight's block at every point is the weight. -/
theorem blk2_apply (c : Dev nD) (t : Fin cfg1.N) (k : Fin 16) (j : Fin 16) :
    (iblk1 (F := Ideal) V c 2 t : Vec Ideal S16x16 .f32) (ix2 k j) = (V c main_arg5 : S16x16.Idx → EReal) (ix2 k j) := by
  obtain ⟨-, -, -, -, e0, e1, -⟩ := idx_facts t
  show (V c main_arg5 : S16x16.Idx → EReal) (((cfg1.win 2).blk t).view.emb (ix2 k j)) = _
  refine congrArg _ ?_
  funext a; apply Fin.ext
  match a with
  | ⟨0, _⟩ => show win1_2.index t (0 : Fin 2) * 16 + 1 * k.val = k.val; omega
  | ⟨1, _⟩ => show win1_2.index t (1 : Fin 2) * 16 + 1 * j.val = j.val; omega

/-- Entry (r, j) of the output's block at point t is entry (8192·t + r, j) of the array. -/
theorem blk3_emb (t : Fin cfg1.N) (r : Fin 8192) (j : Fin 16) :
    ((cfg1.win 3).blk t).view.emb (ix2 r j) = (ix2 (rowOf t r) j : S3203072x16.Idx) := by
  obtain ⟨-, -, -, -, -, -, e0, e1⟩ := idx_facts t
  funext a; apply Fin.ext
  match a with
  | ⟨0, _⟩ => show win1_3.index t (0 : Fin 2) * 8192 + 1 * r.val = t.val * 8192 + r.val; omega
  | ⟨1, _⟩ => show win1_3.index t (1 : Fin 2) * 16 + 1 * j.val = j.val; omega

/-! ## What a point writes back -/

/-- WHAT POINT t WRITES BACK is block t of the one function of the arrays the region finds. -/
theorem flushed_eq (c : Dev nD) (t : Fin cfg1.N) :
    (dat1 (F := Ideal) V c).flushed 3 t
      = ((cfg1.win 3).blk t).view.read (Elt Ideal) (whole (V c main_v39) (V c main_arg5) (V c main_v40)) := by
  show (cfg1.win 3).cut (grid1.coords t) ((dat1 (F := Ideal) V c).after 3 t) = _
  rw [after1_3, out_eq (iblk1 (F := Ideal) V c 0 t) (iblk1 (F := Ideal) V c 1 t) (iblk1 (F := Ideal) V c 2 t)]
  refine funext fun (y : S8192x16.Idx) => ?_
  obtain ⟨r, j, rfl⟩ : ∃ (r : Fin 8192) (j : Fin 16), y = ix2 r j := ⟨y 0, y 1, eq_ix2 y⟩
  show (k1_pay1 (F := Ideal) (iblk1 (F := Ideal) V c 0 t) (iblk1 (F := Ideal) V c 2 t) (iblk1 (F := Ideal) V c 1 t) : S8192x16.Idx → EReal) (ix2 r j)
    = whole (V c main_v39) (V c main_arg5) (V c main_v40) (((cfg1.win 3).blk t).view.emb (ix2 r j))
  refine (stored_apply (iblk1 (F := Ideal) V c 0 t) (iblk1 (F := Ideal) V c 2 t) (iblk1 (F := Ideal) V c 1 t) r j).trans ?_
  refine Eq.trans ?_ (congrArg (whole (V c main_v39) (V c main_arg5) (V c main_v40)) (blk3_emb t r j)).symm
  refine Eq.trans ?_ (whole_apply _ _ _ (rowOf t r) j).symm
  unfold entry
  refine congrArg₂ (· + ·) (Finset.sum_congr rfl fun k _ => congrArg₂ (· * ·) (blk0_apply V c t r k) (blk2_apply V c t k j)) (blk1_apply V c t r j)

/-! ## The blocks cover the array -/

/-- An entry of the array is in point t's block iff each coordinate is in the block's range on its axis. -/
theorem mem_blk (t : Fin cfg1.N) (i : S3203072x16.Idx) :
    i ∈ ((cfg1.win 3).blk t).view.set ↔ ∀ a : Fin 2, win1_3.index t a * S8192x16.size a ≤ (i a).val ∧ (i a).val < win1_3.index t a * S8192x16.size a + S8192x16.size a := by
  show i ∈ ((View.whole main_v41).slice (win1_3.rect t)).set ↔ _
  rw [View.set_slice_whole, Rect.mem_set_unit]
  exact Iff.rfl

/-- Row p lies in the block of point p / 8192, and every point writes back. -/
theorem cover (i : S3203072x16.Idx) :
    ∃ t : Fin cfg1.N, (cfg1.win 3).flush t = true ∧ i ∈ ((cfg1.win 3).blk t).view.set := by
  have hi0 : (i 0).val < 3203072 := (i 0).isLt
  have hi1 : (i 1).val < 16 := (i 1).isLt
  have hN : cfg1.N = 391 := N_1
  let t : Fin cfg1.N := ⟨(i 0).val / 8192, by rw [hN]; omega⟩
  have htv : t.val = (i 0).val / 8192 := rfl
  obtain ⟨-, -, -, -, -, -, e0, e1⟩ := idx_facts t
  refine ⟨t, flush1_3 t, ?_⟩
  rw [mem_blk]
  intro a
  match a with
  | ⟨0, _⟩ => show win1_3.index t (0 : Fin 2) * 8192 ≤ (i 0).val ∧ (i 0).val < win1_3.index t (0 : Fin 2) * 8192 + 8192; omega
  | ⟨1, _⟩ => show win1_3.index t (1 : Fin 2) * 16 ≤ (i 1).val ∧ (i 1).val < win1_3.index t (1 : Fin 2) * 16 + 16; omega

/-! ## The array when the region ends -/

/-- THE OUTPUT ARRAY when the region ends, as one function of what the region found. -/
theorem arr_eq (c : Dev nD) :
    (dat1 (F := Ideal) V c).arrAt 3 cfg1.N = whole (V c main_v39) (V c main_arg5) (V c main_v40) :=
  (dat1 (F := Ideal) V c).arrAt_eq_of_cover 3 (whole (V c main_v39) (V c main_arg5) (V c main_v40))
    (fun t _ => flushed_eq V c t) cover

/-- Entry (p, j) of the output array when the region ends, over the three arrays the region found. -/
theorem arr_out_entry (c : Dev nD) (p : Fin 3203072) (j : Fin 16) :
    ((dat1 (F := Ideal) V c).arrAt 3 cfg1.N : S3203072x16.Idx → EReal) (ix2 p j)
      = entry (V c main_v39) (V c main_arg5) (V c main_v40) p j :=
  congrFun (arr_eq V c) (ix2 p j)

/-- Entry (p, j) of the output array when the region ends: ∑ₖ a(p, k) · w(k, j) + b(p, j), the three arrays the
    region found named a, w, b at their shapes. -/
theorem arr_out (c : Dev nD) (a b : S3203072x16.Idx → EReal) (w : S16x16.Idx → EReal)
    (ha : (V c main_v39 : S3203072x16.Idx → EReal) = a) (hw : (V c main_arg5 : S16x16.Idx → EReal) = w)
    (hb : (V c main_v40 : S3203072x16.Idx → EReal) = b) (p : Fin 3203072) (j : Fin 16) :
    ((dat1 (F := Ideal) V c).arrAt 3 cfg1.N : S3203072x16.Idx → EReal) (ix2 p j)
      = (∑ k : Fin 16, a (ix2 p k) * w (ix2 k j)) + b (ix2 p j) := by
  subst ha hw hb
  exact arr_out_entry V c p j

end Cert.KernelIdeal.Region1

end
-- ==== Proof.Region2.lean ====
/-
  The node-wise linear map after a rectifier, region 2: what its three arrays hold when the region ends.

  The region runs over 13 grid points; point t stages rows 8192·t … 8192·t + 8191 of the 106496 × 16 node array,
  the whole 16 × 16 weight matrix, and writes back rows 8192·t … 8192·t + 8191 of the 106496 × 16 result. The body
  takes the maximum of each staged entry with zero and multiplies the block so rectified by the weight matrix into a
  zero accumulator (the format changes before the product are the identity on the extended reals). Since
  106496 = 13 · 8192 the thirteen row blocks tile the result, so entry (p, j) of the result ends as
  ∑ₖ max(h(p, k), 0) · W(k, j): the row p lies in the block of the point p / 8192, and that block's entry is the
  product's entry there.
-/
import proofs.«401563_j56057913147714_2_alg».proof.Proof.Gen.KernelIdeal.Frame
import Idealize.ShloMosaic.Lib.Pipeline.Value
import Idealize.ShloMosaic.Lib.ValueIdx
import Idealize.ShloMosaic.PureOps.Ideal.Laws
import proofs.«401563_j56057913147714_2_alg».proof.Proof.Spec
import proofs.«401563_j56057913147714_2_alg».proof.Proof.LibPlainMatmul

-- the long axis has 106496 rows, and a comparison of coordinates on it recurses once per row block offset
set_option maxRecDepth 16384

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The rectified product, entry by entry -/

/-- Entry (p, j) of the product of a 106496 × 16 array, rectified, with a 16 × 16 matrix. -/
def rowDot (h : S106496x16.Idx → EReal) (w : S16x16.Idx → EReal) (p : Fin 106496) (j : Fin 16) : EReal :=
  ∑ k : Fin 16, max (h (ix2 p k)) Cert.Spec.zero * w (ix2 k j)

/-- The rectified product as one array. -/
def prod (h : S106496x16.Idx → EReal) (w : S16x16.Idx → EReal) : S106496x16.Idx → EReal :=
  fun i => rowDot h w ⟨(i 0).val, idx2_lt0 i⟩ ⟨(i 1).val, idx2_lt1 i⟩

/-! ## The body at an entry of its block -/

/-- The body's stored value at entry (a, b) of the staged block: the staged rows, rectified, times the staged matrix. -/
theorem pay_apply (x0 : Vec Ideal S8192x16 .f32) (x1 : Vec Ideal S16x16 .f32) (a : Fin 8192) (b : Fin 16) :
    k2_pay1 x0 x1 (ix2 a b)
      = ∑ k : Fin 16, max ((x0 : S8192x16.Idx → EReal) (ix2 a k)) Cert.Spec.zero * (x1 : S16x16.Idx → EReal) (ix2 k b) := by
  unfold k2_pay1
  simp only [shapeCast_self]
  exact Cert.LibPlainMatmul.matmul_zero_apply 8192 16 16 none
    (truncf .bf16 (maximumf x0 (broadcast S8192x16 (Scalar.ofBits (F := Ideal) .f32 0x00000000#32))) bitsLt_bf16_f32)
    (truncf .bf16 x1 bitsLt_bf16_f32) a b

/-! ## The blocks the points stage -/

theorem hz : (![0, 0] : Fin 2 → Nat) = fun _ => 0 := funext fun a => by fin_cases a <;> rfl

/-- The block indices over the grid: the node and result windows move down one row block per point, the weight
    window stays. -/
theorem idx_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The staged node block at point t is rows 8192·t … of the node array. -/
theorem iblk_h_apply (c : Dev nD) (t : Fin cfg2.N) (y : S8192x16.Idx) (i : S106496x16.Idx)
    (h0 : (i 0).val = t.val * 8192 + (y 0).val) (h1 : (i 1).val = (y 1).val) :
    (iblk2 V c 0 t : S8192x16.Idx → EReal) y = (V c main_v55 : S106496x16.Idx → EReal) i := by
  obtain ⟨e0, e1, -, -, -, -⟩ := idx_facts t
  show (V c main_v55 : S106496x16.Idx → EReal) (((cfg2.win 0).blk t).view.emb y) = _
  congr 1
  funext a; apply Fin.ext
  match a with
  | ⟨0, _⟩ => show win2_0.index t (0 : Fin 2) * 8192 + 1 * (y 0).val = (i 0).val; omega
  | ⟨1, _⟩ => show win2_0.index t (1 : Fin 2) * 16 + 1 * (y 1).val = (i 1).val; omega

/-- The staged weight block at every point is the whole weight matrix. -/
theorem iblk_w_apply (c : Dev nD) (t : Fin cfg2.N) (y : S16x16.Idx) :
    (iblk2 V c 1 t : S16x16.Idx → EReal) y = (V c main_arg6 : S16x16.Idx → EReal) y := by
  obtain ⟨-, -, e2, e3, -, -⟩ := idx_facts t
  show (V c main_arg6 : S16x16.Idx → EReal) (((cfg2.win 1).blk t).view.emb y) = _
  congr 1
  funext a; apply Fin.ext
  match a with
  | ⟨0, _⟩ => show win2_1.index t (0 : Fin 2) * 16 + 1 * (y 0).val = (y 0).val; omega
  | ⟨1, _⟩ => show win2_1.index t (1 : Fin 2) * 16 + 1 * (y 1).val = (y 1).val; omega

/-! ## What a point writes back, and the array after the last point -/

/-- Point t writes back block t of the rectified product of the arrays as the region finds them. -/
theorem flushed_eq (c : Dev nD) (t : Fin cfg2.N) :
    (dat2 V c).flushed 2 t
      = ((cfg2.win 2).blk t).view.read (Elt Ideal) (prod (V c main_v55) (V c main_arg6)) := by
  show (cfg2.win 2).cut (grid2.coords t) ((dat2 V c).after 2 t) = _
  rw [after2_2]
  unfold out2_2
  rw [View.canon_unit_zero hz]
  simp only [View.ld_unit_zero (S := S8192x16) hz, View.ld_unit_zero (S := S16x16) hz]
  obtain ⟨-, -, -, -, e4, e5⟩ := idx_facts t
  funext y
  obtain ⟨a, b, rfl⟩ : ∃ (a : Fin 8192) (b : Fin 16), y = ix2 a b := ⟨y 0, y 1, eq_ix2 y⟩
  have hi0 : ((((cfg2.win 2).blk t).view.emb (ix2 a b) : S106496x16.Idx) 0).val = t.val * 8192 + a.val := by
    show win2_2.index t (0 : Fin 2) * 8192 + 1 * a.val = _; omega
  have hi1 : ((((cfg2.win 2).blk t).view.emb (ix2 a b) : S106496x16.Idx) 1).val = b.val := by
    show win2_2.index t (1 : Fin 2) * 16 + 1 * b.val = _; omega
  show k2_pay1 (iblk2 V c 0 t) (iblk2 V c 1 t) (ix2 a b)
    = prod (V c main_v55) (V c main_arg6) (((cfg2.win 2).blk t).view.emb (ix2 a b))
  refine (pay_apply _ _ a b).trans ?_
  unfold prod rowDot
  refine Finset.sum_congr rfl fun k _ => ?_
  rw [iblk_w_apply V c t (ix2 k b)]
  refine congrArg₂ (· * ·) (congrArg (max · Cert.Spec.zero) (iblk_h_apply V c t (ix2 a k) _ ?_ ?_)) (congrArg _ ?_)
  · exact hi0
  · rfl
  · funext d; apply Fin.ext
    match d with
    | ⟨0, _⟩ => rfl
    | ⟨1, _⟩ => exact hi1.symm

/-- An index of the result is in point t's block iff each coordinate is in the block's range on its axis. -/
theorem mem_blk (t : Fin cfg2.N) (i : S106496x16.Idx) :
    i ∈ ((cfg2.win 2).blk t).view.set
      ↔ ∀ a : Fin 2, win2_2.index t a * S8192x16.size a ≤ (i a).val
          ∧ (i a).val < win2_2.index t a * S8192x16.size a + S8192x16.size a := by
  show i ∈ ((View.whole main_v56).slice (win2_2.rect t)).set ↔ _
  rw [View.set_slice_whole, Rect.mem_set_unit]
  exact Iff.rfl

/-- Every index of the result lies in some point's block: row r in the block of point r / 8192. -/
theorem cover (i : S106496x16.Idx) :
    ∃ t : Fin cfg2.N, (cfg2.win 2).flush t = true ∧ i ∈ ((cfg2.win 2).blk t).view.set := by
  have hi0 : (i 0).val < 106496 := idx2_lt0 i
  have hi1 : (i 1).val < 16 := idx2_lt1 i
  have hN : cfg2.N = 13 := N_2
  let t : Fin cfg2.N := ⟨(i 0).val / 8192, by rw [hN]; omega⟩
  obtain ⟨-, -, -, -, e4, e5⟩ := idx_facts t
  have ht : t.val = (i 0).val / 8192 := rfl
  refine ⟨t, flush2_2 t, ?_⟩
  rw [mem_blk]
  intro a
  match a with
  | ⟨0, _⟩ =>
    show win2_2.index t (0 : Fin 2) * 8192 ≤ (i 0).val ∧ (i 0).val < win2_2.index t (0 : Fin 2) * 8192 + 8192
    omega
  | ⟨1, _⟩ =>
    show win2_2.index t (1 : Fin 2) * 16 ≤ (i 1).val ∧ (i 1).val < win2_2.index t (1 : Fin 2) * 16 + 16
    omega

/-- The result array after the region: the rectified product of the node array and the weight matrix as the
    region finds them. -/
theorem final (c : Dev nD) :
    (dat2 V c).arrAt 2 cfg2.N = prod (V c main_v55) (V c main_arg6) :=
  (dat2 V c).arrAt_eq_of_cover 2 (prod (V c main_v55) (V c main_arg6)) (fun t _ => flushed_eq V c t) cover

/-- ENTRY (p, j) OF THE RESULT when the region ends: ∑ₖ max(h(p, k), 0) · W(k, j) of the region's entry contents. -/
theorem arr_out (c : Dev nD) (p : Fin 106496) (j : Fin 16) :
    ((dat2 (F := Ideal) V c).arrAt 2 cfg2.N : S106496x16.Idx → EReal) (ix2 p j)
      = ∑ k : Fin 16, HMul.hMul (α := EReal) (β := EReal) (γ := EReal)
          (max ((V c main_v55 : S106496x16.Idx → EReal) (ix2 p k)) Cert.Spec.zero)
          ((V c main_arg6 : S16x16.Idx → EReal) (ix2 k j)) := by
  rw [final V c]
  rfl

/-- The same with the two arrays named. -/
theorem arr_out_of (c : Dev nD) (h : S106496x16.Idx → EReal) (w : S16x16.Idx → EReal)
    (hh : (V c main_v55 : S106496x16.Idx → EReal) = h) (hw : (V c main_arg6 : S16x16.Idx → EReal) = w)
    (p : Fin 106496) (j : Fin 16) :
    ((dat2 (F := Ideal) V c).arrAt 2 cfg2.N : S106496x16.Idx → EReal) (ix2 p j)
      = ∑ k : Fin 16, max (h (ix2 p k)) Cert.Spec.zero * w (ix2 k j) := by
  subst hh hw
  exact arr_out V c p j

end Cert.KernelIdeal.Region2

end
-- ==== Proof.Region3.lean ====
/- The second edge-message kernel, read as one function of what it finds.

  The kernel walks its 3203072-row arrays in 391 blocks of 8192 rows. At a block it multiplies the 8192 × 16 block
  of the first array by the whole 16 × 16 weight (into a zero accumulator) and adds the block of the second array.
  A row of the product depends on that row only, so the blocks are the restrictions of ONE function of the three
  arrays: entry (p, j) of the result is ∑ₖ a(p, k) · w(k, j) + b(p, j). Block t covers rows 8192·t … 8192·t + 8191,
  and 391 · 8192 = 3203072, so row p is covered by the block p / 8192 and the whole array ends holding that function.
-/
import proofs.«401563_j56057913147714_2_alg».proof.Proof.Gen.KernelIdeal.Frame
import Idealize.ShloMosaic.Lib.Pipeline.Value
import Idealize.ShloMosaic.Lib.ValueIdx
import Idealize.ShloMosaic.PureOps.Ideal.Laws
import proofs.«401563_j56057913147714_2_alg».proof.Proof.LibPlainMatmul

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-! ## The function the array ends holding -/

/-- Entry (p, j) of the result: row p of the first array against column j of the weight, plus the second array's entry. -/
def entry (a : S3203072x16.Idx → EReal) (w : S16x16.Idx → EReal) (b : S3203072x16.Idx → EReal)
    (p : Fin 3203072) (j : Fin 16) : EReal :=
  (∑ k : Fin 16, a (ix2 p k) * w (ix2 k j)) + b (ix2 p j)

/-- The whole result array. -/
def whole (a : S3203072x16.Idx → EReal) (w : S16x16.Idx → EReal) (b : S3203072x16.Idx → EReal) :
    S3203072x16.Idx → EReal := fun i => entry a w b (i 0) (i 1)

theorem whole_apply (a : S3203072x16.Idx → EReal) (w : S16x16.Idx → EReal) (b : S3203072x16.Idx → EReal)
    (p : Fin 3203072) (j : Fin 16) : whole a w b (ix2 p j) = entry a w b p j := rfl

/-! ## The body's arithmetic at an entry of the block -/

/-- The kernel's dimension numbers are those of a plain product of an 8192 × 16 by a 16 × 16 matrix. -/
theorem dims_plain : dot_S8192x16_S16x16_S8192x16_1_0_0_1_n_n = DotDims.plain 8192 16 16 := rfl

/-- The product into the zero accumulator at entry (r, j). -/
theorem product_apply (l : FVec Ideal S8192x16 .bf16) (w : FVec Ideal S16x16 .bf16) (r : Fin 8192) (j : Fin 16) :
    matmul dot_S8192x16_S16x16_S8192x16_1_0_0_1_n_n none l w (constant (F := Ideal) S8192x16 .f32 0x00000000#32) (ix2 r j)
      = ∑ k : Fin 16, l (ix2 r k) * w (ix2 k j) :=
  (congrArg (fun d => matmul d none l w (constant (F := Ideal) S8192x16 .f32 0x00000000#32) (ix2 r j)) dims_plain).trans
    (Cert.LibPlainMatmul.matmul_zero_apply 8192 16 16 none l w r j)

/-- What the body stores, at entry (r, j) of the block: the changes of float format are the identity on the
    extended reals, the casts to the same shape change nothing. -/
theorem stored_apply (x0 : Vec Ideal S8192x16 .f32) (x2 : Vec Ideal S16x16 .f32) (x1 : Vec Ideal S8192x16 .f32)
    (r : Fin 8192) (j : Fin 16) :
    (k3_pay1 (F := Ideal) x0 x2 x1 : S8192x16.Idx → EReal) (ix2 r j)
      = (∑ k : Fin 16, (x0 : S8192x16.Idx → EReal) (ix2 r k) * (x2 : S16x16.Idx → EReal) (ix2 k j))
        + (x1 : S8192x16.Idx → EReal) (ix2 r j) := by
  unfold k3_pay1
  refine (addf_apply _ _ (ix2 r j)).trans ?_
  refine congrArg₂ (· + ·) ?_ ?_
  · refine (product_apply _ _ r j).trans ?_
    refine Finset.sum_congr rfl fun k _ => ?_
    refine congrArg₂ (· * ·) ?_ ?_
    · exact congrFun (shapeCast_self x0 shapeCasts_S8192x16_S8192x16) (ix2 r k)
    · rfl
  · exact congrFun (shapeCast_self x1 shapeCasts_S8192x16_S8192x16) (ix2 r j)

/-! ## From the body's store to the staging buffer -/

theorem hz : (![0, 0] : Fin 2 → Nat) = fun _ => 0 := funext fun a => by fin_cases a <;> rfl

/-- The one store fills the whole staging buffer, and each load reads a whole buffer. -/
theorem out_eq (x0 x1 : Vec Ideal S8192x16 .f32) (x2 : Vec Ideal S16x16 .f32) :
    out3_3 (F := Ideal) x0 x1 x2 = k3_pay1 (F := Ideal) x0 x2 x1 := by
  unfold out3_3
  rw [View.canon_unit_zero hz]
  simp only [View.ld_unit_zero (S := S8192x16) hz, View.ld_unit_zero (S := S16x16) hz]

/-! ## Where the blocks lie -/

/-- The printed index maps over the 391 points: the three row-blocked windows are at block (t, 0), the weight at (0, 0). -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Row r of block t is row 8192·t + r of the array. -/
def rowOf (t : Fin cfg3.N) (r : Fin 8192) : Fin 3203072 :=
  ⟨t.val * 8192 + r.val, by have ht : t.val < 391 := N_3 ▸ t.isLt; have hr := r.isLt; omega⟩

/-- The first array's block at point t. -/
theorem blk0_apply (c : Dev nD) (t : Fin cfg3.N) (r : Fin 8192) (k : Fin 16) :
    (iblk3 (F := Ideal) V c 0 t : Vec Ideal S8192x16 .f32) (ix2 r k) = (V c main_v62 : S3203072x16.Idx → EReal) (ix2 (rowOf t r) k) := by
  obtain ⟨e0, e1, -⟩ := idx_facts t
  show (V c main_v62 : S3203072x16.Idx → EReal) (((cfg3.win 0).blk t).view.emb (ix2 r k)) = _
  refine congrArg _ ?_
  funext a; apply Fin.ext
  match a with
  | ⟨0, _⟩ => show win3_0.index t (0 : Fin 2) * 8192 + 1 * r.val = t.val * 8192 + r.val; omega
  | ⟨1, _⟩ => show win3_0.index t (1 : Fin 2) * 16 + 1 * k.val = k.val; omega

/-- The second array's block at point t. -/
theorem blk1_apply (c : Dev nD) (t : Fin cfg3.N) (r : Fin 8192) (j : Fin 16) :
    (iblk3 (F := Ideal) V c 1 t : Vec Ideal S8192x16 .f32) (ix2 r j) = (V c main_v63 : S3203072x16.Idx → EReal) (ix2 (rowOf t r) j) := by
  obtain ⟨-, -, e0, e1, -⟩ := idx_facts t
  show (V c main_v63 : S3203072x16.Idx → EReal) (((cfg3.win 1).blk t).view.emb (ix2 r j)) = _
  refine congrArg _ ?_
  funext a; apply Fin.ext
  match a with
  | ⟨0, _⟩ => show win3_1.index t (0 : Fin 2) * 8192 + 1 * r.val = t.val * 8192 + r.val; omega
  | ⟨1, _⟩ => show win3_1.index t (1 : Fin 2) * 16 + 1 * j.val = j.val; omega

/-- The weight's block at every point is the weight. -/
theorem blk2_apply (c : Dev nD) (t : Fin cfg3.N) (k : Fin 16) (j : Fin 16) :
    (iblk3 (F := Ideal) V c 2 t : Vec Ideal S16x16 .f32) (ix2 k j) = (V c main_arg7 : S16x16.Idx → EReal) (ix2 k j) := by
  obtain ⟨-, -, -, -, e0, e1, -⟩ := idx_facts t
  show (V c main_arg7 : S16x16.Idx → EReal) (((cfg3.win 2).blk t).view.emb (ix2 k j)) = _
  refine congrArg _ ?_
  funext a; apply Fin.ext
  match a with
  | ⟨0, _⟩ => show win3_2.index t (0 : Fin 2) * 16 + 1 * k.val = k.val; omega
  | ⟨1, _⟩ => show win3_2.index t (1 : Fin 2) * 16 + 1 * j.val = j.val; omega

/-- Entry (r, j) of the output's block at point t is entry (8192·t + r, j) of the array. -/
theorem blk3_emb (t : Fin cfg3.N) (r : Fin 8192) (j : Fin 16) :
    ((cfg3.win 3).blk t).view.emb (ix2 r j) = (ix2 (rowOf t r) j : S3203072x16.Idx) := by
  obtain ⟨-, -, -, -, -, -, e0, e1⟩ := idx_facts t
  funext a; apply Fin.ext
  match a with
  | ⟨0, _⟩ => show win3_3.index t (0 : Fin 2) * 8192 + 1 * r.val = t.val * 8192 + r.val; omega
  | ⟨1, _⟩ => show win3_3.index t (1 : Fin 2) * 16 + 1 * j.val = j.val; omega

/-! ## What a point writes back -/

/-- WHAT POINT t WRITES BACK is block t of the one function of the arrays the region finds. -/
theorem flushed_eq (c : Dev nD) (t : Fin cfg3.N) :
    (dat3 (F := Ideal) V c).flushed 3 t
      = ((cfg3.win 3).blk t).view.read (Elt Ideal) (whole (V c main_v62) (V c main_arg7) (V c main_v63)) := by
  show (cfg3.win 3).cut (grid3.coords t) ((dat3 (F := Ideal) V c).after 3 t) = _
  rw [after3_3, out_eq (iblk3 (F := Ideal) V c 0 t) (iblk3 (F := Ideal) V c 1 t) (iblk3 (F := Ideal) V c 2 t)]
  refine funext fun (y : S8192x16.Idx) => ?_
  obtain ⟨r, j, rfl⟩ : ∃ (r : Fin 8192) (j : Fin 16), y = ix2 r j := ⟨y 0, y 1, eq_ix2 y⟩
  show (k3_pay1 (F := Ideal) (iblk3 (F := Ideal) V c 0 t) (iblk3 (F := Ideal) V c 2 t) (iblk3 (F := Ideal) V c 1 t) : S8192x16.Idx → EReal) (ix2 r j)
    = whole (V c main_v62) (V c main_arg7) (V c main_v63) (((cfg3.win 3).blk t).view.emb (ix2 r j))
  refine (stored_apply (iblk3 (F := Ideal) V c 0 t) (iblk3 (F := Ideal) V c 2 t) (iblk3 (F := Ideal) V c 1 t) r j).trans ?_
  refine Eq.trans ?_ (congrArg (whole (V c main_v62) (V c main_arg7) (V c main_v63)) (blk3_emb t r j)).symm
  refine Eq.trans ?_ (whole_apply _ _ _ (rowOf t r) j).symm
  unfold entry
  refine congrArg₂ (· + ·) (Finset.sum_congr rfl fun k _ => congrArg₂ (· * ·) (blk0_apply V c t r k) (blk2_apply V c t k j)) (blk1_apply V c t r j)

/-! ## The blocks cover the array -/

/-- An entry of the array is in point t's block iff each coordinate is in the block's range on its axis. -/
theorem mem_blk (t : Fin cfg3.N) (i : S3203072x16.Idx) :
    i ∈ ((cfg3.win 3).blk t).view.set ↔ ∀ a : Fin 2, win3_3.index t a * S8192x16.size a ≤ (i a).val ∧ (i a).val < win3_3.index t a * S8192x16.size a + S8192x16.size a := by
  show i ∈ ((View.whole main_v64).slice (win3_3.rect t)).set ↔ _
  rw [View.set_slice_whole, Rect.mem_set_unit]
  exact Iff.rfl

/-- Row p lies in the block of point p / 8192, and every point writes back. -/
theorem cover (i : S3203072x16.Idx) :
    ∃ t : Fin cfg3.N, (cfg3.win 3).flush t = true ∧ i ∈ ((cfg3.win 3).blk t).view.set := by
  have hi0 : (i 0).val < 3203072 := (i 0).isLt
  have hi1 : (i 1).val < 16 := (i 1).isLt
  have hN : cfg3.N = 391 := N_3
  let t : Fin cfg3.N := ⟨(i 0).val / 8192, by rw [hN]; omega⟩
  have htv : t.val = (i 0).val / 8192 := rfl
  obtain ⟨-, -, -, -, -, -, e0, e1⟩ := idx_facts t
  refine ⟨t, flush3_3 t, ?_⟩
  rw [mem_blk]
  intro a
  match a with
  | ⟨0, _⟩ => show win3_3.index t (0 : Fin 2) * 8192 ≤ (i 0).val ∧ (i 0).val < win3_3.index t (0 : Fin 2) * 8192 + 8192; omega
  | ⟨1, _⟩ => show win3_3.index t (1 : Fin 2) * 16 ≤ (i 1).val ∧ (i 1).val < win3_3.index t (1 : Fin 2) * 16 + 16; omega

/-! ## The array when the region ends -/

/-- THE OUTPUT ARRAY when the region ends, as one function of what the region found. -/
theorem arr_eq (c : Dev nD) :
    (dat3 (F := Ideal) V c).arrAt 3 cfg3.N = whole (V c main_v62) (V c main_arg7) (V c main_v63) :=
  (dat3 (F := Ideal) V c).arrAt_eq_of_cover 3 (whole (V c main_v62) (V c main_arg7) (V c main_v63))
    (fun t _ => flushed_eq V c t) cover

/-- Entry (p, j) of the output array when the region ends, over the three arrays the region found. -/
theorem arr_out_entry (c : Dev nD) (p : Fin 3203072) (j : Fin 16) :
    ((dat3 (F := Ideal) V c).arrAt 3 cfg3.N : S3203072x16.Idx → EReal) (ix2 p j)
      = entry (V c main_v62) (V c main_arg7) (V c main_v63) p j :=
  congrFun (arr_eq V c) (ix2 p j)

/-- Entry (p, j) of the output array when the region ends: ∑ₖ a(p, k) · w(k, j) + b(p, j), the three arrays the
    region found named a, w, b at their shapes. -/
theorem arr_out (c : Dev nD) (a b : S3203072x16.Idx → EReal) (w : S16x16.Idx → EReal)
    (ha : (V c main_v62 : S3203072x16.Idx → EReal) = a) (hw : (V c main_arg7 : S16x16.Idx → EReal) = w)
    (hb : (V c main_v63 : S3203072x16.Idx → EReal) = b) (p : Fin 3203072) (j : Fin 16) :
    ((dat3 (F := Ideal) V c).arrAt 3 cfg3.N : S3203072x16.Idx → EReal) (ix2 p j)
      = (∑ k : Fin 16, a (ix2 p k) * w (ix2 k j)) + b (ix2 p j) := by
  subst ha hw hb
  exact arr_out_entry V c p j

end Cert.KernelIdeal.Region3

end
-- ==== Proof.KValue.lean ====
/-
  What the kernel program's result buffer holds at the last boundary, as the network of the specification.

  The program is seventeen stretches of host operations around four pallas_calls. Each stretch and each call has
  been read at an index from ANY entry contents; here they are chained along the boundaries W0 … W21: a stage's
  inputs are buffers written earlier, which hold at its boundary what they held when written (nothing in between
  writes them), and its output is the next stage's input. Layer by layer: the node rows x · W1ₙ (call 0), the rows
  gathered by source and scaled by the edge weight, the messages (call 1), their sum per destination plus the node's
  own scaled row; the same again after a rectifier (calls 2 and 3); then the group means and the final affine map.
-/
import proofs.«401563_j56057913147714_2_alg».proof.Proof.KRun
import proofs.«401563_j56057913147714_2_alg».proof.Proof.Keep
import proofs.«401563_j56057913147714_2_alg».proof.Proof.KHost0
import proofs.«401563_j56057913147714_2_alg».proof.Proof.KPads
import proofs.«401563_j56057913147714_2_alg».proof.Proof.KTake
import proofs.«401563_j56057913147714_2_alg».proof.Proof.KAgg
import proofs.«401563_j56057913147714_2_alg».proof.Proof.KTail
import proofs.«401563_j56057913147714_2_alg».proof.Proof.Region0
import proofs.«401563_j56057913147714_2_alg».proof.Proof.Region1
import proofs.«401563_j56057913147714_2_alg».proof.Proof.Region2
import proofs.«401563_j56057913147714_2_alg».proof.Proof.Region3
import proofs.«401563_j56057913147714_2_alg».proof.Proof.Spec

set_option maxRecDepth 16384

noncomputable section

namespace Cert.KernelIdeal.KValue

open Idealize.ShloMosaic Idealize.ShloMosaic.TcCoe Idealize.ShloMosaic.ValueIdx Idealize.ShloMosaic.StableHlo
open Idealize.SL Idealize.SL.Sem
open Cert.KernelIdeal Cert.KernelIdeal.Gen Cert.Spec
open scoped BigOperators

variable (m : (ℓ : Loc nD τ sig) → Buf (Elt Ideal) ℓ) (ρ : Dev nD → PrngReg) (c : Dev nD)

/-- The ten arguments as launched. -/
abbrev aX : S100000x128.Idx → EReal := m ((c : Thread nD τ).loc main_arg0)
abbrev aEI : EdgeIx := m ((c : Thread nD τ).loc main_arg1)
abbrev aEA : EdgeAttr := m ((c : Thread nD τ).loc main_arg2)
abbrev aBI : S100000.Idx → BitVec 32 := m ((c : Thread nD τ).loc main_arg3)
abbrev aW1n : Wt 128 16 := m ((c : Thread nD τ).loc main_arg4)
abbrev aW1e : Wt 16 16 := m ((c : Thread nD τ).loc main_arg5)
abbrev aW2n : Wt 16 16 := m ((c : Thread nD τ).loc main_arg6)
abbrev aW2e : Wt 16 16 := m ((c : Thread nD τ).loc main_arg7)
abbrev aNW : Wt 16 8 := m ((c : Thread nD τ).loc main_arg8)
abbrev aNB : S8.Idx → EReal := m ((c : Thread nD τ).loc main_arg9)

/-! ## The first stretch: the words, the weights, the scaled attributes -/

theorem src_W1 (e : Fin EE) : (W1 m ρ c (Proc.devRef .tc main_v1) : S3200000.Idx → BitVec 32) (ix1 e) = srcW (aEI m c) e :=
  KHost0.src_eq (W0 m ρ c) (aEI m c) (Keep.arg1_W0 m ρ c) e

theorem dst_W1 (e : Fin EE) : (W1 m ρ c (Proc.devRef .tc main_v3) : S3200000.Idx → BitVec 32) (ix1 e) = dstW (aEI m c) e :=
  KHost0.dst_eq (W0 m ρ c) (aEI m c) (Keep.arg1_W0 m ρ c) e

theorem nrm_W1 (hR : InRange (aEI m c)) (e : Fin EE) : (W1 m ρ c (Proc.devRef .tc main_v27) : S3200000.Idx → EReal) (ix1 e) = nrm (aEI m c) e :=
  KHost0.nrm_eq (W0 m ρ c) (aEI m c) (Keep.arg1_W0 m ρ c) hR e

theorem selfc_W1 (n : Fin NN) : (W1 m ρ c (Proc.devRef .tc main_v28) : S100000.Idx → EReal) (ix1 n) = dinv (aEI m c) n * dinv (aEI m c) n :=
  KHost0.selfc_eq (W0 m ρ c) (aEI m c) (Keep.arg1_W0 m ρ c) n

theorem eas_W1 (hR : InRange (aEI m c)) (e : Fin EE) (k : Fin 16) :
    (W1 m ρ c (Proc.devRef .tc main_v31) : S3200000x16.Idx → EReal) (ix2 e k) = nrm (aEI m c) e * aEA m c (ix2 e k) :=
  KHost0.eas_eq (W0 m ρ c) (aEI m c) (aEA m c) (Keep.arg1_W0 m ρ c) (Keep.arg2_W0 m ρ c) hR e k

/-- The words are node numbers. -/
theorem src_range (hR : InRange (aEI m c)) (e : Fin EE) : 0 ≤ (srcW (aEI m c) e).toInt ∧ (srcW (aEI m c) e).toInt < 100000 := hR 0 e
theorem dst_range (hR : InRange (aEI m c)) (e : Fin EE) : 0 ≤ (dstW (aEI m c) e).toInt ∧ (dstW (aEI m c) e).toInt < 100000 := hR 1 e

/-! ## Layer 1 -/

theorem v32_W2 (n : Fin NN) (k : Fin 128) :
    (W2 m ρ c (Proc.devRef .tc main_v32) : S106496x128.Idx → EReal) (ix2 (upN n) k) = aX m c (ix2 n k) :=
  (KPads.pad_x (W1 m ρ c) n k).trans (congrFun (Keep.arg0_W1 m ρ c) _)

theorem v33_W3 (n : Fin NN) (j : Fin 16) :
    (W3 m ρ c (Proc.devRef .tc main_v33) : S106496x16.Idx → EReal) (ix2 (upN n) j) = ne1 (aX m c) (aW1n m c) n j := by
  refine (congrFun (W3_arr m ρ c 2) (ix2 (upN n) j)).trans ?_
  refine (Region0.arr_out (V2 m ρ) c (upN n) j).trans ?_
  show _ = ∑ k : Fin 128, aX m c (ix2 n k) * aW1n m c (ix2 k j)
  refine Finset.sum_congr rfl fun k _ => ?_
  exact congrArg₂ (fun a b : EReal => a * b) (v32_W2 m ρ c n k) (congrFun (Keep.arg4_W2 m ρ c) (ix2 k j))

theorem v34_W4 (n : Fin NN) (j : Fin 16) :
    (W4 m ρ c (Proc.devRef .tc main_v34) : S100000x16.Idx → EReal) (ix2 n j) = ne1 (aX m c) (aW1n m c) n j :=
  (KPads.slice_ne1 (W3 m ρ c) n j).trans (v33_W3 m ρ c n j)

theorem v35_W5 (hR : InRange (aEI m c)) (e : Fin EE) (j : Fin 16) :
    (W5 m ρ c (Proc.devRef .tc main_v35) : S3200000x16.Idx → EReal) (ix2 e j) = ne1 (aX m c) (aW1n m c) (srcN (aEI m c) e) j :=
  (KTake.take1 (W4 m ρ c) (srcW (aEI m c)) (fun e => (congrFun (Keep.v1_W4 m ρ c) _).trans (src_W1 m ρ c e))
    (src_range m c hR) e j).trans (v34_W4 m ρ c _ j)

theorem v38_W6 (hR : InRange (aEI m c)) (e : Fin EE) (j : Fin 16) :
    (W6 m ρ c (Proc.devRef .tc main_v38) : S3200000x16.Idx → EReal) (ix2 e j)
      = nrm (aEI m c) e * ne1 (aX m c) (aW1n m c) (srcN (aEI m c) e) j :=
  KTake.scale1 (W5 m ρ c) (nrm (aEI m c)) (fun e j => ne1 (aX m c) (aW1n m c) (srcN (aEI m c) e) j)
    (fun e => (congrFun (Keep.v27_W5 m ρ c) _).trans (nrm_W1 m ρ c hR e)) (fun e j => v35_W5 m ρ c hR e j) e j

theorem v39_W7 (hR : InRange (aEI m c)) (e : Fin EE) (k : Fin 16) :
    (W7 m ρ c (Proc.devRef .tc main_v39) : S3203072x16.Idx → EReal) (ix2 (upE e) k) = nrm (aEI m c) e * aEA m c (ix2 e k) :=
  (KPads.pad_eas1 (W6 m ρ c) e k).trans ((congrFun (Keep.v31_W6 m ρ c) _).trans (eas_W1 m ρ c hR e k))

theorem v40_W9 (hR : InRange (aEI m c)) (e : Fin EE) (j : Fin 16) :
    (W9 m ρ c (Proc.devRef .tc main_v40) : S3203072x16.Idx → EReal) (ix2 (upE e) j)
      = nrm (aEI m c) e * ne1 (aX m c) (aW1n m c) (srcN (aEI m c) e) j :=
  (KPads.pad_g1 (W8 m ρ c) e j).trans ((congrFun (Keep.v38_W8 m ρ c) _).trans (v38_W6 m ρ c hR e j))

theorem v41_W10 (hR : InRange (aEI m c)) (e : Fin EE) (j : Fin 16) :
    (W10 m ρ c (Proc.devRef .tc main_v41) : S3203072x16.Idx → EReal) (ix2 (upE e) j)
      = msg (aEI m c) (aEA m c) (ne1 (aX m c) (aW1n m c)) (aW1e m c) e j := by
  refine (congrFun (W10_arr m ρ c 3) (ix2 (upE e) j)).trans ?_
  refine (Region1.arr_out_entry (V9 m ρ) c (upE e) j).trans ?_
  unfold Region1.entry msg
  refine congrArg₂ (fun a b : EReal => a + b) (Finset.sum_congr rfl fun k _ => ?_) (v40_W9 m ρ c hR e j)
  exact congrArg₂ (fun a b : EReal => a * b) ((congrFun (Keep.v39_W9 m ρ c) _).trans (v39_W7 m ρ c hR e k))
    (congrFun (Keep.arg5_W9 m ρ c) (ix2 k j))

theorem v54_W11 (hR : InRange (aEI m c)) (n : Fin NN) (j : Fin 16) :
    (W11 m ρ c (Proc.devRef .tc main_v54) : S100000x16.Idx → EReal) (ix2 n j)
      = h1 (aX m c) (aEI m c) (aEA m c) (aW1n m c) (aW1e m c) n j := by
  refine (KAgg.agg1 (W10 m ρ c) (dstW (aEI m c)) (fun e => (congrFun (Keep.v3_W10 m ρ c) _).trans (dst_W1 m ρ c e))
    (dst_range m c hR) (W10 m ρ c (Proc.devRef .tc main_v41)) rfl (W10 m ρ c (Proc.devRef .tc main_v28)) rfl
    (W10 m ρ c (Proc.devRef .tc main_v34)) rfl n j).trans ?_
  show _ = (zero + ∑ e ∈ into (aEI m c) n, msg (aEI m c) (aEA m c) (ne1 (aX m c) (aW1n m c)) (aW1e m c) e j)
      + (dinv (aEI m c) n * dinv (aEI m c) n) * ne1 (aX m c) (aW1n m c) n j
  refine congrArg₂ (fun a b : EReal => a + b) (congrArg (fun s : EReal => zero + s) ?_) (congrArg₂ (fun a b : EReal => a * b) ?_ ?_)
  · exact Finset.sum_congr rfl fun e _ => v41_W10 m ρ c hR e j
  · exact (congrFun (Keep.v28_W10 m ρ c) _).trans (selfc_W1 m ρ c n)
  · exact (congrFun (Keep.v34_W10 m ρ c) _).trans (v34_W4 m ρ c n j)

/-! ## Layer 2 -/

theorem v55_W12 (hR : InRange (aEI m c)) (n : Fin NN) (j : Fin 16) :
    (W12 m ρ c (Proc.devRef .tc main_v55) : S106496x16.Idx → EReal) (ix2 (upN n) j)
      = h1 (aX m c) (aEI m c) (aEA m c) (aW1n m c) (aW1e m c) n j :=
  (KPads.pad_h1 (W11 m ρ c) n j).trans (v54_W11 m ρ c hR n j)

theorem v56_W13 (hR : InRange (aEI m c)) (n : Fin NN) (j : Fin 16) :
    (W13 m ρ c (Proc.devRef .tc main_v56) : S106496x16.Idx → EReal) (ix2 (upN n) j)
      = ne2 (aX m c) (aEI m c) (aEA m c) (aW1n m c) (aW1e m c) (aW2n m c) n j := by
  refine (congrFun (W13_arr m ρ c 2) (ix2 (upN n) j)).trans ?_
  refine (Region2.arr_out (V12 m ρ) c (upN n) j).trans ?_
  show _ = ∑ k : Fin 16, max (h1 (aX m c) (aEI m c) (aEA m c) (aW1n m c) (aW1e m c) n k) zero * aW2n m c (ix2 k j)
  refine Finset.sum_congr rfl fun k _ => ?_
  exact congrArg₂ (fun a b : EReal => max a zero * b) (v55_W12 m ρ c hR n k) (congrFun (Keep.arg6_W12 m ρ c) (ix2 k j))

theorem v57_W14 (hR : InRange (aEI m c)) (n : Fin NN) (j : Fin 16) :
    (W14 m ρ c (Proc.devRef .tc main_v57) : S100000x16.Idx → EReal) (ix2 n j)
      = ne2 (aX m c) (aEI m c) (aEA m c) (aW1n m c) (aW1e m c) (aW2n m c) n j :=
  (KPads.slice_ne2 (W13 m ρ c) n j).trans (v56_W13 m ρ c hR n j)

theorem v58_W15 (hR : InRange (aEI m c)) (e : Fin EE) (j : Fin 16) :
    (W15 m ρ c (Proc.devRef .tc main_v58) : S3200000x16.Idx → EReal) (ix2 e j)
      = ne2 (aX m c) (aEI m c) (aEA m c) (aW1n m c) (aW1e m c) (aW2n m c) (srcN (aEI m c) e) j :=
  (KTake.take2 (W14 m ρ c) (srcW (aEI m c)) (fun e => (congrFun (Keep.v1_W14 m ρ c) _).trans (src_W1 m ρ c e))
    (src_range m c hR) e j).trans (v57_W14 m ρ c hR _ j)

theorem v61_W16 (hR : InRange (aEI m c)) (e : Fin EE) (j : Fin 16) :
    (W16 m ρ c (Proc.devRef .tc main_v61) : S3200000x16.Idx → EReal) (ix2 e j)
      = nrm (aEI m c) e * ne2 (aX m c) (aEI m c) (aEA m c) (aW1n m c) (aW1e m c) (aW2n m c) (srcN (aEI m c) e) j :=
  KTake.scale2 (W15 m ρ c) (nrm (aEI m c))
    (fun e j => ne2 (aX m c) (aEI m c) (aEA m c) (aW1n m c) (aW1e m c) (aW2n m c) (srcN (aEI m c) e) j)
    (fun e => (congrFun (Keep.v27_W15 m ρ c) _).trans (nrm_W1 m ρ c hR e)) (fun e j => v58_W15 m ρ c hR e j) e j

theorem v62_W17 (hR : InRange (aEI m c)) (e : Fin EE) (k : Fin 16) :
    (W17 m ρ c (Proc.devRef .tc main_v62) : S3203072x16.Idx → EReal) (ix2 (upE e) k) = nrm (aEI m c) e * aEA m c (ix2 e k) :=
  (KPads.pad_eas2 (W16 m ρ c) e k).trans ((congrFun (Keep.v31_W16 m ρ c) _).trans (eas_W1 m ρ c hR e k))

theorem v63_W19 (hR : InRange (aEI m c)) (e : Fin EE) (j : Fin 16) :
    (W19 m ρ c (Proc.devRef .tc main_v63) : S3203072x16.Idx → EReal) (ix2 (upE e) j)
      = nrm (aEI m c) e * ne2 (aX m c) (aEI m c) (aEA m c) (aW1n m c) (aW1e m c) (aW2n m c) (srcN (aEI m c) e) j :=
  (KPads.pad_g2 (W18 m ρ c) e j).trans ((congrFun (Keep.v61_W18 m ρ c) _).trans (v61_W16 m ρ c hR e j))

theorem v64_W20 (hR : InRange (aEI m c)) (e : Fin EE) (j : Fin 16) :
    (W20 m ρ c (Proc.devRef .tc main_v64) : S3203072x16.Idx → EReal) (ix2 (upE e) j)
      = msg (aEI m c) (aEA m c) (ne2 (aX m c) (aEI m c) (aEA m c) (aW1n m c) (aW1e m c) (aW2n m c)) (aW2e m c) e j := by
  refine (congrFun (W20_arr m ρ c 3) (ix2 (upE e) j)).trans ?_
  refine (Region3.arr_out_entry (V19 m ρ) c (upE e) j).trans ?_
  unfold Region3.entry msg
  refine congrArg₂ (fun a b : EReal => a + b) (Finset.sum_congr rfl fun k _ => ?_) (v63_W19 m ρ c hR e j)
  exact congrArg₂ (fun a b : EReal => a * b) ((congrFun (Keep.v62_W19 m ρ c) _).trans (v62_W17 m ρ c hR e k))
    (congrFun (Keep.arg7_W19 m ρ c) (ix2 k j))

/-! ## The result -/

/-- THE KERNEL'S RESULT: the last boundary's contents of the result buffer are the network of the specification. -/
theorem result_eq (hR : InRange (aEI m c)) (g : Fin GG) (o : Fin 8) :
    (W21 m ρ c (Proc.devRef .tc main_v95) : S64x8.Idx → EReal) (ix2 g o)
      = out (aX m c) (aEI m c) (aEA m c) (aBI m c) (aW1n m c) (aW1e m c) (aW2n m c) (aW2e m c) (aNW m c) (aNB m c) g o := by
  refine (KTail.tail (W20 m ρ c) (dstW (aEI m c)) (fun e => (congrFun (Keep.v3_W20 m ρ c) _).trans (dst_W1 m ρ c e))
    (dst_range m c hR) (W20 m ρ c (Proc.devRef .tc main_v64)) rfl (W20 m ρ c (Proc.devRef .tc main_v28)) rfl
    (W20 m ρ c (Proc.devRef .tc main_v57)) rfl (aBI m c) (Keep.arg3_W20 m ρ c) (aNW m c) (Keep.arg8_W20 m ρ c)
    (aNB m c) (Keep.arg9_W20 m ρ c) g o).trans ?_
  refine congrArg (fun H : NodeF 16 => head (aBI m c) H (aNW m c) (aNB m c) g o) (funext fun n => funext fun j => ?_)
  show max _ zero = max ((zero + ∑ e ∈ into (aEI m c) n,
        msg (aEI m c) (aEA m c) (ne2 (aX m c) (aEI m c) (aEA m c) (aW1n m c) (aW1e m c) (aW2n m c)) (aW2e m c) e j)
      + (dinv (aEI m c) n * dinv (aEI m c) n) * ne2 (aX m c) (aEI m c) (aEA m c) (aW1n m c) (aW1e m c) (aW2n m c) n j) zero
  refine congrArg (fun t : EReal => max t zero) ?_
  refine congrArg₂ (fun a b : EReal => a + b) (congrArg (fun s : EReal => zero + s) ?_) (congrArg₂ (fun a b : EReal => a * b) ?_ ?_)
  · exact Finset.sum_congr rfl fun e _ => v64_W20 m ρ c hR e j
  · exact (congrFun (Keep.v28_W20 m ρ c) _).trans (selfc_W1 m ρ c n)
  · exact (congrFun (Keep.v57_W20 m ρ c) _).trans (v57_W14 m ρ c hR n j)

end Cert.KernelIdeal.KValue

end
-- ==== Proof.RefNorm.lean ====
/-
  The first part of the reference computation, read at an index on the extended reals.

  The reference lists the 3200000 edges followed by one loop per node (position 3200000 + n is node n's loop, from n
  to n, with a zero attribute row), so its source, destination and attribute arrays have 3300000 rows. It counts the
  arrivals at each node over all 3300000 positions: the edges that arrive at n, plus exactly one for n's own loop.
  The scale of node n is the reciprocal square root of that count (which is at least one, so the guard against a zero
  count never takes its zero branch), and the weight of a position is the product of the scales of its two end nodes:
  for an edge the scales of its source and destination, for node n's loop the square of n's scale.
-/
import proofs.«401563_j56057913147714_2_alg».proof.Proof.RefRead
import proofs.«401563_j56057913147714_2_alg».proof.Proof.Spec
import proofs.«401563_j56057913147714_2_alg».proof.Proof.LibSegmentCount
import proofs.«401563_j56057913147714_2_alg».proof.Proof.LibRowIndex
import proofs.«401563_j56057913147714_2_alg».proof.Proof.LibColumn
import Idealize.ShloMosaic.Lib.ValueIdx
import Idealize.ShloMosaic.Lib.Pipeline.Value
import Mathlib.Algebra.BigOperators.Fin

noncomputable section

namespace Cert.ReferenceIdeal.RefNorm

open Idealize.ShloMosaic Idealize.ShloMosaic.ValueIdx Cert.Spec Cert.ReferenceIdeal Cert.ReferenceIdeal.Gen
open Cert.LibRowGather
open scoped BigOperators

/-! ## The three lists of 3300000 rows -/

/-- Row r of the edge table at column e, as the slice of that row flattened to a vector reads it. -/
private theorem row0_apply (ei : EdgeIx) (e : Fin 3200000) :
    ReadP.val_main_v2 (F := Ideal) ei (ix1 e) = srcW ei e := by
  rw [ReadP.val_main_v2_apply, ReadP.val_main_v1_apply]
  unfold srcW
  congr 1
  funext a
  refine Fin.ext ?_
  match a with
  | ⟨0, _⟩ => rfl
  | ⟨1, _⟩ => exact Nat.mod_eq_of_lt e.isLt

private theorem row1_apply (ei : EdgeIx) (e : Fin 3200000) :
    ReadP.val_main_v5 (F := Ideal) ei (ix1 e) = dstW ei e := by
  rw [ReadP.val_main_v5_apply, ReadP.val_main_v4_apply]
  unfold dstW
  congr 1
  funext a
  refine Fin.ext ?_
  match a with
  | ⟨0, _⟩ => rfl
  | ⟨1, _⟩ => exact Nat.mod_eq_of_lt e.isLt

/-- The sources: an edge's position holds the edge's source word. -/
theorem src_edge (ei : EdgeIx) (e : Fin 3200000) :
    ReadP.val_main_v3 (F := Ideal) ei (ix1 (cE e)) = srcW ei e := by
  unfold ReadP.val_main_v3
  exact (concatenate_pair_apply_left (s₁ := S3200000) (s₂ := S100000) (0 : Fin S3300000.rank) _ _ _ (ix1 (cE e)) rfl (ix1 e)
    (fun b => match b with | ⟨0, _⟩ => rfl)).trans (row0_apply ei e)

/-- The sources: node n's loop starts at n. -/
theorem src_loop (ei : EdgeIx) (n : Fin 100000) :
    ReadP.val_main_v3 (F := Ideal) ei (ix1 (cL n)) = BitVec.ofNat 32 n.val := by
  unfold ReadP.val_main_v3
  exact concatenate_pair_apply_right (s₁ := S3200000) (s₂ := S100000) (0 : Fin S3300000.rank) _ _ _ (ix1 (cL n)) rfl rfl (ix1 n)
    (fun b hb => absurd (Subsingleton.elim _ _) hb) (Nat.add_comm _ _)

/-- The destinations: an edge's position holds the edge's destination word. -/
theorem dst_edge (ei : EdgeIx) (e : Fin 3200000) :
    ReadP.val_main_v6 (F := Ideal) ei (ix1 (cE e)) = dstW ei e := by
  unfold ReadP.val_main_v6
  exact (concatenate_pair_apply_left (s₁ := S3200000) (s₂ := S100000) (0 : Fin S3300000.rank) _ _ _ (ix1 (cE e)) rfl (ix1 e)
    (fun b => match b with | ⟨0, _⟩ => rfl)).trans (row1_apply ei e)

/-- The destinations: node n's loop ends at n. -/
theorem dst_loop (ei : EdgeIx) (n : Fin 100000) :
    ReadP.val_main_v6 (F := Ideal) ei (ix1 (cL n)) = BitVec.ofNat 32 n.val := by
  unfold ReadP.val_main_v6
  exact concatenate_pair_apply_right (s₁ := S3200000) (s₂ := S100000) (0 : Fin S3300000.rank) _ _ _ (ix1 (cL n)) rfl rfl (ix1 n)
    (fun b hb => absurd (Subsingleton.elim _ _) hb) (Nat.add_comm _ _)

/-- The attributes: an edge's position holds the edge's attribute row. -/
theorem ea_edge (ea : EdgeAttr) (e : Fin 3200000) (k : Fin 16) :
    ReadP.val_main_v8 (F := Ideal) ea (ix2 (cE e) k) = ea (ix2 e k) := by
  unfold ReadP.val_main_v8
  exact concatenate_pair_apply_left (s₁ := S3200000x16) (s₂ := S100000x16) (0 : Fin S3300000x16.rank) _ _ _ (ix2 (cE e) k) rfl (ix2 e k)
    (fun b => match b with | ⟨0, _⟩ => rfl | ⟨1, _⟩ => rfl)

/-- The attributes: a loop's row is zero. -/
theorem ea_loop (ea : EdgeAttr) (n : Fin 100000) (k : Fin 16) :
    ReadP.val_main_v8 (F := Ideal) ea (ix2 (cL n) k) = Cert.Spec.zero := by
  unfold ReadP.val_main_v8
  refine (concatenate_pair_apply_right (s₁ := S3200000x16) (s₂ := S100000x16) (0 : Fin S3300000x16.rank) _ _ _ (ix2 (cL n) k) rfl rfl (ix2 n k)
    (fun b hb => match b, hb with
      | ⟨0, _⟩, hb => absurd rfl hb
      | ⟨1, _⟩, _ => rfl) (Nat.add_comm _ _)).trans ?_
  rw [ReadP.val_main_v7_apply]
  rfl

/-! ## The count of arrivals -/

/-- A node number written as a 32-bit word reads, as a signed integer, that number. -/
theorem toInt_ofNat_node (m : Fin 100000) : (BitVec.ofNat 32 m.val).toInt = (m.val : ℤ) := by
  have hm := m.isLt
  rw [BitVec.toInt_eq_toNat_cond, BitVec.toNat_ofNat]
  have : m.val % 2 ^ 32 = m.val := Nat.mod_eq_of_lt (by omega)
  rw [this, if_pos (by omega)]

/-- A sum over the 3300000 positions is the sum over the edges plus the sum over the loops. -/
theorem sum_positions (f : Fin 3300000 → EReal) :
    ∑ p : Fin 3300000, f p = (∑ e : Fin 3200000, f (cE e)) + ∑ m : Fin 100000, f (cL m) :=
  Fin.sum_univ_add (M := EReal) (a := 3200000) (b := 100000) f

/-- The index column of the counting scatter holds, at position p, the p-th destination word. -/
private theorem idxcol_apply (ei : EdgeIx) (p : Fin 3300000) :
    ReadP.val_main_v11 (F := Ideal) ei (ix2 p (0 : Fin 1)) = ReadP.val_main_v6 (F := Ideal) ei (ix1 p) := by
  unfold ReadP.val_main_v11
  exact LibColumn.broadcastInDim_a_a1_apply _ _ p 0

/-- The ones counted over the positions whose destination word reads n: the edges that arrive at n, and one more for
    n's own loop (no other loop ends at n). -/
theorem count_eq (ei : EdgeIx) (n : Fin 100000) :
    (∑ p ∈ Finset.univ.filter (fun p : Fin 3300000 =>
        (ReadP.val_main_v11 (F := Ideal) ei (ix2 p (0 : Fin 1))).toInt = (n.val : ℤ)),
        ReadP.val_main_v9 (F := Ideal) (ix1 p)) = cnt ei n + one := by
  have h9 : ∀ p : Fin 3300000, ReadP.val_main_v9 (F := Ideal) (ix1 p) = one := fun p => by
    rw [ReadP.val_main_v9_apply]; rfl
  -- the edges' positions: those whose destination word reads n
  have hE : (∑ e : Fin 3200000,
      if (ReadP.val_main_v11 (F := Ideal) ei (ix2 (cE e) (0 : Fin 1))).toInt = (n.val : ℤ)
        then ReadP.val_main_v9 (F := Ideal) (ix1 (cE e)) else 0) = cnt ei n := by
    have hc : cnt ei n = ∑ e : Fin 3200000, if (dstW ei e).toInt = (n.val : ℤ) then one else 0 :=
      Finset.sum_filter _ _
    rw [hc]
    refine Finset.sum_congr rfl (fun e _ => ?_)
    rw [idxcol_apply, dst_edge, h9]
  -- the loops' positions: exactly node n's
  have hL : (∑ m : Fin 100000,
      if (ReadP.val_main_v11 (F := Ideal) ei (ix2 (cL m) (0 : Fin 1))).toInt = (n.val : ℤ)
        then ReadP.val_main_v9 (F := Ideal) (ix1 (cL m)) else 0) = one := by
    rw [Finset.sum_eq_single n]
    · rw [idxcol_apply, dst_loop, h9, if_pos (toInt_ofNat_node n)]
    · intro m _ hm
      rw [idxcol_apply, dst_loop, toInt_ofNat_node, if_neg]
      intro h
      exact hm (Fin.ext (by exact_mod_cast h))
    · intro h
      exact absurd (Finset.mem_univ n) h
  rw [Finset.sum_filter, sum_positions, hE, hL]

/-- THE COUNT at node n: the edges that arrive at n, and one more for n's own loop. -/
theorem deg_eq (ei : EdgeIx) (n : Fin 100000) :
    ReadP.val_main_v12 (F := Ideal) ei (ix1 n) = (zero + cnt ei n) + one := by
  have h10 : ReadP.val_main_v10 (F := Ideal) (ix1 n) = zero := by
    rw [ReadP.val_main_v10_apply]; rfl
  unfold ReadP.val_main_v12
  show Host.scatterAdd (LibSegmentCount.vecScatterDims 100000 3300000
    scatter_S100000_S3300000x1_S3300000_n_0_0_1_wf) _ _ _ (ix1 n) = _
  rw [LibSegmentCount.scatterAdd_vec_apply, h10, count_eq]
  exact (add_assoc _ _ _).symm

/-- The count is positive. -/
theorem deg_pos (ei : EdgeIx) (n : Fin 100000) : zero < (zero + cnt ei n) + one := by
  have hc : (0 : EReal) ≤ cnt ei n := by
    unfold cnt
    refine Finset.sum_nonneg (fun _ _ => ?_)
    rw [one_eq]
    exact zero_le_one
  rw [zero_eq, one_eq, zero_add]
  exact lt_of_lt_of_le zero_lt_one (le_add_of_nonneg_left hc)

/-! ## The scales and the weights -/

/-- The comparison "greater than" of two extended reals, the first above the second, answers true. -/
private theorem cmp_ogt_of_lt (x y : EReal) (h : y < x) : Ideal.cmp .ogt x y = 1#1 := by
  unfold Ideal.cmp
  simp only [decide_eq_true h]
  rfl

/-- The scale of node n. -/
theorem dinv_eq (ei : EdgeIx) (n : Fin 100000) :
    ReadP.val_main_v18 (F := Ideal) ei (ix1 n) = Cert.Spec.dinv ei n := by
  have h13 : ReadP.val_main_v13 (F := Ideal) (ix1 n) = zero := by
    rw [ReadP.val_main_v13_apply]; rfl
  have h15 : ReadP.val_main_v15 (F := Ideal) (ix1 n) = one := by
    rw [ReadP.val_main_v15_apply]; rfl
  rw [ReadP.val_main_v18_apply, ReadP.val_main_v14_apply, ReadP.val_main_v17_apply, ReadP.val_main_v16_apply,
    deg_eq, h13, h15]
  rw [Ideal.cmpf_def, cmp_ogt_of_lt _ _ (deg_pos ei n), select_one, Ideal.hostUnary_rsqrt_def, Ideal.maximumf_def]
  rfl

/-- The lookup of the scales by the source words, at a position whose word is not negative (so that the wrap-around of
    negative positions leaves it alone): the scale of the node the word is clamped to. -/
private theorem take_src (ei : EdgeIx) (p : Fin 3300000)
    (h : 0 ≤ (ReadP.val_main_v3 (F := Ideal) ei (ix1 p)).toInt) :
    ReadP.val_main_v25 (F := Ideal) ei (ix1 p)
      = dinv ei (clampRow NN hNN (ReadP.val_main_v3 (F := Ideal) ei (ix1 p))) := by
  unfold ReadP.val_main_v25
  rw [RowIndex.take_apply hNN gather_S100000_S3300000x1_S3300000_n_0_n_n_0_1_1 rfl rfl rfl rfl, dinv_eq]
  congr 2
  have hcol : ReadP.val_main_v24 (F := Ideal) ei (ix2 p (0 : Fin 1)) = ReadP.val_main_v23 (F := Ideal) ei (ix1 p) := by
    unfold ReadP.val_main_v24
    exact LibColumn.broadcastInDim_a_a1_apply _ _ p 0
  have h19 : ReadP.val_main_v19 (F := Ideal) (ix1 p) = 0#32 := by
    rw [ReadP.val_main_v19_apply]; rfl
  rw [hcol, ReadP.val_main_v23_apply, ReadP.val_main_v20_apply, ReadP.val_main_v22_apply, h19]
  exact RowIndex.wrap_of_nonneg _ _ h

/-- The same by the destination words. -/
private theorem take_dst (ei : EdgeIx) (p : Fin 3300000)
    (h : 0 ≤ (ReadP.val_main_v6 (F := Ideal) ei (ix1 p)).toInt) :
    ReadP.val_main_v32 (F := Ideal) ei (ix1 p)
      = dinv ei (clampRow NN hNN (ReadP.val_main_v6 (F := Ideal) ei (ix1 p))) := by
  unfold ReadP.val_main_v32
  rw [RowIndex.take_apply hNN gather_S100000_S3300000x1_S3300000_n_0_n_n_0_1_1 rfl rfl rfl rfl, dinv_eq]
  congr 2
  have hcol : ReadP.val_main_v31 (F := Ideal) ei (ix2 p (0 : Fin 1)) = ReadP.val_main_v30 (F := Ideal) ei (ix1 p) := by
    unfold ReadP.val_main_v31
    exact LibColumn.broadcastInDim_a_a1_apply _ _ p 0
  have h26 : ReadP.val_main_v26 (F := Ideal) (ix1 p) = 0#32 := by
    rw [ReadP.val_main_v26_apply]; rfl
  rw [hcol, ReadP.val_main_v30_apply, ReadP.val_main_v27_apply, ReadP.val_main_v29_apply, h26]
  exact RowIndex.wrap_of_nonneg _ _ h

/-- The weight of an edge, its two words being node numbers. -/
theorem nrm_edge (ei : EdgeIx) (hR : Cert.Spec.InRange ei) (e : Fin 3200000) :
    ReadP.val_main_v33 (F := Ideal) ei (ix1 (cE e)) = Cert.Spec.nrm ei e := by
  rw [ReadP.val_main_v33_apply,
    take_src ei (cE e) (by rw [src_edge]; exact (hR 0 e).1),
    take_dst ei (cE e) (by rw [dst_edge]; exact (hR 1 e).1), src_edge, dst_edge]
  rfl

/-- The weight of node n's loop. -/
theorem nrm_loop (ei : EdgeIx) (n : Fin 100000) :
    ReadP.val_main_v33 (F := Ideal) ei (ix1 (cL n)) = Cert.Spec.dinv ei n * Cert.Spec.dinv ei n := by
  have h0 : (0 : ℤ) ≤ (BitVec.ofNat 32 n.val).toInt := by rw [toInt_ofNat_node]; exact Int.natCast_nonneg _
  rw [ReadP.val_main_v33_apply,
    take_src ei (cL n) (by rw [src_loop]; exact h0),
    take_dst ei (cL n) (by rw [dst_loop]; exact h0), src_loop, dst_loop,
    RowIndex.clampRow_of_toInt hNN _ n (toInt_ofNat_node n)]
  rfl

end Cert.ReferenceIdeal.RefNorm

end
-- ==== Proof.LibSumAlgebra.lean ====
/-
  The one algebraic law that joins the two programs.

  On the extended reals a product does not distribute over a sum in general, but a factor that is a non-negative
  real number does: c · (t₁ + … + tₙ) = c · t₁ + … + c · tₙ for 0 ≤ c < ⊤, whatever the terms are. With it, a scale
  that is constant over the terms of a sum may be applied once to the sum or once to every term: the destination's
  degree scale, taken out of the sum over the edges that arrive at one node, against the same scale gathered per
  edge inside the sum. Commuting and regrouping the factors of each term needs nothing of the kind.
-/
import Mathlib.Data.EReal.Operations
import Mathlib.Data.EReal.Inv
import Mathlib.Algebra.BigOperators.Group.Finset.Basic

noncomputable section

namespace Cert.SumAlgebra

open scoped BigOperators

/-- A non-negative real factor distributes over a finite sum of extended reals. -/
theorem mul_sum_of_nonneg {ι : Type*} (s : Finset ι) (c : EReal) (h0 : 0 ≤ c) (ht : c ≠ ⊤) (t : ι → EReal) :
    c * ∑ u ∈ s, t u = ∑ u ∈ s, c * t u := by
  classical
  induction s using Finset.induction_on with
  | empty => simp
  | insert a s ha ih =>
    rw [Finset.sum_insert ha, Finset.sum_insert ha, EReal.left_distrib_of_nonneg_of_ne_top h0 ht, ih]

/-- THE LAW. Over the terms `u` of a finite sum, let `a u` be the edge weight, `dr u` the source's scale, `dc u` the
    destination's scale gathered per edge and `h u` the source's feature. If the gathered destination scale is the one
    number `c` (non-negative, finite) on every term, then scaling the sum of `a · (dr · h)` by `c` is summing
    `((dr · dc) · a) · h`; a zero start of the sum and a bias added at the end ride along. -/
theorem scaled_sum_eq {ι : Type*} (s : Finset ι) (c : EReal) (h0 : 0 ≤ c) (ht : c ≠ ⊤) (a dr dc h : ι → EReal)
    (hdc : ∀ u ∈ s, dc u = c) (b : EReal) :
    c * (0 + ∑ u ∈ s, a u * (dr u * h u)) + b = (0 + ∑ u ∈ s, ((dr u * dc u) * a u) * h u) + b := by
  rw [zero_add, zero_add, mul_sum_of_nonneg s c h0 ht]
  congr 1
  refine Finset.sum_congr rfl fun u hu => ?_
  rw [hdc u hu]
  rw [mul_comm (dr u) c, mul_assoc c (dr u) (a u), mul_assoc c, mul_comm (dr u) (a u), mul_assoc (a u)]

end Cert.SumAlgebra

end
-- ==== Proof.RefConv.lean ====
/-
  One message-passing layer of the reference program, read at one entry, is the layer of the specification.

  The reference lists 3300000 positions: the 3200000 edges, then one loop per node (position 3200000 + n is node n's
  loop, from n to n, with a zero attribute row and the weight dinv n · dinv n). For node rows h it scatters, to the
  node each position's destination word names, the row  w(p) · (h(source of p) + attr(p) · Wₑ).  Read at (n, j) the
  scatter is the zero it starts from plus the sum over the positions whose destination word reads n. Those positions
  are the edges that arrive at n together with n's own loop and no other loop, so the sum is the sum over the
  arriving edges plus one more term. An edge's term is what the specification says the edge sends, because its
  weight is a non-negative real number and such a factor distributes over sums on the extended reals; the loop's
  term is dinv n² · h(n), its attribute row being zero.
-/
import proofs.«401563_j56057913147714_2_alg».proof.Proof.RefRead
import proofs.«401563_j56057913147714_2_alg».proof.Proof.Spec
import proofs.«401563_j56057913147714_2_alg».proof.Proof.LibSegmentSum
import proofs.«401563_j56057913147714_2_alg».proof.Proof.LibSumAlgebra
import proofs.«401563_j56057913147714_2_alg».proof.Proof.LibColumn
import proofs.«401563_j56057913147714_2_alg».proof.Proof.LibPlainMatmul
import Idealize.ShloMosaic.Lib.ValueIdx
import Idealize.ShloMosaic.Lib.Pipeline.Value
import Mathlib.Algebra.BigOperators.Fin

noncomputable section

namespace Cert.ReferenceIdeal.RefConv

open Cert.ReferenceIdeal Cert.ReferenceIdeal.Gen Idealize.ShloMosaic Idealize.ShloMosaic.TcCoe Idealize.SL.Sem Idealize.ShloMosaic.StableHlo
open Idealize.ShloMosaic.ValueIdx Cert.LibRowGather Cert.RowIndex Cert.Spec
open scoped BigOperators

/-! ## The three records of dimension numbers, in the forms the general lemmas are stated for -/

theorem scatter_eq : scatter_S100000x16_S3300000x1_S3300000x16_1_0_0_1
    = rowScatterDims 100000 16 3300000 scatter_S100000x16_S3300000x1_S3300000x16_1_0_0_1_wf := rfl

theorem gather_eq : gather_S100000x16_S3300000x1_S3300000x16_1_0_n_n_0_1_116
    = rowDims 100000 16 3300000 gather_S100000x16_S3300000x1_S3300000x16_1_0_n_n_0_1_116_wf := rfl

/-! ## The operations of the update row, read at an entry -/

/-- The product of the 3300000 rows of width 16 with a 16 × 16 matrix, read at (p, j). -/
theorem dot_apply (a : S3300000x16.Idx → EReal) (W : S16x16.Idx → EReal) (p : Fin 3300000) (j : Fin 16) :
    Host.dotGeneral (F := Ideal) (φ₁ := .f32) (φ₂ := .f32) dot_S3300000x16_S16x16_S3300000x16_1_0_0_1_n_n none a W (ix2 p j)
      = ∑ k : Fin 16, a (ix2 p k) * W (ix2 k j) := by
  show FloatOps.dotGeneral (F := Ideal) (φ₁ := .f32) (φ₂ := .f32) (DotDims.plain 3300000 16 16) none .single a W (ix2 p j) = _
  rw [Ideal.dotGeneral_apply, ← Equiv.sum_comp (contrEquiv1 (DotDims.plain 3300000 16 16) 16 rfl rfl).symm]
  refine Finset.sum_congr rfl fun k _ => ?_
  rw [Cert.LibPlainMatmul.lhsIdx_plain, Cert.LibPlainMatmul.rhsIdx_plain]

/-- A vector made a column and then spread over 16 columns reads, at (p, j), the vector's entry p. -/
theorem spread_apply (v : S3300000.Idx → EReal) (p : Fin 3300000) (j : Fin 16) :
    broadcastInDim S3300000x16 ![0, 1] bcast_S3300000x1_S3300000x16_0_1
      (broadcastInDim S3300000x1 ![0] bcast_S3300000_S3300000x1_0 v) (ix2 p j) = v (ix1 p) := by
  rw [broadcastInDim_apply _ bcast_S3300000x1_S3300000x16_0_1 _ (ix2 p j) (ix2 p (0 : Fin 1)) (fun a => match a with
    | ⟨0, _⟩ => by show p.val = if (3300000 : Nat) = 1 then 0 else p.val; rw [if_neg (by decide)]
    | ⟨1, _⟩ => by show 0 = if (1 : Nat) = 1 then 0 else j.val; rw [if_pos rfl])]
  exact Cert.LibColumn.broadcastInDim_a_a1_apply v bcast_S3300000_S3300000x1_0 p 0

/-- The source word of position p after the wrap-around of negative words (add 100000 where the word is negative). -/
def wrapW (srcc : S3300000.Idx → BitVec 32) (p : Fin 3300000) : BitVec 32 :=
  Scalar.select (IntOp.cmpi .slt (srcc (ix1 p)) 0#32) (IntOp.addi (srcc (ix1 p)) 100000#32) (srcc (ix1 p))

/-- THE UPDATE ROW AT (p, j): the position's weight times (the node row its wrapped, clamped source word names, plus
    the position's attribute row through the matrix). -/
theorem upd_apply (srcc : S3300000.Idx → BitVec 32) (nrmv : S3300000.Idx → EReal) (ea8 : S3300000x16.Idx → EReal)
    (ne : S100000x16.Idx → EReal) (We : S16x16.Idx → EReal) (p : Fin 3300000) (j : Fin 16) :
    mulf (F := Ideal) (φ := .f32)
        (broadcastInDim S3300000x16 ![0, 1] bcast_S3300000x1_S3300000x16_0_1 (broadcastInDim S3300000x1 ![0] bcast_S3300000_S3300000x1_0 nrmv))
        (addf (F := Ideal) (φ := .f32)
          (Host.gather gather_S100000x16_S3300000x1_S3300000x16_1_0_n_n_0_1_116 ne
            (broadcastInDim S3300000x1 ![0] bcast_S3300000_S3300000x1_0
              (select (cmpi .slt srcc (broadcastInDim S3300000 ![] bcast_S_S3300000 (constantI S_ 32 0#32)))
                (addi srcc (broadcastInDim S3300000 ![] bcast_S_S3300000 (constantI S_ 32 100000#32))) srcc)))
          (Host.dotGeneral (F := Ideal) (φ₁ := .f32) (φ₂ := .f32) dot_S3300000x16_S16x16_S3300000x16_1_0_0_1_n_n none ea8 We)) (ix2 p j)
      = nrmv (ix1 p) * (ne (ix2 (clampRow 100000 hNN (wrapW srcc p)) j) + ∑ k : Fin 16, ea8 (ix2 p k) * We (ix2 k j)) := by
  rw [mulf_apply, addf_apply, spread_apply, dot_apply, gather_eq, gather_row_apply hNN,
    Cert.LibColumn.broadcastInDim_a_a1_apply _ bcast_S3300000_S3300000x1_0 p 0]
  rfl

/-! ## Words -/

/-- The word of a node number reads, as a signed integer, the node number. -/
theorem toInt_node (n : Fin 100000) : (BitVec.ofNat 32 n.val).toInt = (n.val : ℤ) := by
  have hn : n.val < 100000 := n.isLt
  have h1 : (BitVec.ofNat 32 n.val).toNat = n.val := by
    rw [BitVec.toNat_ofNat]
    exact Nat.mod_eq_of_lt (by omega)
  rw [BitVec.toInt_eq_toNat_of_lt (by rw [h1]; omega), h1]

/-- An edge's source word is a node number, so the wrap-around leaves it alone and its clamp is the edge's source. -/
theorem clamp_wrap_edge (ei : EdgeIx) (hR : InRange ei) (srcc : S3300000.Idx → BitVec 32)
    (hs : ∀ e : Fin 3200000, srcc (ix1 (cE e)) = srcW ei e) (e : Fin 3200000) :
    clampRow 100000 hNN (wrapW srcc (cE e)) = srcN ei e := by
  have h0 : 0 ≤ (srcW ei e).toInt := (hR 0 e).1
  unfold wrapW
  rw [hs e, wrap_of_nonneg _ _ h0]
  rfl

/-- A loop's source word is its node's number: the wrap-around leaves it alone and its clamp is the node. -/
theorem clamp_wrap_loop (srcc : S3300000.Idx → BitVec 32)
    (hsl : ∀ n : Fin 100000, srcc (ix1 (cL n)) = BitVec.ofNat 32 n.val) (n : Fin 100000) :
    clampRow 100000 hNN (wrapW srcc (cL n)) = n := by
  unfold wrapW
  rw [hsl n, wrap_of_nonneg _ _ (by rw [toInt_node]; exact Int.natCast_nonneg _)]
  exact clampRow_of_toInt hNN _ n (toInt_node n)

/-! ## Sums over the positions -/

/-- A sum over the 3300000 positions is the sum over the edges plus the sum over the loops. -/
theorem sum_positions {M : Type*} [AddCommMonoid M] (g : Fin 3300000 → M) :
    ∑ p, g p = (∑ e : Fin 3200000, g (cE e)) + ∑ n : Fin 100000, g (cL n) :=
  Fin.sum_univ_add (a := 3200000) (b := 100000) g

/-- The same for the positions a condition picks. -/
theorem sum_filter_positions {M : Type*} [AddCommMonoid M] (P : Fin 3300000 → Prop) [DecidablePred P] (g : Fin 3300000 → M) :
    ∑ p ∈ Finset.univ.filter P, g p
      = (∑ e ∈ (Finset.univ : Finset (Fin 3200000)).filter (fun e => P (cE e)), g (cE e))
        + ∑ n ∈ (Finset.univ : Finset (Fin 100000)).filter (fun n => P (cL n)), g (cL n) := by
  rw [Finset.sum_filter, Finset.sum_filter, Finset.sum_filter]
  exact sum_positions fun p => if P p then g p else 0

/-! ## The algebra -/

/-- WHAT AN EDGE SENDS: its weight, a non-negative real number, distributes over the sum inside the bracket and over
    the sum of the matrix product. -/
theorem msg_eq (ei : EdgeIx) (ea : EdgeAttr) (ne : Fin 100000 → Fin 16 → EReal) (We : S16x16.Idx → EReal)
    (e : Fin 3200000) (j : Fin 16) :
    nrm ei e * (ne (srcN ei e) j + ∑ k : Fin 16, ea (ix2 e k) * We (ix2 k j)) = msg ei ea ne We e j := by
  unfold msg
  rw [EReal.left_distrib_of_nonneg_of_ne_top (nrm_nonneg ei e) (nrm_ne_top ei e),
    Cert.SumAlgebra.mul_sum_of_nonneg _ _ (nrm_nonneg ei e) (nrm_ne_top ei e),
    add_comm (nrm ei e * ne (srcN ei e) j)]
  exact congrArg (· + nrm ei e * ne (srcN ei e) j) (Finset.sum_congr rfl fun k _ => (mul_assoc _ _ _).symm)

/-- THE SCATTER IS THE LAYER. A scatter-add into zeros, by an index column that holds the edges' destination words and
    then the nodes' own numbers, of update rows that hold what the edges send and then the loops' rows, reads at (n, j)
    what node n holds after one layer. -/
theorem agg_of_scatter (ei : EdgeIx) (ea : EdgeAttr) (ne : Fin 100000 → Fin 16 → EReal) (We : S16x16.Idx → EReal)
    (x : S100000x16.Idx → EReal) (idx : S3300000x1.Idx → BitVec 32) (upd : S3300000x16.Idx → EReal)
    (hx : ∀ (n : Fin 100000) (j : Fin 16), x (ix2 n j) = zero)
    (hd : ∀ e : Fin 3200000, idx (ix2 (cE e) (0 : Fin 1)) = dstW ei e)
    (hdl : ∀ n : Fin 100000, idx (ix2 (cL n) (0 : Fin 1)) = BitVec.ofNat 32 n.val)
    (hue : ∀ (e : Fin 3200000) (j : Fin 16),
      upd (ix2 (cE e) j) = nrm ei e * (ne (srcN ei e) j + ∑ k : Fin 16, ea (ix2 e k) * We (ix2 k j)))
    (hul : ∀ (n : Fin 100000) (j : Fin 16),
      upd (ix2 (cL n) j) = (dinv ei n * dinv ei n) * (ne n j + ∑ k : Fin 16, zero * We (ix2 k j)))
    (n : Fin 100000) (j : Fin 16) :
    Host.scatterAdd (F := Ideal) (φ := .f32) scatter_S100000x16_S3300000x1_S3300000x16_1_0_0_1 x idx upd (ix2 n j)
      = agg ei ea ne We n j := by
  rw [scatter_eq, Cert.LibSegmentSum.scatterAdd_row_apply,
    sum_filter_positions (fun p => (idx (ix2 p (0 : Fin 1))).toInt = (n.val : ℤ)) (fun p => upd (ix2 p j))]
  -- the edges whose destination word reads n are the edges that arrive at n
  have hE : (Finset.univ.filter fun e : Fin 3200000 => (idx (ix2 (cE e) (0 : Fin 1))).toInt = (n.val : ℤ)) = into ei n := by
    unfold into
    exact Finset.filter_congr fun e _ => by rw [hd e]
  -- the one loop whose destination word reads n is n's own
  have hL : (Finset.univ.filter fun m : Fin 100000 => (idx (ix2 (cL m) (0 : Fin 1))).toInt = (n.val : ℤ)) = {n} := by
    ext m
    rw [Finset.mem_filter, Finset.mem_singleton, hdl m, toInt_node m]
    constructor
    · rintro ⟨_, h⟩
      exact Fin.ext (by exact_mod_cast h)
    · rintro rfl
      exact ⟨Finset.mem_univ _, rfl⟩
  rw [hE, hL, Finset.sum_singleton, hx n j, hul n j]
  -- the loop's attribute row is zero
  have h0 : (∑ k : Fin 16, zero * We (ix2 k j)) = 0 := by
    rw [zero_eq]
    exact Finset.sum_eq_zero fun k _ => zero_mul _
  -- every arriving edge's row is what the edge sends
  have hS : ∑ e ∈ into ei n, upd (ix2 (cE e) j) = ∑ e ∈ into ei n, msg ei ea ne We e j :=
    Finset.sum_congr rfl fun e _ => by rw [hue e j, msg_eq]
  rw [h0, add_zero, ← add_assoc, hS]
  rfl

/-! ## The layer of the reference -/

/-- ONE LAYER OF THE REFERENCE, generic in the arrays it reads (given at the edges' and at the loops' positions). -/
theorem conv_apply (ei : EdgeIx) (ea : EdgeAttr) (hR : InRange ei)
    (srcc dstc : S3300000.Idx → BitVec 32) (nrmv : S3300000.Idx → EReal) (ea8 : S3300000x16.Idx → EReal)
    (ne : S100000x16.Idx → EReal) (We : S16x16.Idx → EReal)
    (hs : ∀ e : Fin 3200000, srcc (ix1 (cE e)) = srcW ei e) (hsl : ∀ n : Fin 100000, srcc (ix1 (cL n)) = BitVec.ofNat 32 n.val)
    (hd : ∀ e : Fin 3200000, dstc (ix1 (cE e)) = dstW ei e) (hdl : ∀ n : Fin 100000, dstc (ix1 (cL n)) = BitVec.ofNat 32 n.val)
    (hn : ∀ e : Fin 3200000, nrmv (ix1 (cE e)) = nrm ei e) (hnl : ∀ n : Fin 100000, nrmv (ix1 (cL n)) = dinv ei n * dinv ei n)
    (he : ∀ (e : Fin 3200000) (k : Fin 16), ea8 (ix2 (cE e) k) = ea (ix2 e k))
    (hel : ∀ (n : Fin 100000) (k : Fin 16), ea8 (ix2 (cL n) k) = zero)
    (n : Fin 100000) (j : Fin 16) :
    Host.scatterAdd (F := Ideal) (φ := .f32) scatter_S100000x16_S3300000x1_S3300000x16_1_0_0_1
        (broadcastInDim S100000x16 ![] bcast_S_S100000x16 (constant (F := Ideal) S_ .f32 0x00000000#32))
        (broadcastInDim S3300000x1 ![0] bcast_S3300000_S3300000x1_0 dstc)
        (mulf (F := Ideal) (φ := .f32)
          (broadcastInDim S3300000x16 ![0, 1] bcast_S3300000x1_S3300000x16_0_1 (broadcastInDim S3300000x1 ![0] bcast_S3300000_S3300000x1_0 nrmv))
          (addf (F := Ideal) (φ := .f32)
            (Host.gather gather_S100000x16_S3300000x1_S3300000x16_1_0_n_n_0_1_116 ne
              (broadcastInDim S3300000x1 ![0] bcast_S3300000_S3300000x1_0
                (select (cmpi .slt srcc (broadcastInDim S3300000 ![] bcast_S_S3300000 (constantI S_ 32 0#32)))
                  (addi srcc (broadcastInDim S3300000 ![] bcast_S_S3300000 (constantI S_ 32 100000#32))) srcc)))
            (Host.dotGeneral (F := Ideal) (φ₁ := .f32) (φ₂ := .f32) dot_S3300000x16_S16x16_S3300000x16_1_0_0_1_n_n none ea8 We)))
        (ix2 n j)
      = agg ei ea (fun n j => ne (ix2 n j)) We n j := by
  refine agg_of_scatter ei ea (fun n j => ne (ix2 n j)) We _ _ _ (fun _ _ => rfl) ?_ ?_ ?_ ?_ n j
  · intro e
    rw [Cert.LibColumn.broadcastInDim_a_a1_apply _ bcast_S3300000_S3300000x1_0 (cE e) 0, hd e]
  · intro m
    rw [Cert.LibColumn.broadcastInDim_a_a1_apply _ bcast_S3300000_S3300000x1_0 (cL m) 0, hdl m]
  · intro e j
    rw [upd_apply, hn e, clamp_wrap_edge ei hR srcc hs e]
    exact congrArg (fun t => nrm ei e * (ne (ix2 (srcN ei e) j) + t)) (Finset.sum_congr rfl fun k _ => by rw [he e k])
  · intro m j
    rw [upd_apply, hnl m, clamp_wrap_loop srcc hsl m]
    exact congrArg (fun t => (dinv ei m * dinv ei m) * (ne (ix2 m j) + t)) (Finset.sum_congr rfl fun k _ => by rw [hel m k])

/-! ## The two layers of the reference -/

/-- THE FIRST LAYER: the reference's first scatter, read at (n, j), is the layer of the specification on the node rows
    the first node-wise linear map gives, once the position arrays it reads are known at the edges and at the loops. -/
theorem conv1 (ei : EdgeIx) (ea : EdgeAttr) (hR : InRange ei)
    (x0 : (⟨S100000x128, .f32⟩ : BufTy).Contents (Elt Ideal)) (x1 : (⟨S2x3200000, .i32⟩ : BufTy).Contents (Elt Ideal))
    (x2 : (⟨S3200000x16, .f32⟩ : BufTy).Contents (Elt Ideal)) (x4 : (⟨S128x16, .f32⟩ : BufTy).Contents (Elt Ideal))
    (x5 : (⟨S16x16, .f32⟩ : BufTy).Contents (Elt Ideal))
    (hs : ∀ e : Fin 3200000, ReadP.val_main_v3 (F := Ideal) x1 (ix1 (cE e)) = srcW ei e)
    (hsl : ∀ n : Fin 100000, ReadP.val_main_v3 (F := Ideal) x1 (ix1 (cL n)) = BitVec.ofNat 32 n.val)
    (hd : ∀ e : Fin 3200000, ReadP.val_main_v6 (F := Ideal) x1 (ix1 (cE e)) = dstW ei e)
    (hdl : ∀ n : Fin 100000, ReadP.val_main_v6 (F := Ideal) x1 (ix1 (cL n)) = BitVec.ofNat 32 n.val)
    (hn : ∀ e : Fin 3200000, ReadP.val_main_v33 (F := Ideal) x1 (ix1 (cE e)) = nrm ei e)
    (hnl : ∀ n : Fin 100000, ReadP.val_main_v33 (F := Ideal) x1 (ix1 (cL n)) = dinv ei n * dinv ei n)
    (he : ∀ (e : Fin 3200000) (k : Fin 16), ReadP.val_main_v8 (F := Ideal) x2 (ix2 (cE e) k) = ea (ix2 e k))
    (hel : ∀ (n : Fin 100000) (k : Fin 16), ReadP.val_main_v8 (F := Ideal) x2 (ix2 (cL n) k) = zero)
    (n : Fin 100000) (j : Fin 16) :
    ReadP.val_main_v49 (F := Ideal) x0 x1 x2 x4 x5 (ix2 n j)
      = agg ei ea (fun n j => ReadP.val_main_v34 (F := Ideal) x0 x4 (ix2 n j)) x5 n j :=
  conv_apply ei ea hR (ReadP.val_main_v3 (F := Ideal) x1) (ReadP.val_main_v6 (F := Ideal) x1) (ReadP.val_main_v33 (F := Ideal) x1)
    (ReadP.val_main_v8 (F := Ideal) x2) (ReadP.val_main_v34 (F := Ideal) x0 x4) x5 hs hsl hd hdl hn hnl he hel n j

/-- THE SECOND LAYER: the same for the reference's second scatter, on the node rows the second node-wise linear map
    gives and with the second edge matrix. -/
theorem conv2 (ei : EdgeIx) (ea : EdgeAttr) (hR : InRange ei)
    (x0 : (⟨S100000x128, .f32⟩ : BufTy).Contents (Elt Ideal)) (x1 : (⟨S2x3200000, .i32⟩ : BufTy).Contents (Elt Ideal))
    (x2 : (⟨S3200000x16, .f32⟩ : BufTy).Contents (Elt Ideal)) (x4 : (⟨S128x16, .f32⟩ : BufTy).Contents (Elt Ideal))
    (x5 x6 x7 : (⟨S16x16, .f32⟩ : BufTy).Contents (Elt Ideal))
    (hs : ∀ e : Fin 3200000, ReadP.val_main_v3 (F := Ideal) x1 (ix1 (cE e)) = srcW ei e)
    (hsl : ∀ n : Fin 100000, ReadP.val_main_v3 (F := Ideal) x1 (ix1 (cL n)) = BitVec.ofNat 32 n.val)
    (hd : ∀ e : Fin 3200000, ReadP.val_main_v6 (F := Ideal) x1 (ix1 (cE e)) = dstW ei e)
    (hdl : ∀ n : Fin 100000, ReadP.val_main_v6 (F := Ideal) x1 (ix1 (cL n)) = BitVec.ofNat 32 n.val)
    (hn : ∀ e : Fin 3200000, ReadP.val_main_v33 (F := Ideal) x1 (ix1 (cE e)) = nrm ei e)
    (hnl : ∀ n : Fin 100000, ReadP.val_main_v33 (F := Ideal) x1 (ix1 (cL n)) = dinv ei n * dinv ei n)
    (he : ∀ (e : Fin 3200000) (k : Fin 16), ReadP.val_main_v8 (F := Ideal) x2 (ix2 (cE e) k) = ea (ix2 e k))
    (hel : ∀ (n : Fin 100000) (k : Fin 16), ReadP.val_main_v8 (F := Ideal) x2 (ix2 (cL n) k) = zero)
    (n : Fin 100000) (j : Fin 16) :
    ReadP.val_main_v66 (F := Ideal) x0 x1 x2 x4 x5 x6 x7 (ix2 n j)
      = agg ei ea (fun n j => ReadP.val_main_v51 (F := Ideal) x0 x1 x2 x4 x5 x6 (ix2 n j)) x7 n j :=
  conv_apply ei ea hR (ReadP.val_main_v3 (F := Ideal) x1) (ReadP.val_main_v6 (F := Ideal) x1) (ReadP.val_main_v33 (F := Ideal) x1)
    (ReadP.val_main_v8 (F := Ideal) x2) (ReadP.val_main_v51 (F := Ideal) x0 x1 x2 x4 x5 x6) x7 hs hsl hd hdl hn hnl he hel n j

end Cert.ReferenceIdeal.RefConv

end
-- ==== Proof.RefTail.lean ====
/-
  The small stages of the reference computation between and after its two message-passing layers, read at an
  index on the extended reals.

  The first layer's node rows are the feature rows times the first node weight matrix; after each layer the
  rectifier takes the larger of an entry and zero; the second layer's node rows are the rectified rows times the
  second node weight matrix. After the second rectifier the nodes are pooled by group: the number of nodes that
  carry label g (a scatter-add of ones), the sum of their rows (a scatter-add of the rows), the quotient of the sum
  by the larger of the count and one, and last an affine map of the 16 pooled columns to 8 outputs.
-/
import proofs.«401563_j56057913147714_2_alg».proof.Proof.RefRead
import proofs.«401563_j56057913147714_2_alg».proof.Proof.Spec
import proofs.«401563_j56057913147714_2_alg».proof.Proof.LibSegmentSum
import proofs.«401563_j56057913147714_2_alg».proof.Proof.LibSegmentCount
import Idealize.ShloMosaic.Lib.ValueIdx
import Idealize.ShloMosaic.PureOps.Ideal

noncomputable section

namespace Cert.ReferenceIdeal.RefTail

open Idealize.ShloMosaic Idealize.ShloMosaic.ValueIdx Cert.Spec Cert.ReferenceIdeal Cert.ReferenceIdeal.Gen
open scoped BigOperators

/-- The ten arguments: the node features, the edge table, the edge attributes, the group labels, the four layer
    weight matrices, the final weight matrix and the final bias. -/
abbrev NodeX := (⟨2, ![100000, 128]⟩ : Shape).Idx → EReal
abbrev Labels := (⟨1, ![100000]⟩ : Shape).Idx → BitVec 32
abbrev Bias := (⟨1, ![8]⟩ : Shape).Idx → EReal

/-- The first layer's node rows: the feature rows times the first node weight matrix. -/
theorem ne1_ref (x0 : NodeX) (x4 : Wt 128 16) (n : Fin 100000) (j : Fin 16) :
    ReadP.val_main_v34 (F := Ideal) x0 x4 (ix2 n j) = Cert.Spec.ne1 x0 x4 n j := by
  rw [ReadP.val_main_v34_apply]
  show _ = ∑ k : Fin 128, x0 (ix2 n k) * x4 (ix2 k j)
  refine Finset.sum_congr rfl fun k _ => ?_
  -- the contraction reads row n of the features at k and column j of the weights at k
  have hl : ReadP.lidx_main_v34 (ix2 n j) k = ix2 n k :=
    funext fun a => Fin.ext (by match a with | ⟨0, _⟩ => rfl | ⟨1, _⟩ => rfl)
  have hr : ReadP.ridx_main_v34 (ix2 n j) k = ix2 k j :=
    funext fun a => Fin.ext (by match a with | ⟨0, _⟩ => rfl | ⟨1, _⟩ => rfl)
  rw [hl, hr]

/-- The first rectifier: the larger of the first layer's entry and zero. -/
theorem relu1_ref (x0 : NodeX) (x1 : EdgeIx) (x2 : EdgeAttr) (x4 : Wt 128 16) (x5 : Wt 16 16)
    (n : Fin 100000) (j : Fin 16) :
    ReadP.val_main_v50 (F := Ideal) x0 x1 x2 x4 x5 (ix2 n j)
      = max (ReadP.val_main_v49 (F := Ideal) x0 x1 x2 x4 x5 (ix2 n j)) Cert.Spec.zero := by
  rw [ReadP.val_main_v50_apply, ReadP.val_main_call1_v0_apply, ReadP.val_main_call1_cst_apply]
  rfl

/-- The second layer's node rows: the rectified rows times the second node weight matrix. -/
theorem ne2_ref (x0 : NodeX) (x1 : EdgeIx) (x2 : EdgeAttr) (x4 : Wt 128 16) (x5 x6 : Wt 16 16)
    (n : Fin 100000) (j : Fin 16) :
    ReadP.val_main_v51 (F := Ideal) x0 x1 x2 x4 x5 x6 (ix2 n j)
      = ∑ k : Fin 16, ReadP.val_main_v50 (F := Ideal) x0 x1 x2 x4 x5 (ix2 n k) * x6 (ix2 k j) := by
  rw [ReadP.val_main_v51_apply]
  refine Finset.sum_congr rfl fun k _ => ?_
  have hl : ReadP.lidx_main_v51 (ix2 n j) k = ix2 n k :=
    funext fun a => Fin.ext (by match a with | ⟨0, _⟩ => rfl | ⟨1, _⟩ => rfl)
  have hr : ReadP.ridx_main_v51 (ix2 n j) k = ix2 k j :=
    funext fun a => Fin.ext (by match a with | ⟨0, _⟩ => rfl | ⟨1, _⟩ => rfl)
  rw [hl, hr]

/-- The second rectifier: the larger of the second layer's entry and zero. -/
theorem relu2_ref (x0 : NodeX) (x1 : EdgeIx) (x2 : EdgeAttr) (x4 : Wt 128 16) (x5 x6 x7 : Wt 16 16)
    (n : Fin 100000) (j : Fin 16) :
    ReadP.val_main_v67 (F := Ideal) x0 x1 x2 x4 x5 x6 x7 (ix2 n j)
      = max (ReadP.val_main_v66 (F := Ideal) x0 x1 x2 x4 x5 x6 x7 (ix2 n j)) Cert.Spec.zero := by
  rw [ReadP.val_main_v67_apply, ReadP.val_main_call2_v0_apply, ReadP.val_main_call2_cst_apply]
  rfl

/-! ## The pooling by group -/

/-- The label column read at row e is node e's label. -/
theorem label_count (x3 : Labels) (e : Fin 100000) :
    ReadP.val_main_v70 (F := Ideal) x3 (ix2 e (0 : Fin 1)) = x3 (ix1 e) := by
  rw [ReadP.val_main_v70_apply]
  exact congrArg x3 (funext fun a => Fin.ext (by match a with | ⟨0, _⟩ => rfl))

/-- The same column as the row scatter reads it. -/
theorem label_sum (x3 : Labels) (e : Fin 100000) :
    ReadP.val_main_v73 (F := Ideal) x3 (ix2 e (0 : Fin 1)) = x3 (ix1 e) := by
  rw [ReadP.val_main_v73_apply]
  exact congrArg x3 (funext fun a => Fin.ext (by match a with | ⟨0, _⟩ => rfl))

/-- The group counts: zero plus a one for every node that carries label g. -/
theorem count_ref (x3 : Labels) (g : Fin 64) :
    ReadP.val_main_v71 (F := Ideal) x3 (ix1 g) = Cert.Spec.zero + ∑ _n ∈ grp x3 g, Cert.Spec.one := by
  refine (Cert.LibSegmentCount.scatterAdd_vec_apply (N := 64) (E := 100000) (φ := .f32)
    scatter_S64_S100000x1_S100000_n_0_0_1.wf (ReadP.val_main_v69 (F := Ideal))
    (ReadP.val_main_v70 (F := Ideal) x3) (ReadP.val_main_v68 (F := Ideal)) g).trans ?_
  refine congrArg₂ (· + ·) ?_ (Finset.sum_congr ?_ fun e _ => ?_)
  · rw [ReadP.val_main_v69_apply, ReadP.val_main_cst_15_apply]
    rfl
  · ext e
    simp only [grp, Finset.mem_filter, Finset.mem_univ, true_and, label_count]
  · rw [ReadP.val_main_v68_apply, ReadP.val_main_cst_14_apply]
    rfl

/-- The group sums: zero plus the rows of the nodes that carry label g, column by column. -/
theorem sums_ref (x0 : NodeX) (x1 : EdgeIx) (x2 : EdgeAttr) (x3 : Labels) (x4 : Wt 128 16) (x5 x6 x7 : Wt 16 16)
    (H : Cert.Spec.NodeF 16)
    (hH : ∀ (n : Fin 100000) (j : Fin 16), ReadP.val_main_v67 (F := Ideal) x0 x1 x2 x4 x5 x6 x7 (ix2 n j) = H n j)
    (g : Fin 64) (k : Fin 16) :
    ReadP.val_main_v74 (F := Ideal) x0 x1 x2 x3 x4 x5 x6 x7 (ix2 g k)
      = Cert.Spec.zero + ∑ n ∈ grp x3 g, H n k := by
  refine (Cert.LibSegmentSum.scatterAdd_row_apply (N := 64) (D := 16) (E := 100000) (φ := .f32)
    scatter_S64x16_S100000x1_S100000x16_1_0_0_1.wf (ReadP.val_main_v72 (F := Ideal))
    (ReadP.val_main_v73 (F := Ideal) x3) (ReadP.val_main_v67 (F := Ideal) x0 x1 x2 x4 x5 x6 x7) g k).trans ?_
  refine congrArg₂ (· + ·) ?_ (Finset.sum_congr ?_ fun e _ => ?_)
  · rw [ReadP.val_main_v72_apply, ReadP.val_main_cst_16_apply]
    rfl
  · ext e
    simp only [grp, Finset.mem_filter, Finset.mem_univ, true_and, label_sum]
  · exact hH e k

/-- The divisor, spread over the 16 columns of group g: the larger of the group's count and one. -/
theorem denom_ref (x3 : Labels) (g : Fin 64) (k : Fin 16) :
    ReadP.val_main_v78 (F := Ideal) x3 (ix2 g k)
      = max (Cert.Spec.zero + ∑ _n ∈ grp x3 g, Cert.Spec.one) Cert.Spec.one := by
  rw [ReadP.val_main_v78_apply, ReadP.val_main_v77_apply]
  have hi : ReadP.idx_main_v77 (ReadP.idx_main_v78 (ix2 g k)) = ix1 g :=
    funext fun a => Fin.ext (by match a with | ⟨0, _⟩ => rfl)
  rw [hi, ReadP.val_main_v76_apply, count_ref, ReadP.val_main_v75_apply, ReadP.val_main_cst_17_apply]
  rfl

/-- The group means. -/
theorem pooled_ref (x0 : NodeX) (x1 : EdgeIx) (x2 : EdgeAttr) (x3 : Labels) (x4 : Wt 128 16) (x5 x6 x7 : Wt 16 16)
    (H : Cert.Spec.NodeF 16)
    (hH : ∀ (n : Fin 100000) (j : Fin 16), ReadP.val_main_v67 (F := Ideal) x0 x1 x2 x4 x5 x6 x7 (ix2 n j) = H n j)
    (g : Fin 64) (k : Fin 16) :
    ReadP.val_main_v79 (F := Ideal) x0 x1 x2 x3 x4 x5 x6 x7 (ix2 g k) = pooled x3 H g k := by
  rw [ReadP.val_main_v79_apply, sums_ref x0 x1 x2 x3 x4 x5 x6 x7 H hH, denom_ref]
  rfl

/-- The bias, spread over the 64 groups. -/
theorem bias_ref (x9 : Bias) (g : Fin 64) (o : Fin 8) :
    ReadP.val_main_v82 (F := Ideal) x9 (ix2 g o) = x9 (ix1 o) := by
  rw [ReadP.val_main_v82_apply, ReadP.val_main_v81_apply]
  exact congrArg x9 (funext fun a => Fin.ext (by match a with | ⟨0, _⟩ => rfl))

/-- The pooling and the final affine map: with H the node rows after the second rectifier, the result at group g
    and output column o is the final map of the group means of H. -/
theorem tail_ref (x0 : NodeX) (x1 : EdgeIx) (x2 : EdgeAttr) (x3 : Labels) (x4 : Wt 128 16) (x5 x6 x7 : Wt 16 16)
    (x8 : Wt 16 8) (x9 : Bias) (H : Cert.Spec.NodeF 16)
    (hH : ∀ (n : Fin 100000) (j : Fin 16), ReadP.val_main_v67 (F := Ideal) x0 x1 x2 x4 x5 x6 x7 (ix2 n j) = H n j)
    (g : Fin 64) (o : Fin 8) :
    ReadP.val_main_v83 (F := Ideal) x0 x1 x2 x3 x4 x5 x6 x7 x8 x9 (ix2 g o) = Cert.Spec.head x3 H x8 x9 g o := by
  rw [ReadP.val_main_v83_apply, ReadP.val_main_v80_apply, bias_ref]
  show (∑ k : Fin 16, _) + _ = (∑ j : Fin 16, pooled x3 H g j * x8 (ix2 j o)) + x9 (ix1 o)
  refine congrArg (· + x9 (ix1 o)) (Finset.sum_congr rfl fun k _ => ?_)
  have hl : ReadP.lidx_main_v80 (ix2 g o) k = ix2 g k :=
    funext fun a => Fin.ext (by match a with | ⟨0, _⟩ => rfl | ⟨1, _⟩ => rfl)
  have hr : ReadP.ridx_main_v80 (ix2 g o) k = ix2 k o :=
    funext fun a => Fin.ext (by match a with | ⟨0, _⟩ => rfl | ⟨1, _⟩ => rfl)
  rw [hl, hr, pooled_ref x0 x1 x2 x3 x4 x5 x6 x7 H hH]

end Cert.ReferenceIdeal.RefTail

end
-- ==== Proof.RefValue.lean ====
/-
  The reference computation's result, read at an index on the extended reals, is the message-passing network of
  the specification.

  The stages are put together in program order: the first node-wise linear map, the first layer (the scatter of
  what the edges and the loops send), the rectifier, the second node-wise linear map, the second layer, the
  rectifier, and then the pooling by group and the final affine map. Every word of the edge table is assumed to be
  a node number.
-/
import proofs.«401563_j56057913147714_2_alg».proof.Proof.RefNorm
import proofs.«401563_j56057913147714_2_alg».proof.Proof.RefConv
import proofs.«401563_j56057913147714_2_alg».proof.Proof.RefTail
import proofs.«401563_j56057913147714_2_alg».proof.Proof.Spec
import Idealize.ShloMosaic.Lib.ValueIdx
import Idealize.ShloMosaic.PureOps.Ideal

noncomputable section

namespace Cert.ReferenceIdeal.RefValue

open Idealize.ShloMosaic Idealize.ShloMosaic.ValueIdx Cert.Spec Cert.ReferenceIdeal Cert.ReferenceIdeal.Gen
open Cert.ReferenceIdeal.RefTail
open scoped BigOperators

/-- After the first layer: what every node holds. -/
theorem h1_ref (x0 : NodeX) (x1 : EdgeIx) (x2 : EdgeAttr) (x4 : Wt 128 16) (x5 : Wt 16 16)
    (hR : Cert.Spec.InRange x1) (n : Fin 100000) (j : Fin 16) :
    ReadP.val_main_v49 (F := Ideal) x0 x1 x2 x4 x5 (ix2 n j) = Cert.Spec.h1 x0 x1 x2 x4 x5 n j := by
  rw [RefConv.conv1 x1 x2 hR x0 x1 x2 x4 x5 (RefNorm.src_edge x1) (RefNorm.src_loop x1) (RefNorm.dst_edge x1)
    (RefNorm.dst_loop x1) (RefNorm.nrm_edge x1 hR) (RefNorm.nrm_loop x1) (RefNorm.ea_edge x2) (RefNorm.ea_loop x2) n j]
  -- the node rows the layer works on are the first node-wise linear map
  have e : (fun n j => ReadP.val_main_v34 (F := Ideal) x0 x4 (ix2 n j)) = Cert.Spec.ne1 x0 x4 :=
    funext fun n => funext fun j => ne1_ref x0 x4 n j
  rw [e]
  rfl

/-- After the first rectifier. -/
theorem r1_ref (x0 : NodeX) (x1 : EdgeIx) (x2 : EdgeAttr) (x4 : Wt 128 16) (x5 : Wt 16 16)
    (hR : Cert.Spec.InRange x1) (n : Fin 100000) (j : Fin 16) :
    ReadP.val_main_v50 (F := Ideal) x0 x1 x2 x4 x5 (ix2 n j) = Cert.Spec.relu (Cert.Spec.h1 x0 x1 x2 x4 x5) n j := by
  rw [relu1_ref, h1_ref x0 x1 x2 x4 x5 hR]
  rfl

/-- The second layer's node rows. -/
theorem ne2_eq (x0 : NodeX) (x1 : EdgeIx) (x2 : EdgeAttr) (x4 : Wt 128 16) (x5 x6 : Wt 16 16)
    (hR : Cert.Spec.InRange x1) (n : Fin 100000) (j : Fin 16) :
    ReadP.val_main_v51 (F := Ideal) x0 x1 x2 x4 x5 x6 (ix2 n j) = Cert.Spec.ne2 x0 x1 x2 x4 x5 x6 n j := by
  rw [ne2_ref]
  show _ = ∑ k : Fin 16, Cert.Spec.relu (Cert.Spec.h1 x0 x1 x2 x4 x5) n k * x6 (ix2 k j)
  exact Finset.sum_congr rfl fun k _ => by rw [r1_ref x0 x1 x2 x4 x5 hR]

/-- After the second layer and the second rectifier. -/
theorem h2_ref (x0 : NodeX) (x1 : EdgeIx) (x2 : EdgeAttr) (x4 : Wt 128 16) (x5 x6 x7 : Wt 16 16)
    (hR : Cert.Spec.InRange x1) (n : Fin 100000) (j : Fin 16) :
    ReadP.val_main_v67 (F := Ideal) x0 x1 x2 x4 x5 x6 x7 (ix2 n j) = Cert.Spec.h2 x0 x1 x2 x4 x5 x6 x7 n j := by
  rw [relu2_ref, RefConv.conv2 x1 x2 hR x0 x1 x2 x4 x5 x6 x7 (RefNorm.src_edge x1) (RefNorm.src_loop x1)
    (RefNorm.dst_edge x1) (RefNorm.dst_loop x1) (RefNorm.nrm_edge x1 hR) (RefNorm.nrm_loop x1) (RefNorm.ea_edge x2)
    (RefNorm.ea_loop x2) n j]
  have e : (fun n j => ReadP.val_main_v51 (F := Ideal) x0 x1 x2 x4 x5 x6 (ix2 n j)) = Cert.Spec.ne2 x0 x1 x2 x4 x5 x6 :=
    funext fun n => funext fun j => ne2_eq x0 x1 x2 x4 x5 x6 hR n j
  rw [e]
  rfl

/-- THE REFERENCE'S RESULT at group g and output column o. -/
theorem ref_out (x0 : NodeX) (x1 : EdgeIx) (x2 : EdgeAttr) (x3 : Labels) (x4 : Wt 128 16) (x5 x6 x7 : Wt 16 16)
    (x8 : Wt 16 8) (x9 : Bias) (hR : Cert.Spec.InRange x1) (g : Fin 64) (o : Fin 8) :
    ReadP.val_main_v83 (F := Ideal) x0 x1 x2 x3 x4 x5 x6 x7 x8 x9 (ix2 g o)
      = Cert.Spec.out x0 x1 x2 x3 x4 x5 x6 x7 x8 x9 g o :=
  tail_ref x0 x1 x2 x3 x4 x5 x6 x7 x8 x9 (Cert.Spec.h2 x0 x1 x2 x4 x5 x6 x7)
    (fun n j => h2_ref x0 x1 x2 x4 x5 x6 x7 hR n j) g o

end Cert.ReferenceIdeal.RefValue

end
-- ==== Proof.lean ====
/-
  The certificate: a two-layer message-passing network on a graph (node linear maps and edge messages in four
  pallas_calls, the degree scales, the lookups by source, the sums by destination, the group means and the final
  affine map on the host) against its jnp reference, which lists one loop per node after the edges instead of
  adding the node's own row separately. Over the extended reals both compute Spec.out of the argument arrays
  (Proof/Spec.lean): the kernel program by Proof/KValue.lean, the reference by Proof/RefValue.lean; the one
  law between them is that a non-negative real factor (an edge's weight) distributes over a sum. The claim is
  made where every word of the edge table is a node number (the added precondition): outside that range the
  reference itself indexes out of range.
-/
import proofs.«401563_j56057913147714_2_alg».proof.Proof.Assembly
import proofs.«401563_j56057913147714_2_alg».proof.Proof.KValue
import proofs.«401563_j56057913147714_2_alg».proof.Proof.RefValue

noncomputable section

namespace Cert.Proof

open Idealize.ShloMosaic Idealize.SL.Sem

theorem claim : Cert.Claim :=
  claim_of (fun m ρ c hR g o => Cert.KernelIdeal.KValue.result_eq m ρ c hR g o)
    (fun x0 x1 x2 x3 x4 x5 x6 x7 x8 x9 hR g o => Cert.ReferenceIdeal.RefValue.ref_out x0 x1 x2 x3 x4 x5 x6 x7 x8 x9 hR g o)

end Cert.Proof

end
